-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3000000 : Shape := ⟨2, ![2, 3000000]⟩
abbrev S100000 : Shape := ⟨1, ![100000]⟩
abbrev S1000000 : Shape := ⟨1, ![1000000]⟩
abbrev S3 : Shape := ⟨1, ![3]⟩
abbrev S63x63 : Shape := ⟨2, ![63, 63]⟩
abbrev S63 : Shape := ⟨1, ![63]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3 : S_.BroadcastsInDim S3 (![] : Fin 0 → Fin S3.rank)
  reducesTo_S3_S_d0 : S3.ReducesTo [0] S_
  bcast_S_S63x63 : S_.BroadcastsInDim S63x63 (![] : Fin 0 → Fin S63x63.rank)
  reducesTo_S63x63_S_d0_1 : S63x63.ReducesTo [0, 1] S_
  bcast_S_S63 : S_.BroadcastsInDim S63 (![] : Fin 0 → Fin S63.rank)
  reducesTo_S63_S_d0 : S63.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg12 : FVec F S32 .f32) (main_arg13 : FVec F S32x1 .f32) (main_arg14 : FVec F S1 .f32) (main_v33 : IVec S_ 1) : IVec S_ 1 :=
  let main_v34 : FVec F S32 .f32 := Host.absf main_arg12
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg13
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg14
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg9 : FVec F S64x32 .f32) (main_arg10 : FVec F S32 .f32) (main_arg11 : FVec F S32x32 .f32) (main_arg12 : FVec F S32 .f32) (main_arg13 : FVec F S32x1 .f32) (main_arg14 : FVec F S1 .f32) (main_v13 : IVec S_ 1) (main_v16 : IVec S63 1) : IVec S_ 1 :=
  let main_c_5 : IVec S_ 1 := constantI S_ 1 1#1
  let main_v17 : IVec S_ 1 := (fun x v => Host.reduce IntOp.andi x v reducesTo_S63_S_d0 h_S_) main_v16 main_c_5
  let main_v18 : IVec S_ 1 := andi main_v13 main_v17
  let main_v19 : FVec F S64x32 .f32 := Host.absf main_arg9
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg10
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg11
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg12 main_arg13 main_arg14 main_v33

def fn {F : FTy → Type} [FloatOps F] (main_arg0 : FVec F S100000x64 .f32) (main_arg1 : IVec S2x3000000 32) (main_arg2 : IVec S100000 32) (main_arg3 : IVec S1000000 32) (main_arg4 : IVec S1000000 32) (main_arg5 : IVec S1000000 32) (main_arg6 : FVec F S3 .f32) (main_arg7 : FVec F S63x63 .f32) (main_arg8 : FVec F S63 .f32) (main_arg9 : FVec F S64x32 .f32) (main_arg10 : FVec F S32 .f32) (main_arg11 : FVec F S32x32 .f32) (main_arg12 : FVec F S32 .f32) (main_arg13 : FVec F S32x1 .f32) (main_arg14 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3 .f32 := Host.absf main_arg6
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S63x63 .f32 := Host.absf main_arg7
  let main_cst_2 : FVec F S_ .f32 := constant S_ .f32 0x7F800000#32
  let main_v10 : FVec F S63x63 .f32 := broadcastInDim S63x63 ![] bcast_S_S63x63 main_cst_2
  let main_v11 : IVec S63x63 1 := cmpf .olt main_v9 main_v10
  let main_c_3 : IVec S_ 1 := constantI S_ 1 1#1
  let main_v12 : IVec S_ 1 := (fun x v => Host.reduce IntOp.andi x v reducesTo_S63x63_S_d0_1 h_S_) main_v11 main_c_3
  let main_v13 : IVec S_ 1 := andi main_v8 main_v12
  let main_v14 : FVec F S63 .f32 := Host.absf main_arg8
  let main_cst_4 : FVec F S_ .f32 := constant S_ .f32 0x7F800000#32
  let main_v15 : FVec F S63 .f32 := broadcastInDim S63 ![] bcast_S_S63 main_cst_4
  let main_v16 : IVec S63 1 := cmpf .olt main_v14 main_v15
  fn_part1 (F := F) main_arg9 main_arg10 main_arg11 main_arg12 main_arg13 main_arg14 main_v13 main_v16
-- ==== Kernel.lean ====
abbrev S100000x64 : Shape := ⟨2, ![100000, 64]⟩
abbrev S2x3000000 : Shape := ⟨2, ![2, 3000000]⟩
abbrev S100000 : Shape := ⟨1, ![100000]⟩
abbrev S1000000 : Shape := ⟨1, ![1000000]⟩
abbrev S3 : Shape := ⟨1, ![3]⟩
abbrev S63x63 : Shape := ⟨2, ![63, 63]⟩
abbrev S63 : Shape := ⟨1, ![63]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S3000000 : Shape := ⟨1, ![3000000]⟩
abbrev S1000000x1 : Shape := ⟨2, ![1000000, 1]⟩
abbrev S1x32 : Shape := ⟨2, ![1, 32]⟩
abbrev S63x32 : Shape := ⟨2, ![63, 32]⟩
abbrev S1x63 : Shape := ⟨2, ![1, 63]⟩
abbrev S100000x32 : Shape := ⟨2, ![100000, 32]⟩
abbrev S10000x64 : Shape := ⟨2, ![10000, 64]⟩
abbrev S10000x32 : Shape := ⟨2, ![10000, 32]⟩
abbrev S10000x1 : Shape := ⟨2, ![10000, 1]⟩
abbrev S10000x63 : Shape := ⟨2, ![10000, 63]⟩
abbrev S1x3000000 : Shape := ⟨2, ![1, 3000000]⟩
abbrev S3100000 : Shape := ⟨1, ![3100000]⟩
abbrev S3100000x1 : Shape := ⟨2, ![3100000, 1]⟩
abbrev S3100000x32 : Shape := ⟨2, ![3100000, 32]⟩
abbrev S100000x1 : Shape := ⟨2, ![100000, 1]⟩
abbrev S1x1 : Shape := ⟨2, ![1, 1]⟩
abbrev S256x1 : Shape := ⟨2, ![256, 1]⟩
abbrev S2000x32 : Shape := ⟨2, ![2000, 32]⟩
abbrev S2000x1 : Shape := ⟨2, ![2000, 1]⟩
abbrev S256x32 : Shape := ⟨2, ![256, 32]⟩
abbrev S2000x256 : Shape := ⟨2, ![2000, 256]⟩

abbrev nBuf : Space → Nat
  | .hbm => 135
  | .vmem => 18
  | .smem => 0
  | _ => 0

abbrev hbmTy0_0 (i : Nat) : BufTy := match i % 128 with
  | 0 => ⟨S100000x64, .f32⟩
  | 1 => ⟨S2x3000000, .i32⟩
  | 2 => ⟨S100000, .i32⟩
  | 3 => ⟨S1000000, .i32⟩
  | 4 => ⟨S1000000, .i32⟩
  | 5 => ⟨S1000000, .i32⟩
  | 6 => ⟨S3, .f32⟩
  | 7 => ⟨S63x63, .f32⟩
  | 8 => ⟨S63, .f32⟩
  | 9 => ⟨S64x32, .f32⟩
  | 10 => ⟨S32, .f32⟩
  | 11 => ⟨S32x32, .f32⟩
  | 12 => ⟨S32, .f32⟩
  | 13 => ⟨S32x1, .f32⟩
  | 14 => ⟨S1, .f32⟩
  | 15 => ⟨S_, .f32⟩
  | 16 => ⟨S_, .f32⟩
  | 17 => ⟨S_, .f32⟩
  | 18 => ⟨S_, .f32⟩
  | 19 => ⟨S1, .f32⟩
  | 20 => ⟨S3, .f32⟩
  | 21 => ⟨S3, .f32⟩
  | 22 => ⟨S3, .f32⟩
  | 23 => ⟨S_, .f32⟩
  | 24 => ⟨S_, .f32⟩
  | 25 => ⟨S1, .f32⟩
  | 26 => ⟨S3, .f32⟩
  | 27 => ⟨S3, .f32⟩
  | 28 => ⟨S_, .f32⟩
  | 29 => ⟨S3000000, .f32⟩
  | 30 => ⟨S1, .f32⟩
  | 31 => ⟨S_, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S3000000, .f32⟩
  | 42 => ⟨S1, .f32⟩
  | 43 => ⟨S_, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .f32⟩
  | 53 => ⟨S3000000, .f32⟩
  | 54 => ⟨S1, .f32⟩
  | 55 => ⟨S_, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000, .f32⟩
  | 65 => ⟨S3000000, .f32⟩
  | 66 => ⟨S1x32, .f32⟩
  | 67 => ⟨S63x32, .f32⟩
  | 68 => ⟨S1x63, .f32⟩
  | 69 => ⟨S100000x32, .f32⟩
  | 70 => ⟨S100000, .i32⟩
  | 71 => ⟨S1x3000000, .i32⟩
  | 72 => ⟨S3000000, .i32⟩
  | 73 => ⟨S3100000, .i32⟩
  | 74 => ⟨S1x3000000, .i32⟩
  | 75 => ⟨S3000000, .i32⟩
  | 76 => ⟨S3100000, .i32⟩
  | 77 => ⟨S_, .f32⟩
  | 78 => ⟨S100000, .f32⟩
  | 79 => ⟨S3100000, .f32⟩
  | 80 => ⟨S_, .f32⟩
  | 81 => ⟨S100000, .f32⟩
  | 82 => ⟨S3100000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3100000, .i32⟩
  | 94 => ⟨S3100000, .i1⟩
  | 95 => ⟨S_, .i32⟩
  | 96 => ⟨S3100000, .i32⟩
  | 97 => ⟨S3100000, .i32⟩
  | 98 => ⟨S3100000, .i32⟩
  | 99 => ⟨S3100000x1, .i32⟩
  | 100 => ⟨S3100000, .f32⟩
  | 101 => ⟨S3100000, .f32⟩
  | 102 => ⟨S_, .i32⟩
  | 103 => ⟨S3100000, .i32⟩
  | 104 => ⟨S3100000, .i1⟩
  | 105 => ⟨S_, .i32⟩
  | 106 => ⟨S3100000, .i32⟩
  | 107 => ⟨S3100000, .i32⟩
  | 108 => ⟨S3100000, .i32⟩
  | 109 => ⟨S3100000x1, .i32⟩
  | 110 => ⟨S3100000, .f32⟩
  | 111 => ⟨S3100000, .f32⟩
  | 112 => ⟨S3100000x1, .f32⟩
  | 113 => ⟨S_, .i32⟩
  | 114 => ⟨S3100000, .i32⟩
  | 115 => ⟨S3100000, .i1⟩
  | 116 => ⟨S_, .i32⟩
  | 117 => ⟨S3100000, .i32⟩
  | 118 => ⟨S3100000, .i32⟩
  | 119 => ⟨S3100000, .i32⟩
  | 120 => ⟨S3100000x1, .i32⟩
  | 121 => ⟨S3100000x32, .f32⟩
  | 122 => ⟨S3100000x32, .f32⟩
  | 123 => ⟨S3100000x32, .f32⟩
  | 124 => ⟨S_, .f32⟩
  | 125 => ⟨S100000x32, .f32⟩
  | 126 => ⟨S3100000x1, .i32⟩
  | 127 => ⟨S100000x32, .f32⟩
  | _ => ⟨S100000x64, .f32⟩

abbrev hbmTy0_1 (i : Nat) : BufTy := match i % 128 with
  | 0 => ⟨S1x32, .f32⟩
  | 1 => ⟨S100000x32, .f32⟩
  | 2 => ⟨S100000x32, .f32⟩
  | 3 => ⟨S100000x1, .i32⟩
  | 4 => ⟨S1x32, .f32⟩
  | 5 => ⟨S1x1, .f32⟩
  | 6 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S63x63, .f32⟩
  | .local _ .vmem, ⟨3, _⟩ => ⟨S1x63, .f32⟩
  | .local _ .vmem, ⟨4, _⟩ => ⟨S1x32, .f32⟩
  | .local _ .vmem, ⟨5, _⟩ => ⟨S63x32, .f32⟩
  | .local _ .vmem, ⟨6, _⟩ => ⟨S10000x32, .f32⟩
  | .local _ .vmem, ⟨7, _⟩ => ⟨S10000x32, .f32⟩
  | .local _ .vmem, ⟨8, _⟩ => ⟨S2000x32, .f32⟩
  | .local _ .vmem, ⟨9, _⟩ => ⟨S2000x32, .f32⟩
  | .local _ .vmem, ⟨10, _⟩ => ⟨S2000x1, .i32⟩
  | .local _ .vmem, ⟨11, _⟩ => ⟨S2000x1, .i32⟩
  | .local _ .vmem, ⟨12, _⟩ => ⟨S32x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S256x1, .f32⟩
  | .local _ .vmem, ⟨17, _⟩ => ⟨S256x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_call0_v0 : Ref sig .tc := ⟨.hbm, 89, rfl⟩
abbrev main_call0_v1 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x63 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x63 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S63x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_9 : BitVec 32 := 0#32
  let v24 : BitVec 1 := Scalar.cmpi .ne v23 c0_i32_9
  v24

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S_S3000000 : S_.BroadcastsInDim S3000000 (![] : Fin 0 → Fin S3000000.rank)
  slices_S3_S1_0 : S3.Slices ![0] S1
  shapeCasts_S1_S_ : S1.ShapeCasts S_
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S3_S1_1 : S3.Slices ![1] S1
  slices_S3_S1_2 : S3.Slices ![2] S1
  slices_S64x32_S1x32_0_0 : S64x32.Slices ![0, 0] S1x32
  slices_S64x32_S63x32_1_0 : S64x32.Slices ![1, 0] S63x32
  shapeCasts_S63_S1x63 : S63.ShapeCasts S1x63
  inb_S10000x64_S10000x64_0_0 : ∀ a, (![0, 0] : Fin 2 → Nat) a + S10000x64.size a ≤ S10000x64.size a
  h_S10000x64 : 0 < S10000x64.numel
  slices_S10000x64_o0_0_S10000x1 : S10000x64.Slices ![0, 0] S10000x1
  slices_S10000x64_o0_1_S10000x63 : S10000x64.Slices ![0, 1] S10000x63
  bitsLt_bf16_f32 : FTy.bits .bf16 < FTy.bits .f32
  inb_S63x63_S63x63_0_0 : ∀ a, (![0, 0] : Fin 2 → Nat) a + S63x63.size a ≤ S63x63.size a
  h_S63x63 : 0 < S63x63.numel
  inb_S1x63_S1x63_0_0 : ∀ a, (![0, 0] : Fin 2 → Nat) a + S1x63.size a ≤ S1x63.size a
  h_S1x63 : 0 < S1x63.numel
  shapeCasts_S1x63_S1x63 : S1x63.ShapeCasts S1x63
  broadcasts_S1x63_S10000x63 : S1x63.Broadcasts S10000x63
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S10000x1_S10000x32 : S10000x1.Broadcasts S10000x32
  broadcasts_S1x32_S10000x32 : S1x32.Broadcasts S10000x32
  inb_S63x32_S63x32_0_0 : ∀ a, (![0, 0] : Fin 2 → Nat) a + S63x32.size a ≤ S63x32.size a
  h_S63x32 : 0 < S63x32.numel
  shapeCasts_S63x32_S63x32 : S63x32.ShapeCasts S63x32
  inb_S10000x32_S10000x32_0_0 : ∀ a, (![0, 0] : Fin 2 → Nat) a + S10000x32.size a ≤ S10000x32.size a
  h_S10000x32 : 0 < S10000x32.numel
  slices_S2x3000000_S1x3000000_0_0 : S2x3000000.Slices ![0, 0] S1x3000000
  shapeCasts_S1x3000000_S3000000 : S1x3000000.ShapeCasts S3000000
  concatenates_S3000000_S100000_S3100000_d0 : Shape.Concatenates [S3000000, S100000] S3100000 0
  slices_S2x3000000_S1x3000000_1_0 : S2x3000000.Slices ![1, 0] S1x3000000
  bcast_S_S100000 : S_.BroadcastsInDim S100000 (![] : Fin 0 → Fin S100000.rank)
  bcast_S3100000_S3100000x1_0 : S3100000.BroadcastsInDim S3100000x1 (![0] : Fin 1 → Fin S3100000x1.rank)
  bcast_S_S3100000 : S_.BroadcastsInDim S3100000 (![] : Fin 0 → Fin S3100000.rank)
  bcast_S3100000x1_S3100000x32_0_1 : S3100000x1.BroadcastsInDim S3100000x32 (![0, 1] : Fin 2 → Fin S3100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S100000_S100000x1 : S100000.ShapeCasts S100000x1
  shapeCasts_S32_S1x32 : S32.ShapeCasts S1x32
  shapeCasts_S1_S1x1 : S1.ShapeCasts S1x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  inb_S32x32_S32x32_0_0 : ∀ a, (![0, 0] : Fin 2 → Nat) a + S32x32.size a ≤ S32x32.size a
  h_S32x32 : 0 < S32x32.numel
  broadcasts_S1x32_S256x32 : S1x32.Broadcasts S256x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S3000000_S1000000x1_S1000000_n_0_0_1_wf : ScatterDims.WF S3000000 S1000000x1 S1000000 [] [0] [0] 1
  dot_S10000x63_S63x63_S10000x63_1_0_0_1_n_n_wf : DotDims.WF S10000x63 S63x63 S10000x63 [1] [0] [0] [1] [] []
  dot_S10000x63_S63x32_S10000x32_1_0_0_1_n_n_wf : DotDims.WF S10000x63 S63x32 S10000x32 [1] [0] [0] [1] [] []
  scatter_S100000_S3100000x1_S3100000_n_0_0_1_wf : ScatterDims.WF S100000 S3100000x1 S3100000 [] [0] [0] 1
  gather_S100000_S3100000x1_S3100000_n_0_n_n_0_1_1_wf : GatherDims.WF S100000 S3100000x1 S3100000 [] [0] [] [0] [] 1 ![1]
  gather_S100000x32_S3100000x1_S3100000x32_1_0_n_n_0_1_132_wf : GatherDims.WF S100000x32 S3100000x1 S3100000x32 [1] [0] [] [0] [] 1 ![1, 32]
  scatter_S100000x32_S3100000x1_S3100000x32_1_0_0_1_wf : ScatterDims.WF S100000x32 S3100000x1 S3100000x32 [1] [0] [0] 1
  dot_S2000x256_S2000x32_S256x32_0_0_1_1_n_n_wf : DotDims.WF S2000x256 S2000x32 S256x32 [0] [0] [1] [1] [] []
  dot_S256x32_S32x32_S256x32_1_0_0_1_n_n_wf : DotDims.WF S256x32 S32x32 S256x32 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x63.size a ≤ S63x63.size a
  hwx0_1 : ∀ i : grid0.Coords, EltTy.bits .f32 = 32 ∨ (Rect.block (s := S63x63) S63x63.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x63.size a ≤ S1x63.size a
  hwx0_2 : ∀ i : grid0.Coords, EltTy.bits .f32 = 32 ∨ (Rect.block (s := S1x63) S1x63.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S63x32.size a ≤ S63x32.size a
  hwx0_4 : ∀ i : grid0.Coords, EltTy.bits .f32 = 32 ∨ (Rect.block (s := S63x32) S63x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .i32 = 32 ∨ (Rect.block (s := S100000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)

variable [Facts₀]

def scatter_S3000000_S1000000x1_S1000000_n_0_0_1 : ScatterDims S3000000 S1000000x1 S1000000 where
  updateWindowDims := []
  insertedWindowDims := [0]
  scatterDimsToOperandDims := [0]
  indexVectorDim := 1
  wf := scatter_S3000000_S1000000x1_S1000000_n_0_0_1_wf
def dot_S10000x63_S63x63_S10000x63_1_0_0_1_n_n : DotDims S10000x63 S63x63 S10000x63 where
  lhsContracting := [1]
  rhsContracting := [0]
  lhsNonContracting := [0]
  rhsNonContracting := [1]
  lhsBatch := []
  rhsBatch := []
  wf := dot_S10000x63_S63x63_S10000x63_1_0_0_1_n_n_wf
def dot_S10000x63_S63x32_S10000x32_1_0_0_1_n_n : DotDims S10000x63 S63x32 S10000x32 where
  lhsContracting := [1]
  rhsContracting := [0]
  lhsNonContracting := [0]
  rhsNonContracting := [1]
  lhsBatch := []
  rhsBatch := []
  wf := dot_S10000x63_S63x32_S10000x32_1_0_0_1_n_n_wf
def scatter_S100000_S3100000x1_S3100000_n_0_0_1 : ScatterDims S100000 S3100000x1 S3100000 where
  updateWindowDims := []
  insertedWindowDims := [0]
  scatterDimsToOperandDims := [0]
  indexVectorDim := 1
  wf := scatter_S100000_S3100000x1_S3100000_n_0_0_1_wf
def gather_S100000_S3100000x1_S3100000_n_0_n_n_0_1_1 : GatherDims S100000 S3100000x1 S3100000 where
  offsetDims := []
  collapsedSliceDims := [0]
  operandBatchingDims := []
  startIndicesBatchingDims := []
  startIndexMap := [0]
  indexVectorDim := 1
  sliceSizes := ![1]
  wf := gather_S100000_S3100000x1_S3100000_n_0_n_n_0_1_1_wf
def gather_S100000x32_S3100000x1_S3100000x32_1_0_n_n_0_1_132 : GatherDims S100000x32 S3100000x1 S3100000x32 where
  offsetDims := [1]
  collapsedSliceDims := [0]
  operandBatchingDims := []
  startIndicesBatchingDims := []
  startIndexMap := [0]
  indexVectorDim := 1
  sliceSizes := ![1, 32]
  wf := gather_S100000x32_S3100000x1_S3100000x32_1_0_n_n_0_1_132_wf
def scatter_S100000x32_S3100000x1_S3100000x32_1_0_0_1 : ScatterDims S100000x32 S3100000x1 S3100000x32 where
  updateWindowDims := [1]
  insertedWindowDims := [0]
  scatterDimsToOperandDims := [0]
  indexVectorDim := 1
  wf := scatter_S100000x32_S3100000x1_S3100000x32_1_0_0_1_wf
def dot_S2000x256_S2000x32_S256x32_0_0_1_1_n_n : DotDims S2000x256 S2000x32 S256x32 where
  lhsContracting := [0]
  rhsContracting := [0]
  lhsNonContracting := [1]
  rhsNonContracting := [1]
  lhsBatch := []
  rhsBatch := []
  wf := dot_S2000x256_S2000x32_S256x32_0_0_1_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S63x63.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x63.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S63x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v92) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v94) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v96) S256x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x3000000 : Shape := ⟨2, ![2, 3000000]⟩
abbrev S100000 : Shape := ⟨1, ![100000]⟩
abbrev S1000000 : Shape := ⟨1, ![1000000]⟩
abbrev S3 : Shape := ⟨1, ![3]⟩
abbrev S63x63 : Shape := ⟨2, ![63, 63]⟩
abbrev S63 : Shape := ⟨1, ![63]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S3000000 : Shape := ⟨1, ![3000000]⟩
abbrev S1000000x1 : Shape := ⟨2, ![1000000, 1]⟩
abbrev S100000x1 : Shape := ⟨2, ![100000, 1]⟩
abbrev S100000x63 : Shape := ⟨2, ![100000, 63]⟩
abbrev S1x63 : Shape := ⟨2, ![1, 63]⟩
abbrev S1x3000000 : Shape := ⟨2, ![1, 3000000]⟩
abbrev S3100000 : Shape := ⟨1, ![3100000]⟩
abbrev S3100000x1 : Shape := ⟨2, ![3100000, 1]⟩
abbrev S100000x32 : Shape := ⟨2, ![100000, 32]⟩
abbrev S3100000x32 : Shape := ⟨2, ![3100000, 32]⟩
abbrev S1x32 : Shape := ⟨2, ![1, 32]⟩
abbrev S256x32 : Shape := ⟨2, ![256, 32]⟩
abbrev S256x1 : Shape := ⟨2, ![256, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S100000x64, .f32⟩
  | 1 => ⟨S2x3000000, .i32⟩
  | 2 => ⟨S100000, .i32⟩
  | 3 => ⟨S1000000, .i32⟩
  | 4 => ⟨S1000000, .i32⟩
  | 5 => ⟨S1000000, .i32⟩
  | 6 => ⟨S3, .f32⟩
  | 7 => ⟨S63x63, .f32⟩
  | 8 => ⟨S63, .f32⟩
  | 9 => ⟨S64x32, .f32⟩
  | 10 => ⟨S32, .f32⟩
  | 11 => ⟨S32x32, .f32⟩
  | 12 => ⟨S32, .f32⟩
  | 13 => ⟨S32x1, .f32⟩
  | 14 => ⟨S1, .f32⟩
  | 15 => ⟨S_, .f32⟩
  | 16 => ⟨S_, .f32⟩
  | 17 => ⟨S_, .f32⟩
  | 18 => ⟨S_, .f32⟩
  | 19 => ⟨S1, .f32⟩
  | 20 => ⟨S3, .f32⟩
  | 21 => ⟨S3, .f32⟩
  | 22 => ⟨S3, .f32⟩
  | 23 => ⟨S_, .f32⟩
  | 24 => ⟨S_, .f32⟩
  | 25 => ⟨S1, .f32⟩
  | 26 => ⟨S3, .f32⟩
  | 27 => ⟨S3, .f32⟩
  | 28 => ⟨S_, .f32⟩
  | 29 => ⟨S3000000, .f32⟩
  | 30 => ⟨S1, .f32⟩
  | 31 => ⟨S_, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S3000000, .f32⟩
  | 42 => ⟨S1, .f32⟩
  | 43 => ⟨S_, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .f32⟩
  | 53 => ⟨S3000000, .f32⟩
  | 54 => ⟨S1, .f32⟩
  | 55 => ⟨S_, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000, .f32⟩
  | 65 => ⟨S3000000, .f32⟩
  | 66 => ⟨S100000x1, .f32⟩
  | 67 => ⟨S100000x63, .f32⟩
  | 68 => ⟨S100000x63, .f32⟩
  | 69 => ⟨S1x63, .f32⟩
  | 70 => ⟨S100000x63, .f32⟩
  | 71 => ⟨S100000x63, .f32⟩
  | 72 => ⟨S100000x64, .f32⟩
  | 73 => ⟨S100000, .i32⟩
  | 74 => ⟨S1x3000000, .i32⟩
  | 75 => ⟨S3000000, .i32⟩
  | 76 => ⟨S3100000, .i32⟩
  | 77 => ⟨S1x3000000, .i32⟩
  | 78 => ⟨S3000000, .i32⟩
  | 79 => ⟨S3100000, .i32⟩
  | 80 => ⟨S_, .f32⟩
  | 81 => ⟨S100000, .f32⟩
  | 82 => ⟨S3100000, .f32⟩
  | 83 => ⟨S_, .f32⟩
  | 84 => ⟨S100000, .f32⟩
  | 85 => ⟨S3100000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3100000, .i32⟩
  | 97 => ⟨S3100000, .i1⟩
  | 98 => ⟨S_, .i32⟩
  | 99 => ⟨S3100000, .i32⟩
  | 100 => ⟨S3100000, .i32⟩
  | 101 => ⟨S3100000, .i32⟩
  | 102 => ⟨S3100000x1, .i32⟩
  | 103 => ⟨S3100000, .f32⟩
  | 104 => ⟨S3100000, .f32⟩
  | 105 => ⟨S_, .i32⟩
  | 106 => ⟨S3100000, .i32⟩
  | 107 => ⟨S3100000, .i1⟩
  | 108 => ⟨S_, .i32⟩
  | 109 => ⟨S3100000, .i32⟩
  | 110 => ⟨S3100000, .i32⟩
  | 111 => ⟨S3100000, .i32⟩
  | 112 => ⟨S3100000x1, .i32⟩
  | 113 => ⟨S3100000, .f32⟩
  | 114 => ⟨S3100000, .f32⟩
  | 115 => ⟨S100000x32, .f32⟩
  | 116 => ⟨S3100000x1, .f32⟩
  | 117 => ⟨S_, .i32⟩
  | 118 => ⟨S3100000, .i32⟩
  | 119 => ⟨S3100000, .i1⟩
  | 120 => ⟨S_, .i32⟩
  | 121 => ⟨S3100000, .i32⟩
  | 122 => ⟨S3100000, .i32⟩
  | 123 => ⟨S3100000, .i32⟩
  | 124 => ⟨S3100000x1, .i32⟩
  | 125 => ⟨S3100000x32, .f32⟩
  | 126 => ⟨S3100000x32, .f32⟩
  | 127 => ⟨S3100000x32, .f32⟩
  | _ => ⟨S100000x64, .f32⟩

abbrev hbmTy0_1 (i : Nat) : BufTy := match i % 128 with
  | 0 => ⟨S_, .f32⟩
  | 1 => ⟨S100000x32, .f32⟩
  | 2 => ⟨S3100000x1, .i32⟩
  | 3 => ⟨S100000x32, .f32⟩
  | 4 => ⟨S1x32, .f32⟩
  | 5 => ⟨S100000x32, .f32⟩
  | 6 => ⟨S100000x32, .f32⟩
  | 7 => ⟨S_, .f32⟩
  | 8 => ⟨S100000x32, .f32⟩
  | 9 => ⟨S100000x32, .f32⟩
  | 10 => ⟨S_, .f32⟩
  | 11 => ⟨S256x32, .f32⟩
  | 12 => ⟨S100000x1, .i32⟩
  | 13 => ⟨S256x32, .f32⟩
  | 14 => ⟨S256x32, .f32⟩
  | 15 => ⟨S1x32, .f32⟩
  | 16 => ⟨S256x32, .f32⟩
  | 17 => ⟨S256x32, .f32⟩
  | 18 => ⟨S_, .f32⟩
  | 19 => ⟨S256x32, .f32⟩
  | 20 => ⟨S256x32, .f32⟩
  | 21 => ⟨S256x1, .f32⟩
  | 22 => ⟨S1x1, .f32⟩
  | 23 => ⟨S256x1, .f32⟩
  | 24 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_call0_v0 : Ref sig .tc := ⟨.hbm, 92, rfl⟩
abbrev main_call0_v1 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_14 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_16 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_18 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call1_cst : Ref sig .tc := ⟨.hbm, 135, rfl⟩
abbrev main_call1_v0 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_call2_cst : Ref sig .tc := ⟨.hbm, 146, rfl⟩
abbrev main_call2_v0 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩

abbrev nD : Nat := 1
abbrev τ : Topo := Topo.v7x

variable {F : FTy → Type} [FloatOps F]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S_S3000000 : S_.BroadcastsInDim S3000000 (![] : Fin 0 → Fin S3000000.rank)
  slices_S3_S1_0 : S3.Slices ![0] S1
  shapeCasts_S1_S_ : S1.ShapeCasts S_
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S3_S1_1 : S3.Slices ![1] S1
  slices_S3_S1_2 : S3.Slices ![2] S1
  slices_S100000x64_S100000x1_0_0 : S100000x64.Slices ![0, 0] S100000x1
  slices_S100000x64_S100000x63_0_1 : S100000x64.Slices ![0, 1] S100000x63
  bcast_S63_S1x63_1 : S63.BroadcastsInDim S1x63 (![1] : Fin 1 → Fin S1x63.rank)
  bcast_S1x63_S100000x63_0_1 : S1x63.BroadcastsInDim S100000x63 (![0, 1] : Fin 2 → Fin S100000x63.rank)
  concatenates_S100000x1_S100000x63_S100000x64_d1 : Shape.Concatenates [S100000x1, S100000x63] S100000x64 1
  slices_S2x3000000_S1x3000000_0_0 : S2x3000000.Slices ![0, 0] S1x3000000
  shapeCasts_S1x3000000_S3000000 : S1x3000000.ShapeCasts S3000000
  concatenates_S3000000_S100000_S3100000_d0 : Shape.Concatenates [S3000000, S100000] S3100000 0
  slices_S2x3000000_S1x3000000_1_0 : S2x3000000.Slices ![1, 0] S1x3000000
  bcast_S_S100000 : S_.BroadcastsInDim S100000 (![] : Fin 0 → Fin S100000.rank)
  bcast_S3100000_S3100000x1_0 : S3100000.BroadcastsInDim S3100000x1 (![0] : Fin 1 → Fin S3100000x1.rank)
  bcast_S_S3100000 : S_.BroadcastsInDim S3100000 (![] : Fin 0 → Fin S3100000.rank)
  bcast_S3100000x1_S3100000x32_0_1 : S3100000x1.BroadcastsInDim S3100000x32 (![0, 1] : Fin 2 → Fin S3100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S256x32 : S_.BroadcastsInDim S256x32 (![] : Fin 0 → Fin S256x32.rank)
  bcast_S100000_S100000x1_0 : S100000.BroadcastsInDim S100000x1 (![0] : Fin 1 → Fin S100000x1.rank)
  bcast_S1x32_S256x32_0_1 : S1x32.BroadcastsInDim S256x32 (![0, 1] : Fin 2 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S3000000_S1000000x1_S1000000_n_0_0_1_wf : ScatterDims.WF S3000000 S1000000x1 S1000000 [] [0] [0] 1
  dot_S100000x63_S63x63_S100000x63_1_0_0_1_n_n_wf : DotDims.WF S100000x63 S63x63 S100000x63 [1] [0] [0] [1] [] []
  scatter_S100000_S3100000x1_S3100000_n_0_0_1_wf : ScatterDims.WF S100000 S3100000x1 S3100000 [] [0] [0] 1
  gather_S100000_S3100000x1_S3100000_n_0_n_n_0_1_1_wf : GatherDims.WF S100000 S3100000x1 S3100000 [] [0] [] [0] [] 1 ![1]
  dot_S100000x64_S64x32_S100000x32_1_0_0_1_n_n_wf : DotDims.WF S100000x64 S64x32 S100000x32 [1] [0] [0] [1] [] []
  gather_S100000x32_S3100000x1_S3100000x32_1_0_n_n_0_1_132_wf : GatherDims.WF S100000x32 S3100000x1 S3100000x32 [1] [0] [] [0] [] 1 ![1, 32]
  scatter_S100000x32_S3100000x1_S3100000x32_1_0_0_1_wf : ScatterDims.WF S100000x32 S3100000x1 S3100000x32 [1] [0] [0] 1
  scatter_S256x32_S100000x1_S100000x32_1_0_0_1_wf : ScatterDims.WF S256x32 S100000x1 S100000x32 [1] [0] [0] 1
  dot_S256x32_S32x32_S256x32_1_0_0_1_n_n_wf : DotDims.WF S256x32 S32x32 S256x32 [1] [0] [0] [1] [] []
  dot_S256x32_S32x1_S256x1_1_0_0_1_n_n_wf : DotDims.WF S256x32 S32x1 S256x1 [1] [0] [0] [1] [] []

variable [Facts₀]

def scatter_S3000000_S1000000x1_S1000000_n_0_0_1 : ScatterDims S3000000 S1000000x1 S1000000 where
  updateWindowDims := []
  insertedWindowDims := [0]
  scatterDimsToOperandDims := [0]
  indexVectorDim := 1
  wf := scatter_S3000000_S1000000x1_S1000000_n_0_0_1_wf
def dot_S100000x63_S63x63_S100000x63_1_0_0_1_n_n : DotDims S100000x63 S63x63 S100000x63 where
  lhsContracting := [1]
  rhsContracting := [0]
  lhsNonContracting := [0]
  rhsNonContracting := [1]
  lhsBatch := []
  rhsBatch := []
  wf := dot_S100000x63_S63x63_S100000x63_1_0_0_1_n_n_wf
def scatter_S100000_S3100000x1_S3100000_n_0_0_1 : ScatterDims S100000 S3100000x1 S3100000 where
  updateWindowDims := []
  insertedWindowDims := [0]
  scatterDimsToOperandDims := [0]
  indexVectorDim := 1
  wf := scatter_S100000_S3100000x1_S3100000_n_0_0_1_wf
def gather_S100000_S3100000x1_S3100000_n_0_n_n_0_1_1 : GatherDims S100000 S3100000x1 S3100000 where
  offsetDims := []
  collapsedSliceDims := [0]
  operandBatchingDims := []
  startIndicesBatchingDims := []
  startIndexMap := [0]
  indexVectorDim := 1
  sliceSizes := ![1]
  wf := gather_S100000_S3100000x1_S3100000_n_0_n_n_0_1_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3100000x1_S3100000x32_1_0_n_n_0_1_132 : GatherDims S100000x32 S3100000x1 S3100000x32 where
  offsetDims := [1]
  collapsedSliceDims := [0]
  operandBatchingDims := []
  startIndicesBatchingDims := []
  startIndexMap := [0]
  indexVectorDim := 1
  sliceSizes := ![1, 32]
  wf := gather_S100000x32_S3100000x1_S3100000x32_1_0_n_n_0_1_132_wf
def scatter_S100000x32_S3100000x1_S3100000x32_1_0_0_1 : ScatterDims S100000x32 S3100000x1 S3100000x32 where
  updateWindowDims := [1]
  insertedWindowDims := [0]
  scatterDimsToOperandDims := [0]
  indexVectorDim := 1
  wf := scatter_S100000x32_S3100000x1_S3100000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

class Facts : Prop extends Facts₀ where

variable [Facts]
-- ==== Proof.KR0.lean ====
/-
  The first kernel region (the fused embedding and projection, ten blocks of 10000 nodes) as proof data.

  At a parameter `V` — the TensorCore's buffer contents when the region is entered — each window's block at a
  grid point is the block of its array there. The body loads the five input blocks whole, computes one value
  (the skeleton's `k0_pay1`) and stores it whole into the output block; so after the body the output's staging
  buffer holds that value of the five input blocks, and the inputs' buffers are as they were. The region keeps
  nothing between points: its invariant is the scoped rest and the generator register, untouched.
-/
import proofs.«416187_j31533649887980_1_alg».proof.Proof.Gen.Kernel.Launch
import proofs.«416187_j31533649887980_1_alg».proof.Proof.Gen.Kernel.Skeleton
import proofs.«416187_j31533649887980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX : Rect S10000x64 := Rect.unit (s := S10000x64) ![0, 0] S10000x64.size inb_S10000x64_S10000x64_0_0
abbrev rEW : Rect S63x63 := Rect.unit (s := S63x63) ![0, 0] S63x63.size inb_S63x63_S63x63_0_0
abbrev rEB : Rect S1x63 := Rect.unit (s := S1x63) ![0, 0] S1x63.size inb_S1x63_S1x63_0_0
abbrev rG0 : Rect S1x32 := Rect.unit (s := S1x32) ![0, 0] S1x32.size inb_S1x32_S1x32_0_0
abbrev rG1 : Rect S63x32 := Rect.unit (s := S63x32) ![0, 0] S63x32.size inb_S63x32_S63x32_0_0
abbrev rO : Rect S10000x32 := Rect.unit (s := S10000x32) ![0, 0] S10000x32.size inb_S10000x32_S10000x32_0_0

/-- The output block after the body, from the five input blocks: the one store as a piece. -/
def projBlock (x0 : Vec F S10000x64 .f32) (x1 : Vec F S63x63 .f32) (x2 : Vec F S1x63 .f32) (x3 : Vec F S1x32 .f32)
    (x4 : Vec F S63x32 .f32) : Vec F S10000x32 .f32 :=
  View.canon [⟨rO, k0_pay1 (View.ld x0 rX) (View.ld x1 rEW) (View.ld x2 rEB) (View.ld x3 rG0) (View.ld x4 rG1)⟩]

/-- The one store covers the output block. -/
theorem projCover (p0 : Vec F S10000x32 .f32) (y : S10000x32.Idx) :
    ∃ pc ∈ ([⟨rO, p0⟩] : List (View.Piece (Elt F) S10000x32 .f32)), y ∈ pc.1.set :=
  View.cover_of_tiled [⟨rO, p0⟩] S10000x32.size (by rfl) y

set_option maxHeartbeats 1000000 in
/-- The body on whole staging memrefs, the inputs' at contents `x0 … x4` and the output's at anything, runs to the
    continuation holding the inputs' as they were and the output's at `projBlock` of them. -/
theorem sound_kernel0 (c : Dev nD) (E : Set ℕ) (i : grid0.Coords)
    (arg1 : Memref sig .tc .vmem S10000x64 .f32) (harg1 : arg1.IsWhole) (arg2 : Memref sig .tc .vmem S63x63 .f32) (harg2 : arg2.IsWhole)
    (arg3 : Memref sig .tc .vmem S1x63 .f32) (harg3 : arg3.IsWhole) (arg4 : Memref sig .tc .vmem S1x32 .f32) (harg4 : arg4.IsWhole)
    (arg5 : Memref sig .tc .vmem S63x32 .f32) (harg5 : arg5.IsWhole) (arg6 : Memref sig .tc .vmem S10000x32 .f32) (harg6 : arg6.IsWhole)
    (x0 : Vec F S10000x64 .f32) (x1 : Vec F S63x63 .f32) (x2 : Vec F S1x63 .f32) (x3 : Vec F S1x32 .f32) (x4 : Vec F S63x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (projBlock x0 x1 x2 x3 x4)) -∗ K ⟨⟩))
      ⊢ wp frame (wpE (defs₀ (F := F)) Variants.none c none) E (cc0__embed_gcn_kernel i arg1 harg1 arg2 harg2 arg3 harg3 arg4 harg4 arg5 harg5 arg6 harg6) K := by
  simp only [cc0__embed_gcn_kernel_eq_skeleton]; unfold cc0__embed_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (projCover _)

/-! ## The region's proof data -/

/-- The proof data of the first region on core `c`: the arrays as the region finds them; after the body at point `t`
    each input's buffer at its block and the output's at `projBlock` of the input blocks; the invariant the scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => projBlock (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = projBlock (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/-
  The second kernel region (the pooling and the two-layer head, fifty blocks of 2000 nodes) as proof data.

  The region carries a 256 by 32 accumulator between its points. At the first point the body stores the zero block
  into it and then adds the point's contribution; at every later point it adds that point's contribution to what the
  point before left; at the last point it also stores the head of the accumulated pool into the output block. The
  output window is idle before the last point: its buffer is handed back as it was found.
-/
import proofs.«416187_j31533649887980_1_alg».proof.Proof.Gen.Kernel.Launch
import proofs.«416187_j31533649887980_1_alg».proof.Proof.Gen.Kernel.Skeleton
import proofs.«416187_j31533649887980_1_alg».proof.Proof.Gen.Kernel.Points
import proofs.«416187_j31533649887980_1_alg».proof.Proof.KR0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator's contents after point `n`: the zero block plus the first point's contribution, then each
    later point's contribution added to what the point before left. -/
def accAt (c : Dev nD) : (n : ℕ) → n < cfg1.N → Vec F S256x32 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (accAt c n (Nat.lt_of_succ_lt h))

/-- The last grid point. -/
def tLast : Fin cfg1.N := ⟨49, by rw [show cfg1.N = 50 from N_1]; decide⟩

/-- What the last point stores into the output window: the head of the accumulated pool. -/
def headOut (c : Dev nD) : Vec F S256x1 .f32 :=
  k1_pay3 (accAt V c 49 tLast.isLt) (iblk1 V c 2 tLast) (iblk1 V c 3 tLast) (iblk1 V c 4 tLast) (iblk1 V c 5 tLast)

/-- The scratch operand as a memref. -/
abbrev scM1 : Memref sig .tc .vmem S256x32 .f32 := Memref.whole cc1_scratch0

/-- The core's scoped buffers that are neither a staging buffer of this region nor its accumulator, at some contents
    each: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scoped rest at anything and the generator
    register; afterwards the accumulator at what the point before left, the other scoped buffers at anything, and the
    generator register. -/
def PhiS (c : Dev nD) : (n : ℕ) → n ≤ cfg1.N → sProp 𝕄
  | 0, _ => Pipeline.ΦA spec1 c
  | n + 1, hn => iprop(owns (c : Thread nD τ) scM1 fullShare (accAt V c n hn) ∗ restBut1 (F := F) c ∗ (∃ r, prngReg c r))

/-- The proof data of the second region on core `c`: the arrays as the region finds them; after the body at point `t`
    each input's buffer at its block and the output's at the head of the whole pool; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => headOut V c
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = headOut V c := by dsimp only [dat1]

/-! ## The body's two branch conditions, decided over the grid -/

/-- The first conditional's condition: the point is the first. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition: the point is the last. -/
abbrev cond1_1 (i : grid1.Coords) : Prop := k1_cond2 i = 1#1
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Before the last point the output window is idle, and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last point it is live. -/
theorem liveAt1_6 : ∀ t : Fin cfg1.N, cond1_1 (grid1.coords t) → cfg1.idle 6 (grid1.coords t) = false := by decide +kernel

/-! ## The body's accesses: each buffer whole, through the rectangle at zero offsets -/

theorem hz2 : (![0, 0] : Fin 2 → Nat) = fun _ => 0 := funext fun a => by fin_cases a <;> rfl

abbrev rAcc : Rect S256x32 := Rect.unit (s := S256x32) ![0, 0] S256x32.size inb_S256x32_S256x32_0_0
abbrev rOut : Rect S256x1 := Rect.unit (s := S256x1) ![0, 0] S256x1.size inb_S256x1_S256x1_0_0

/-- A store of the whole accumulator, last, covers it. -/
theorem accCover (p0 : Vec F S256x32 .f32) (L : List (View.Piece (Elt F) S256x32 .f32)) (y : S256x32.Idx) :
    ∃ pc ∈ ((⟨rAcc, p0⟩ : View.Piece (Elt F) S256x32 .f32) :: L), y ∈ pc.1.set :=
  ⟨_, List.mem_cons_self, View.mem_set_unit_zero (S := S256x32) hz2 inb_S256x32_S256x32_0_0 y⟩

/-- The store of the whole output block covers it. -/
theorem outCover (p0 : Vec F S256x1 .f32) (y : S256x1.Idx) :
    ∃ pc ∈ ([⟨rOut, p0⟩] : List (View.Piece (Elt F) S256x1 .f32)), y ∈ pc.1.set :=
  ⟨_, List.mem_cons_self, View.mem_set_unit_zero (S := S256x1) hz2 inb_S256x1_S256x1_0_0 y⟩

set_option maxHeartbeats 1000000 in
/-- The first point: on whole memrefs, the two streamed inputs' at `x0`, `x1` and the accumulator at anything, the body
    stores the zero block into the accumulator, reads it back and runs to the continuation holding the inputs' as they
    were and the accumulator at the zero block plus the point's contribution. -/
theorem sound_kernel1_A (c : Dev nD) (E : Set ℕ) (i : grid1.Coords) (hc0 : cond1_0 i) (hc1 : ¬cond1_1 i)
    (arg1 : Memref sig .tc .vmem S2000x32 .f32) (harg1 : arg1.IsWhole) (arg2 : Memref sig .tc .vmem S2000x1 .i32) (harg2 : arg2.IsWhole)
    (arg3 : Memref sig .tc .vmem S32x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S256x1 .f32) (harg7 : arg7.IsWhole) (arg8 : Memref sig .tc .vmem S256x32 .f32) (harg8 : arg8.IsWhole)
    (x0 : Vec F S2000x32 .f32) (x1 : Vec F S2000x1 .i32)
    (K : PUnit → sProp 𝕄) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (k1_pay2 x0 x1 (k1_pay1 (F := F)))) -∗ K ⟨⟩))
      ⊢ wp frame (wpE (defs₀ (F := F)) Variants.none c none) E
          (cc1__pool_mlp_kernel i arg1 harg1 arg2 harg2 arg3 harg3 arg4 harg4 arg5 harg5 arg6 harg6 arg7 harg7 arg8 harg8) K := by
  simp only [cc1__pool_mlp_kernel_eq_skeleton]; unfold cc1__pool_mlp_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (accCover _ _), View.canon_cons_unit_zero (S := S256x32) hz2]
  simp only [View.readAt_eq_ld, View.ld_unit_zero (S := S2000x32) hz2, View.ld_unit_zero (S := S2000x1) hz2,
    View.readCov_unit_zero (S := S256x32) _ hz2]

set_option maxHeartbeats 1000000 in
/-- A point strictly between the first and the last: on whole memrefs, the two streamed inputs' at `x0`, `x1` and the
    accumulator at `xs`, the body runs to the continuation holding the inputs' as they were and the accumulator at
    `xs` plus the point's contribution. -/
theorem sound_kernel1_B (c : Dev nD) (E : Set ℕ) (i : grid1.Coords) (hc0 : ¬cond1_0 i) (hc1 : ¬cond1_1 i)
    (arg1 : Memref sig .tc .vmem S2000x32 .f32) (harg1 : arg1.IsWhole) (arg2 : Memref sig .tc .vmem S2000x1 .i32) (harg2 : arg2.IsWhole)
    (arg3 : Memref sig .tc .vmem S32x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S256x1 .f32) (harg7 : arg7.IsWhole) (arg8 : Memref sig .tc .vmem S256x32 .f32) (harg8 : arg8.IsWhole)
    (x0 : Vec F S2000x32 .f32) (x1 : Vec F S2000x1 .i32) (xs : Vec F S256x32 .f32)
    (K : PUnit → sProp 𝕄) :
    iprop(owns (c : Thread nD τ) arg1 fullShare x0 ∗ owns (c : Thread nD τ) arg2 fullShare x1 ∗ owns (c : Thread nD τ) arg8 fullShare xs
        ∗ (iprop(owns (c : Thread nD τ) arg1 fullShare x0 ∗ owns (c : Thread nD τ) arg2 fullShare x1
            ∗ owns (c : Thread nD τ) arg8 fullShare (k1_pay2 x0 x1 xs)) -∗ K ⟨⟩))
      ⊢ wp frame (wpE (defs₀ (F := F)) Variants.none c none) E
          (cc1__pool_mlp_kernel i arg1 harg1 arg2 harg2 arg3 harg3 arg4 harg4 arg5 harg5 arg6 harg6 arg7 harg7 arg8 harg8) K := by
  simp only [cc1__pool_mlp_kernel_eq_skeleton]; unfold cc1__pool_mlp_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (accCover _ _), View.canon_unit_zero hz2]
  simp only [View.readAt_eq_ld, View.ld_unit_zero (S := S2000x32) hz2, View.ld_unit_zero (S := S2000x1) hz2,
    View.ld_unit_zero (S := S256x32) hz2]

set_option maxHeartbeats 1000000 in
/-- The last point: on whole memrefs, the six inputs' at `x0 … x5`, the output's at anything and the accumulator at
    `xs`, the body adds the point's contribution to the accumulator, reads it back and stores the head of it whole into
    the output block. -/
theorem sound_kernel1_C (c : Dev nD) (E : Set ℕ) (i : grid1.Coords) (hc0 : ¬cond1_0 i) (hc1 : cond1_1 i)
    (arg1 : Memref sig .tc .vmem S2000x32 .f32) (harg1 : arg1.IsWhole) (arg2 : Memref sig .tc .vmem S2000x1 .i32) (harg2 : arg2.IsWhole)
    (arg3 : Memref sig .tc .vmem S32x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S256x1 .f32) (harg7 : arg7.IsWhole) (arg8 : Memref sig .tc .vmem S256x32 .f32) (harg8 : arg8.IsWhole)
    (x0 : Vec F S2000x32 .f32) (x1 : Vec F S2000x1 .i32) (x2 : Vec F S32x32 .f32) (x3 : Vec F S1x32 .f32)
    (x4 : Vec F S32x1 .f32) (x5 : Vec F S1x1 .f32) (xs : Vec F S256x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay3 (k1_pay2 x0 x1 xs) x2 x3 x4 x5)
            ∗ owns (c : Thread nD τ) arg8 fullShare (k1_pay2 x0 x1 xs)) -∗ K ⟨⟩))
      ⊢ wp frame (wpE (defs₀ (F := F)) Variants.none c none) E
          (cc1__pool_mlp_kernel i arg1 harg1 arg2 harg2 arg3 harg3 arg4 harg4 arg5 harg5 arg6 harg6 arg7 harg7 arg8 harg8) K := by
  simp only [cc1__pool_mlp_kernel_eq_skeleton]; unfold cc1__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (outCover _), View.canon_unit_zero hz2]
    simp only [View.readAt_eq_ld, View.readCov_unit_zero (S := S256x32) _ hz2, View.ld_unit_zero (S := S2000x32) hz2,
      View.ld_unit_zero (S := S2000x1) hz2, View.ld_unit_zero (S := S256x32) hz2, View.ld_unit_zero (S := S32x32) hz2,
      View.ld_unit_zero (S := S1x32) hz2, View.ld_unit_zero (S := S32x1) hz2, View.ld_unit_zero (S := S1x1) hz2]
  iexists _; isplitr
  swap; · iexact HS
  ipureintro
  sl_unfold_words
  rw [View.read_writes_eq_canon _ _ _ (accCover _ _), View.canon_unit_zero hz2]
  simp only [View.readAt_eq_ld, View.ld_unit_zero (S := S2000x32) hz2, View.ld_unit_zero (S := S2000x1) hz2,
    View.ld_unit_zero (S := S256x32) hz2]

/-! ## The invariant, position by position -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn
      = iprop(owns (c : Thread nD τ) scM1 fullShare (accAt V c n hn) ∗ restBut1 (F := F) c ∗ (∃ r, prngReg c r)) := rfl

theorem PhiS_pos (c : Dev nD) (n : ℕ) (h : n ≤ cfg1.N) (hz : n ≠ 0) :
    PhiS V c n h
      = iprop(owns (c : Thread nD τ) scM1 fullShare (accAt V c (n - 1) (by omega)) ∗ restBut1 (F := F) c ∗ (∃ r, prngReg c r)) := by
  cases n with
  | zero => exact absurd rfl hz
  | succ n => rfl

/-- What the launch hands the region: the accumulator at anything, the other scoped buffers, the generator register. -/
theorem PhiA1_eq (c : Dev nD) :
    (Pipeline.ΦA spec1 c : sProp 𝕄)
      = iprop(((∃ d, owns (c : Thread nD τ) scM1 fullShare d) ∗ restBut1 (F := F) c) ∗ (∃ r, prngReg c r)) := by
  unfold Pipeline.ΦA
  rw [Pipeline.scopedRest_split_of_list spec1 c [cc1_scratch0] (by decide) (by decide)]
  simp only [bigSepL_singleton, scM1, owns_whole]; try rfl

theorem PhiS_castSucc (c : Dev nD) (t : Fin cfg1.N) :
    (dat1 V c).Φ t.castSucc = PhiS V c t.val (Nat.le_of_lt t.isLt) := by
  dsimp only [dat1]; simp only [Fin.coe_castSucc]

/-- The accumulator after the first point. -/
theorem accAt_first (c : Dev nD) (t : Fin cfg1.N) (h0 : t.val = 0) :
    accAt V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

/-- The accumulator after a later point, from what the point before left. -/
theorem accAt_later (c : Dev nD) (t : Fin cfg1.N) (h0 : t.val ≠ 0) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd rfl h0
  | succ n => rfl

/-- The output block at the last point, over that point's blocks. -/
theorem headOut_at (c : Dev nD) (t : Fin cfg1.N) (h : t.val = 49) :
    headOut V c = k1_pay3 (accAt V c t.val t.isLt) (iblk1 V c 2 t) (iblk1 V c 3 t) (iblk1 V c 4 t) (iblk1 V c 5 t) := by
  obtain rfl : t = tLast := Fin.ext h
  rfl

/-! ## The inputs' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]

set_option maxHeartbeats 4000000 in
/-- The body at any point: the inputs' buffers hold their blocks; the point is the first, the last or neither, and
    the matching triple applies; the invariant hands the body the accumulator at what the point before left (at
    anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5]
  have hN : t.val < 50 := lt_of_lt_of_eq t.isLt (show cfg1.N = 50 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [PhiS_castSucc V c t, PhiS_zero V c _ _ h0, PhiA1_eq, accAt_first V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, H6⟩
    iapply (sound_kernel1_A c Set.univ _ hc0 hc1 _ _ _ _ _ _ _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond1_0 (grid1.coords t) := fun h => h0 ((hcond1_0 t).mp h)
    rw [PhiS_castSucc V c t, PhiS_pos V c _ _ h0, accAt_later V c t h0]
    by_cases h1 : t.val = 49
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6, headOut_at V c t h1, accAt_later V c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ _ hc0 hc1 _ _ _ _ _ _ _ _ _ _ _ _ _ _ _ _ (iblk1 V c 0 t) (iblk1 V c 1 t)
        (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      iintro ⟨⟨HS, HR, Hg⟩, Ho, ⟨%d0, H0⟩, ⟨%d1, H1⟩, ⟨%d2, H2⟩, ⟨%d3, H3⟩, ⟨%d4, H4⟩, ⟨%d5, H5⟩, H6⟩
      iapply (sound_kernel1_B c Set.univ _ hc0 hc1 _ _ _ _ _ _ _ _ _ _ _ _ _ _ _ _ (iblk1 V c 0 t) (iblk1 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS, HR, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.KRun.lean ====
/-
  The launch of the whole program: the two kernel regions as segments of the main function, over the host
  stretches between them, and the run from the launch memory to the return.

  Between two items of the main function a core holds every unscoped buffer at a known valuation. The host
  stretches change it by their operations; a region changes only its output window's array. What the first region
  leaves in its output array is the fold of its ten write-backs, and what the second leaves is the fold of its own
  (only the last grid point writes back). These two contents are the unknowns the valuations between the items
  are written over; with them chosen, each region is entered from the valuation before it and left at the one
  after it, and the run ends with every unscoped buffer at the last valuation.
-/
import proofs.«416187_j31533649887980_1_alg».proof.Proof.KR0
import proofs.«416187_j31533649887980_1_alg».proof.Proof.KR1
import proofs.«416187_j31533649887980_1_alg».proof.Proof.Gen.Kernel.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers as region 0 finds them, read at the TensorCore's references. -/
abbrev Vr0 (c : Dev nD) (b : Ref sig .tc) : Buf (Elt F) ((c : Thread nD τ).loc b) := Gen.V1 m c (Proc.devRef .tc b)

/-- What region 0 leaves: its arrays at the fold of its write-backs, every other buffer as entered. -/
def outs0 : Gen.Outs (F := F) := fun _ r c =>
  Pipeline.withArrays spec0 c (Gen.V1 m c) (fun w => (dat0 (Vr0 m) c).arrAt w cfg0.N) (Proc.devRef .tc r)

/-- The buffers as region 1 finds them, read at the TensorCore's references. -/
abbrev Vr1 (c : Dev nD) (b : Ref sig .tc) : Buf (Elt F) ((c : Thread nD τ).loc b) := Gen.V5 m (outs0 m) c (Proc.devRef .tc b)

/-- What both regions leave: after region 1 its arrays at the fold of its write-backs over the valuation it is entered
    from; before that, what region 0 leaves. -/
def outs : Gen.Outs (F := F) := fun J r c =>
  if J = 6 then Pipeline.withArrays spec1 c (Gen.V5 m (outs0 m) c) (fun w => (dat1 (Vr1 m) c).arrAt w cfg1.N) (Proc.devRef .tc r)
  else outs0 m J r c

theorem outs_two (c : Dev nD) : outs m 2 main_v44 c = outs0 m 2 main_v44 c := if_neg (by decide)

/-- Region 0's output array after it: the fold of its write-backs. -/
theorem outs0_hw (c : Dev nD) : outs0 m 2 main_v44 c = (dat0 (Vr0 m) c).arrAt 5 cfg0.N :=
  Pipeline.withArrays_arr spec0 launch0.win.arr_inj c _ _ 5

theorem outs_hw (c : Dev nD) : outs m 2 main_v44 c = (dat0 (Vr0 m) c).arrAt 5 cfg0.N :=
  (outs_two m c).trans (outs0_hw m c)

/-- Region 1's output array after it: the fold of its write-backs. -/
theorem outs_out (c : Dev nD) : outs m 6 main_v96 c = (dat1 (Vr1 m) c).arrAt 6 cfg1.N :=
  (if_pos rfl).trans (Pipeline.withArrays_arr spec1 launch1.win.arr_inj c _ _ 6)

/-- The valuation region 1 is entered from reads the unknowns only at region 0's output array. -/
theorem V5_outs (c : Dev nD) : Gen.V5 m (outs m) c = Gen.V5 m (outs0 m) c :=
  congrArg (fun x => StableHlo.after hostOps1_2 (StableHlo.after hostOps1_1 (StableHlo.after hostOps1
    (Function.update (Gen.V1 m c) main_v44 x)))) (outs_two m c)

theorem V6_out (c : Dev nD) : Gen.V6 m (outs m) c (Proc.devRef .tc main_v96) = (dat1 (Vr1 m) c).arrAt 6 cfg1.N :=
  (Function.update_self _ _ _).trans (outs_out m c)

theorem V2_hw (c : Dev nD) : Gen.V2 m (outs m) c (Proc.devRef .tc main_v44) = (dat0 (Vr0 m) c).arrAt 5 cfg0.N :=
  (Function.update_self _ _ _).trans (outs_hw m c)

/-! ## At a region's exit: its arrays at what it leaves, every other buffer as entered -/

/-- After region 0 each of its arrays holds what the pipeline leaves: an input window's array is as entered and is
    not the output's; the output's is the unknown, chosen to be the fold of the write-backs. -/
theorem hF0 (c : Dev nD) : ∀ w : Fin cfg0.W, (dat0 (Vr0 m) c).arrAt w cfg0.N = Gen.V2 m (outs m) c (Proc.devRef .tc (Pipeline.arrRef spec0 w))
  | 0 => (((dat0 (Vr0 m) c).arrAt_in 0 rfl _).trans (A_eq0 (Vr0 m) c 0)).trans (Gen.V2_of m (outs m) c main_arg0 (by decide)).symm
  | 1 => (((dat0 (Vr0 m) c).arrAt_in 1 rfl _).trans (A_eq0 (Vr0 m) c 1)).trans (Gen.V2_of m (outs m) c main_arg7 (by decide)).symm
  | 2 => (((dat0 (Vr0 m) c).arrAt_in 2 rfl _).trans (A_eq0 (Vr0 m) c 2)).trans (Gen.V2_of m (outs m) c main_v43 (by decide)).symm
  | 3 => (((dat0 (Vr0 m) c).arrAt_in 3 rfl _).trans (A_eq0 (Vr0 m) c 3)).trans (Gen.V2_of m (outs m) c main_v41 (by decide)).symm
  | 4 => (((dat0 (Vr0 m) c).arrAt_in 4 rfl _).trans (A_eq0 (Vr0 m) c 4)).trans (Gen.V2_of m (outs m) c main_v42 (by decide)).symm
  | 5 => (V2_hw m c).symm
  | ⟨_ + 6, h⟩ => absurd h (Nat.not_lt.2 (Nat.le_add_left _ _))

/-- Every buffer that is no array of region 0 is after it as before it. -/
theorem hrest0 (c : Dev nD) (b : Ref sig .tc) (hb : b ∉ Finset.univ.image (Pipeline.arrRef spec0)) :
    Gen.V2 m (outs m) c (Proc.devRef .tc b) = Vr0 m c b :=
  Gen.V2_of m (outs m) c b fun h => hb (Finset.mem_image.mpr ⟨5, Finset.mem_univ _, (List.mem_singleton.mp h).symm⟩)

/-- After region 1 each of its arrays holds what the pipeline leaves. -/
theorem hF1 (c : Dev nD) : ∀ w : Fin cfg1.W, (dat1 (Vr1 m) c).arrAt w cfg1.N = Gen.V6 m (outs m) c (Proc.devRef .tc (Pipeline.arrRef spec1 w))
  | 0 => (((dat1 (Vr1 m) c).arrAt_in 0 rfl _).trans (A_eq1 (Vr1 m) c 0)).trans (((Gen.V6_of m (outs m) c main_v92 (by decide)).trans (congrFun (V5_outs m c) _)).symm)
  | 1 => (((dat1 (Vr1 m) c).arrAt_in 1 rfl _).trans (A_eq1 (Vr1 m) c 1)).trans (((Gen.V6_of m (outs m) c main_v93 (by decide)).trans (congrFun (V5_outs m c) _)).symm)
  | 2 => (((dat1 (Vr1 m) c).arrAt_in 2 rfl _).trans (A_eq1 (Vr1 m) c 2)).trans (((Gen.V6_of m (outs m) c main_arg11 (by decide)).trans (congrFun (V5_outs m c) _)).symm)
  | 3 => (((dat1 (Vr1 m) c).arrAt_in 3 rfl _).trans (A_eq1 (Vr1 m) c 3)).trans (((Gen.V6_of m (outs m) c main_v94 (by decide)).trans (congrFun (V5_outs m c) _)).symm)
  | 4 => (((dat1 (Vr1 m) c).arrAt_in 4 rfl _).trans (A_eq1 (Vr1 m) c 4)).trans (((Gen.V6_of m (outs m) c main_arg13 (by decide)).trans (congrFun (V5_outs m c) _)).symm)
  | 5 => (((dat1 (Vr1 m) c).arrAt_in 5 rfl _).trans (A_eq1 (Vr1 m) c 5)).trans (((Gen.V6_of m (outs m) c main_v95 (by decide)).trans (congrFun (V5_outs m c) _)).symm)
  | 6 => (V6_out m c).symm
  | ⟨_ + 7, h⟩ => absurd h (Nat.not_lt.2 (Nat.le_add_left _ _))

/-- Every buffer that is no array of region 1 is after it as before it. -/
theorem hrest1 (c : Dev nD) (b : Ref sig .tc) (hb : b ∉ Finset.univ.image (Pipeline.arrRef spec1)) :
    Gen.V6 m (outs m) c (Proc.devRef .tc b) = Vr1 m c b :=
  (Gen.V6_of m (outs m) c b fun h => hb (Finset.mem_image.mpr ⟨6, Finset.mem_univ _, (List.mem_singleton.mp h).symm⟩)).trans
    (congrFun (V5_outs m c) _)

/-! ## The proof data family and the thread state -/

/-- Every pipeline's proof data, each at the contents its region is entered from. -/
def pdats : (p : Fin 2) → (c : Dev nD) → Dat τ (Elt F) Unit ℕ (UR sig nD τ) ℕ (Pipeline.pin (pcfgs (F := F)) Gen.adm p) c
  | ⟨0, _⟩ => fun c => dat0 (Vr0 m) c
  | ⟨1, _⟩ => fun c => dat1 (Vr1 m) c

/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the valuation after the first host stretch,
    left at that valuation with the output array at the fold of the write-backs. Its arrays are split out of the
    unscoped buffers and put back at the exit contents; the generator register goes into the invariant and comes
    out; nothing is owed; the kernel has no semaphore of its own. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ (fun _ => ∅) (fun _ _ => 0) 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr0 m c) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr0 m c) (fun b => Gen.V2 m (outs m) c (Proc.devRef .tc b)) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation after the last host stretch,
    left at that valuation with the output array at the fold of the write-backs. Its invariant carries the
    accumulator between the points; at the two ends it is the scoped rest and the generator register. -/
def reg1 : Pipeline.RegionSeg (pcfgs (F := F)) Gen.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ (fun _ => ∅) (fun _ _ => 0) 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none, V5_outs m c]
    have hsplit := Pipeline.arrays_of_unscopedBufs (p := 1) (pcfgs (F := F)) Gen.adm (pdats m) launch1.win launch1.arr_whole c
      ((pdats m 1 c).share_full fun _ => rfl) (Vr1 m c) fun _ => rfl
    rw [Pipeline.unscopedBufs_held c (Gen.V5 m (outs0 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr1 m c) (fun b => Gen.V6 m (outs m) c (Proc.devRef .tc b)) ((pdats m 1 c).arrAt · cfg1.N) (hF1 m c) (hrest1 m c)
    rw [Pipeline.unscopedBufs_held c (Gen.V6 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipelines' staging cells and their tokens, as the library deals them. -/
abbrev u₀ : UR sig nD τ := initOf (Pipeline.cells cfgs cellOf_inj) (Pipeline.launchToks cfgs cellOf_inj)

/-- The launch element is the library's own; no core gets a ghost resource besides. -/
theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the rest state on every core: the generator register as dealt, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ∗ levAts (fun _ => ∅) (fun _ _ => 0))
    ⊢ (|={Set.univ}=> bigSep Finset.univ (fun c : Dev nD => R (F := F) c) : sProp 𝕄) := by
  refine Pipeline.initEach (fun _ => ∅) (fun _ _ => 0) fun c => ?_
  iintro ⟨⟨-, HO, -, Hp, -⟩, -⟩
  imodintro
  isplitl [Hp]; · iexists _; iexact Hp
  iexists ∅; iexact HO

/-- The rest state ends owing nothing. -/
theorem hE2 (c : Dev nD) : R (F := F) c ⊢ (iprop(∃ W, owes (c : Thread nD τ) (0 : CellTallies nD τ sig Unit) W) : sProp 𝕄) := by
  iintro ⟨-, HO⟩; iexact HO

/-- THE FRAME: from any memory with zero counters every weakly fair execution of the main function terminates and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () Variants.none (fun _ => ∅) (fun _ _ => 0) (fun _ _ => rfl) ρ (outs m) (pdats m) 0 (fun _ => iprop(emp)) u₀ (hu₀ (F := F))
    (fun _ c => R (F := F) c) (hE0 ρ) hE2 (reg0 m) (fun _ => .rfl) (fun _ => .rfl) (reg1 m) (fun _ => .rfl) (fun _ => .rfl)

set_option backward.isDefEq.respectTransparency.types false in
/-- THE RUN: from any memory with zero counters every weakly fair execution of the main function terminates and every
    final memory holds every unscoped buffer at the last valuation: the launch memory through the host stretches, with
    each region's output array at the fold of its write-backs. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V6 m (outs m) c b) := by
  refine Pipeline.θ_run_regions_kit_dev (pcfgs (F := F)) Gen.adm (pdats m) () cellOf_inj emb₁ defs₀ Variants.none (fun _ => ∅) (fun _ _ => 0) m ρ main
    (Gen.segs m (outs m) Variants.none (fun _ => ∅) (fun _ _ => 0) (fun _ c => R (F := F) c) () (pdats m) (reg0 m) (reg1 m))
    (fun c Q => by
      rewrite [main_chain c, Pipeline.Seg.run_eq_chain,
        show (Gen.segs m (outs m) Variants.none (fun _ => ∅) (fun _ _ => 0) (fun _ c => R (F := F) c) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl)
    (fun _ => iprop(emp)) u₀ (hu₀ (F := F))
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (hE2 c)⟩)
    (hinit := ?_) (QY := fun c s => ∀ b ∈ Pipeline.ucRefs τ sig, s.mem ((c : Thread nD τ).1, b) = Gen.V6 m (outs m) c b)
    (hfin := fun c s' => ?_) (hQ := fun _ h => h)
  · -- at the launch every core holds its unscoped buffers at the launch memory, its generator register, and owes nothing
    refine Pipeline.initEach (fun _ => ∅) (fun _ _ => 0) fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- at the return the buffers held at the last valuation are what the final memory holds
    unfold StableHlo.held
    iintro ⟨Hh, HSI⟩
    imodintro
    iapply (pointsTo_read_all (Pipeline.ucRefs τ sig) (fun b => ((c : Thread nD τ).1, b)) (Gen.V6 m (outs m) c) s')
    isplitl [Hh] <;> iassumption

end Cert.Kernel.Hand

end
-- ==== Proof.KIR0.lean ====
/-
  The first kernel region (the fused embedding and projection, ten blocks of 10000 nodes) as proof data.

  At a parameter `V` — the TensorCore's buffer contents when the region is entered — each window's block at a
  grid point is the block of its array there. The body loads the five input blocks whole, computes one value
  (the skeleton's `k0_pay1`) and stores it whole into the output block; so after the body the output's staging
  buffer holds that value of the five input blocks, and the inputs' buffers are as they were. The region keeps
  nothing between points: its invariant is the scoped rest and the generator register, untouched.
-/
import proofs.«416187_j31533649887980_1_alg».proof.Proof.Gen.KernelIdeal.Launch
import proofs.«416187_j31533649887980_1_alg».proof.Proof.Gen.KernelIdeal.Skeleton
import proofs.«416187_j31533649887980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX : Rect S10000x64 := Rect.unit (s := S10000x64) ![0, 0] S10000x64.size inb_S10000x64_S10000x64_0_0
abbrev rEW : Rect S63x63 := Rect.unit (s := S63x63) ![0, 0] S63x63.size inb_S63x63_S63x63_0_0
abbrev rEB : Rect S1x63 := Rect.unit (s := S1x63) ![0, 0] S1x63.size inb_S1x63_S1x63_0_0
abbrev rG0 : Rect S1x32 := Rect.unit (s := S1x32) ![0, 0] S1x32.size inb_S1x32_S1x32_0_0
abbrev rG1 : Rect S63x32 := Rect.unit (s := S63x32) ![0, 0] S63x32.size inb_S63x32_S63x32_0_0
abbrev rO : Rect S10000x32 := Rect.unit (s := S10000x32) ![0, 0] S10000x32.size inb_S10000x32_S10000x32_0_0

/-- The output block after the body, from the five input blocks: the one store as a piece. -/
def projBlock (x0 : Vec F S10000x64 .f32) (x1 : Vec F S63x63 .f32) (x2 : Vec F S1x63 .f32) (x3 : Vec F S1x32 .f32)
    (x4 : Vec F S63x32 .f32) : Vec F S10000x32 .f32 :=
  View.canon [⟨rO, k0_pay1 (View.ld x0 rX) (View.ld x1 rEW) (View.ld x2 rEB) (View.ld x3 rG0) (View.ld x4 rG1)⟩]

/-- The one store covers the output block. -/
theorem projCover (p0 : Vec F S10000x32 .f32) (y : S10000x32.Idx) :
    ∃ pc ∈ ([⟨rO, p0⟩] : List (View.Piece (Elt F) S10000x32 .f32)), y ∈ pc.1.set :=
  View.cover_of_tiled [⟨rO, p0⟩] S10000x32.size (by rfl) y

set_option maxHeartbeats 1000000 in
/-- The body on whole staging memrefs, the inputs' at contents `x0 … x4` and the output's at anything, runs to the
    continuation holding the inputs' as they were and the output's at `projBlock` of them. -/
theorem sound_kernel0 (c : Dev nD) (E : Set ℕ) (i : grid0.Coords)
    (arg1 : Memref sig .tc .vmem S10000x64 .f32) (harg1 : arg1.IsWhole) (arg2 : Memref sig .tc .vmem S63x63 .f32) (harg2 : arg2.IsWhole)
    (arg3 : Memref sig .tc .vmem S1x63 .f32) (harg3 : arg3.IsWhole) (arg4 : Memref sig .tc .vmem S1x32 .f32) (harg4 : arg4.IsWhole)
    (arg5 : Memref sig .tc .vmem S63x32 .f32) (harg5 : arg5.IsWhole) (arg6 : Memref sig .tc .vmem S10000x32 .f32) (harg6 : arg6.IsWhole)
    (x0 : Vec F S10000x64 .f32) (x1 : Vec F S63x63 .f32) (x2 : Vec F S1x63 .f32) (x3 : Vec F S1x32 .f32) (x4 : Vec F S63x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (projBlock x0 x1 x2 x3 x4)) -∗ K ⟨⟩))
      ⊢ wp frame (wpE (defs₀ (F := F)) Variants.none c none) E (cc0__embed_gcn_kernel i arg1 harg1 arg2 harg2 arg3 harg3 arg4 harg4 arg5 harg5 arg6 harg6) K := by
  simp only [cc0__embed_gcn_kernel_eq_skeleton]; unfold cc0__embed_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (projCover _)

/-! ## The region's proof data -/

/-- The proof data of the first region on core `c`: the arrays as the region finds them; after the body at point `t`
    each input's buffer at its block and the output's at `projBlock` of the input blocks; the invariant the scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => projBlock (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = projBlock (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR1.lean ====
/-
  The second kernel region (the pooling and the two-layer head, fifty blocks of 2000 nodes) as proof data.

  The region carries a 256 by 32 accumulator between its points. At the first point the body stores the zero block
  into it and then adds the point's contribution; at every later point it adds that point's contribution to what the
  point before left; at the last point it also stores the head of the accumulated pool into the output block. The
  output window is idle before the last point: its buffer is handed back as it was found.
-/
import proofs.«416187_j31533649887980_1_alg».proof.Proof.Gen.KernelIdeal.Launch
import proofs.«416187_j31533649887980_1_alg».proof.Proof.Gen.KernelIdeal.Skeleton
import proofs.«416187_j31533649887980_1_alg».proof.Proof.Gen.KernelIdeal.Points
import proofs.«416187_j31533649887980_1_alg».proof.Proof.KIR0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator's contents after point `n`: the zero block plus the first point's contribution, then each
    later point's contribution added to what the point before left. -/
def accAt (c : Dev nD) : (n : ℕ) → n < cfg1.N → Vec F S256x32 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (accAt c n (Nat.lt_of_succ_lt h))

/-- The last grid point. -/
def tLast : Fin cfg1.N := ⟨49, by rw [show cfg1.N = 50 from N_1]; decide⟩

/-- What the last point stores into the output window: the head of the accumulated pool. -/
def headOut (c : Dev nD) : Vec F S256x1 .f32 :=
  k1_pay3 (accAt V c 49 tLast.isLt) (iblk1 V c 2 tLast) (iblk1 V c 3 tLast) (iblk1 V c 4 tLast) (iblk1 V c 5 tLast)

/-- The scratch operand as a memref. -/
abbrev scM1 : Memref sig .tc .vmem S256x32 .f32 := Memref.whole cc1_scratch0

/-- The core's scoped buffers that are neither a staging buffer of this region nor its accumulator, at some contents
    each: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scoped rest at anything and the generator
    register; afterwards the accumulator at what the point before left, the other scoped buffers at anything, and the
    generator register. -/
def PhiS (c : Dev nD) : (n : ℕ) → n ≤ cfg1.N → sProp 𝕄
  | 0, _ => Pipeline.ΦA spec1 c
  | n + 1, hn => iprop(owns (c : Thread nD τ) scM1 fullShare (accAt V c n hn) ∗ restBut1 (F := F) c ∗ (∃ r, prngReg c r))

/-- The proof data of the second region on core `c`: the arrays as the region finds them; after the body at point `t`
    each input's buffer at its block and the output's at the head of the whole pool; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => headOut V c
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = headOut V c := by dsimp only [dat1]

/-! ## The body's two branch conditions, decided over the grid -/

/-- The first conditional's condition: the point is the first. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition: the point is the last. -/
abbrev cond1_1 (i : grid1.Coords) : Prop := k1_cond2 i = 1#1
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Before the last point the output window is idle, and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last point it is live. -/
theorem liveAt1_6 : ∀ t : Fin cfg1.N, cond1_1 (grid1.coords t) → cfg1.idle 6 (grid1.coords t) = false := by decide +kernel

/-! ## The body's accesses: each buffer whole, through the rectangle at zero offsets -/

theorem hz2 : (![0, 0] : Fin 2 → Nat) = fun _ => 0 := funext fun a => by fin_cases a <;> rfl

abbrev rAcc : Rect S256x32 := Rect.unit (s := S256x32) ![0, 0] S256x32.size inb_S256x32_S256x32_0_0
abbrev rOut : Rect S256x1 := Rect.unit (s := S256x1) ![0, 0] S256x1.size inb_S256x1_S256x1_0_0

/-- A store of the whole accumulator, last, covers it. -/
theorem accCover (p0 : Vec F S256x32 .f32) (L : List (View.Piece (Elt F) S256x32 .f32)) (y : S256x32.Idx) :
    ∃ pc ∈ ((⟨rAcc, p0⟩ : View.Piece (Elt F) S256x32 .f32) :: L), y ∈ pc.1.set :=
  ⟨_, List.mem_cons_self, View.mem_set_unit_zero (S := S256x32) hz2 inb_S256x32_S256x32_0_0 y⟩

/-- The store of the whole output block covers it. -/
theorem outCover (p0 : Vec F S256x1 .f32) (y : S256x1.Idx) :
    ∃ pc ∈ ([⟨rOut, p0⟩] : List (View.Piece (Elt F) S256x1 .f32)), y ∈ pc.1.set :=
  ⟨_, List.mem_cons_self, View.mem_set_unit_zero (S := S256x1) hz2 inb_S256x1_S256x1_0_0 y⟩

set_option maxHeartbeats 1000000 in
/-- The first point: on whole memrefs, the two streamed inputs' at `x0`, `x1` and the accumulator at anything, the body
    stores the zero block into the accumulator, reads it back and runs to the continuation holding the inputs' as they
    were and the accumulator at the zero block plus the point's contribution. -/
theorem sound_kernel1_A (c : Dev nD) (E : Set ℕ) (i : grid1.Coords) (hc0 : cond1_0 i) (hc1 : ¬cond1_1 i)
    (arg1 : Memref sig .tc .vmem S2000x32 .f32) (harg1 : arg1.IsWhole) (arg2 : Memref sig .tc .vmem S2000x1 .i32) (harg2 : arg2.IsWhole)
    (arg3 : Memref sig .tc .vmem S32x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S256x1 .f32) (harg7 : arg7.IsWhole) (arg8 : Memref sig .tc .vmem S256x32 .f32) (harg8 : arg8.IsWhole)
    (x0 : Vec F S2000x32 .f32) (x1 : Vec F S2000x1 .i32)
    (K : PUnit → sProp 𝕄) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (k1_pay2 x0 x1 (k1_pay1 (F := F)))) -∗ K ⟨⟩))
      ⊢ wp frame (wpE (defs₀ (F := F)) Variants.none c none) E
          (cc1__pool_mlp_kernel i arg1 harg1 arg2 harg2 arg3 harg3 arg4 harg4 arg5 harg5 arg6 harg6 arg7 harg7 arg8 harg8) K := by
  simp only [cc1__pool_mlp_kernel_eq_skeleton]; unfold cc1__pool_mlp_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (accCover _ _), View.canon_cons_unit_zero (S := S256x32) hz2]
  simp only [View.readAt_eq_ld, View.ld_unit_zero (S := S2000x32) hz2, View.ld_unit_zero (S := S2000x1) hz2,
    View.readCov_unit_zero (S := S256x32) _ hz2]

set_option maxHeartbeats 1000000 in
/-- A point strictly between the first and the last: on whole memrefs, the two streamed inputs' at `x0`, `x1` and the
    accumulator at `xs`, the body runs to the continuation holding the inputs' as they were and the accumulator at
    `xs` plus the point's contribution. -/
theorem sound_kernel1_B (c : Dev nD) (E : Set ℕ) (i : grid1.Coords) (hc0 : ¬cond1_0 i) (hc1 : ¬cond1_1 i)
    (arg1 : Memref sig .tc .vmem S2000x32 .f32) (harg1 : arg1.IsWhole) (arg2 : Memref sig .tc .vmem S2000x1 .i32) (harg2 : arg2.IsWhole)
    (arg3 : Memref sig .tc .vmem S32x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S256x1 .f32) (harg7 : arg7.IsWhole) (arg8 : Memref sig .tc .vmem S256x32 .f32) (harg8 : arg8.IsWhole)
    (x0 : Vec F S2000x32 .f32) (x1 : Vec F S2000x1 .i32) (xs : Vec F S256x32 .f32)
    (K : PUnit → sProp 𝕄) :
    iprop(owns (c : Thread nD τ) arg1 fullShare x0 ∗ owns (c : Thread nD τ) arg2 fullShare x1 ∗ owns (c : Thread nD τ) arg8 fullShare xs
        ∗ (iprop(owns (c : Thread nD τ) arg1 fullShare x0 ∗ owns (c : Thread nD τ) arg2 fullShare x1
            ∗ owns (c : Thread nD τ) arg8 fullShare (k1_pay2 x0 x1 xs)) -∗ K ⟨⟩))
      ⊢ wp frame (wpE (defs₀ (F := F)) Variants.none c none) E
          (cc1__pool_mlp_kernel i arg1 harg1 arg2 harg2 arg3 harg3 arg4 harg4 arg5 harg5 arg6 harg6 arg7 harg7 arg8 harg8) K := by
  simp only [cc1__pool_mlp_kernel_eq_skeleton]; unfold cc1__pool_mlp_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (accCover _ _), View.canon_unit_zero hz2]
  simp only [View.readAt_eq_ld, View.ld_unit_zero (S := S2000x32) hz2, View.ld_unit_zero (S := S2000x1) hz2,
    View.ld_unit_zero (S := S256x32) hz2]

set_option maxHeartbeats 1000000 in
/-- The last point: on whole memrefs, the six inputs' at `x0 … x5`, the output's at anything and the accumulator at
    `xs`, the body adds the point's contribution to the accumulator, reads it back and stores the head of it whole into
    the output block. -/
theorem sound_kernel1_C (c : Dev nD) (E : Set ℕ) (i : grid1.Coords) (hc0 : ¬cond1_0 i) (hc1 : cond1_1 i)
    (arg1 : Memref sig .tc .vmem S2000x32 .f32) (harg1 : arg1.IsWhole) (arg2 : Memref sig .tc .vmem S2000x1 .i32) (harg2 : arg2.IsWhole)
    (arg3 : Memref sig .tc .vmem S32x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S256x1 .f32) (harg7 : arg7.IsWhole) (arg8 : Memref sig .tc .vmem S256x32 .f32) (harg8 : arg8.IsWhole)
    (x0 : Vec F S2000x32 .f32) (x1 : Vec F S2000x1 .i32) (x2 : Vec F S32x32 .f32) (x3 : Vec F S1x32 .f32)
    (x4 : Vec F S32x1 .f32) (x5 : Vec F S1x1 .f32) (xs : Vec F S256x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay3 (k1_pay2 x0 x1 xs) x2 x3 x4 x5)
            ∗ owns (c : Thread nD τ) arg8 fullShare (k1_pay2 x0 x1 xs)) -∗ K ⟨⟩))
      ⊢ wp frame (wpE (defs₀ (F := F)) Variants.none c none) E
          (cc1__pool_mlp_kernel i arg1 harg1 arg2 harg2 arg3 harg3 arg4 harg4 arg5 harg5 arg6 harg6 arg7 harg7 arg8 harg8) K := by
  simp only [cc1__pool_mlp_kernel_eq_skeleton]; unfold cc1__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (outCover _), View.canon_unit_zero hz2]
    simp only [View.readAt_eq_ld, View.readCov_unit_zero (S := S256x32) _ hz2, View.ld_unit_zero (S := S2000x32) hz2,
      View.ld_unit_zero (S := S2000x1) hz2, View.ld_unit_zero (S := S256x32) hz2, View.ld_unit_zero (S := S32x32) hz2,
      View.ld_unit_zero (S := S1x32) hz2, View.ld_unit_zero (S := S32x1) hz2, View.ld_unit_zero (S := S1x1) hz2]
  iexists _; isplitr
  swap; · iexact HS
  ipureintro
  sl_unfold_words
  rw [View.read_writes_eq_canon _ _ _ (accCover _ _), View.canon_unit_zero hz2]
  simp only [View.readAt_eq_ld, View.ld_unit_zero (S := S2000x32) hz2, View.ld_unit_zero (S := S2000x1) hz2,
    View.ld_unit_zero (S := S256x32) hz2]

/-! ## The invariant, position by position -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn
      = iprop(owns (c : Thread nD τ) scM1 fullShare (accAt V c n hn) ∗ restBut1 (F := F) c ∗ (∃ r, prngReg c r)) := rfl

theorem PhiS_pos (c : Dev nD) (n : ℕ) (h : n ≤ cfg1.N) (hz : n ≠ 0) :
    PhiS V c n h
      = iprop(owns (c : Thread nD τ) scM1 fullShare (accAt V c (n - 1) (by omega)) ∗ restBut1 (F := F) c ∗ (∃ r, prngReg c r)) := by
  cases n with
  | zero => exact absurd rfl hz
  | succ n => rfl

/-- What the launch hands the region: the accumulator at anything, the other scoped buffers, the generator register. -/
theorem PhiA1_eq (c : Dev nD) :
    (Pipeline.ΦA spec1 c : sProp 𝕄)
      = iprop(((∃ d, owns (c : Thread nD τ) scM1 fullShare d) ∗ restBut1 (F := F) c) ∗ (∃ r, prngReg c r)) := by
  unfold Pipeline.ΦA
  rw [Pipeline.scopedRest_split_of_list spec1 c [cc1_scratch0] (by decide) (by decide)]
  simp only [bigSepL_singleton, scM1, owns_whole]; try rfl

theorem PhiS_castSucc (c : Dev nD) (t : Fin cfg1.N) :
    (dat1 V c).Φ t.castSucc = PhiS V c t.val (Nat.le_of_lt t.isLt) := by
  dsimp only [dat1]; simp only [Fin.coe_castSucc]

/-- The accumulator after the first point. -/
theorem accAt_first (c : Dev nD) (t : Fin cfg1.N) (h0 : t.val = 0) :
    accAt V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

/-- The accumulator after a later point, from what the point before left. -/
theorem accAt_later (c : Dev nD) (t : Fin cfg1.N) (h0 : t.val ≠ 0) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd rfl h0
  | succ n => rfl

/-- The output block at the last point, over that point's blocks. -/
theorem headOut_at (c : Dev nD) (t : Fin cfg1.N) (h : t.val = 49) :
    headOut V c = k1_pay3 (accAt V c t.val t.isLt) (iblk1 V c 2 t) (iblk1 V c 3 t) (iblk1 V c 4 t) (iblk1 V c 5 t) := by
  obtain rfl : t = tLast := Fin.ext h
  rfl

/-! ## The inputs' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]

set_option maxHeartbeats 4000000 in
/-- The body at any point: the inputs' buffers hold their blocks; the point is the first, the last or neither, and
    the matching triple applies; the invariant hands the body the accumulator at what the point before left (at
    anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5]
  have hN : t.val < 50 := lt_of_lt_of_eq t.isLt (show cfg1.N = 50 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [PhiS_castSucc V c t, PhiS_zero V c _ _ h0, PhiA1_eq, accAt_first V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, H6⟩
    iapply (sound_kernel1_A c Set.univ _ hc0 hc1 _ _ _ _ _ _ _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond1_0 (grid1.coords t) := fun h => h0 ((hcond1_0 t).mp h)
    rw [PhiS_castSucc V c t, PhiS_pos V c _ _ h0, accAt_later V c t h0]
    by_cases h1 : t.val = 49
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6, headOut_at V c t h1, accAt_later V c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ _ hc0 hc1 _ _ _ _ _ _ _ _ _ _ _ _ _ _ _ _ (iblk1 V c 0 t) (iblk1 V c 1 t)
        (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      iintro ⟨⟨HS, HR, Hg⟩, Ho, ⟨%d0, H0⟩, ⟨%d1, H1⟩, ⟨%d2, H2⟩, ⟨%d3, H3⟩, ⟨%d4, H4⟩, ⟨%d5, H5⟩, H6⟩
      iapply (sound_kernel1_B c Set.univ _ hc0 hc1 _ _ _ _ _ _ _ _ _ _ _ _ _ _ _ _ (iblk1 V c 0 t) (iblk1 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS, HR, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KIRun.lean ====
/-
  The launch of the whole program: the two kernel regions as segments of the main function, over the host
  stretches between them, and the run from the launch memory to the return.

  Between two items of the main function a core holds every unscoped buffer at a known valuation. The host
  stretches change it by their operations; a region changes only its output window's array. What the first region
  leaves in its output array is the fold of its ten write-backs, and what the second leaves is the fold of its own
  (only the last grid point writes back). These two contents are the unknowns the valuations between the items
  are written over; with them chosen, each region is entered from the valuation before it and left at the one
  after it, and the run ends with every unscoped buffer at the last valuation.
-/
import proofs.«416187_j31533649887980_1_alg».proof.Proof.KIR0
import proofs.«416187_j31533649887980_1_alg».proof.Proof.KIR1
import proofs.«416187_j31533649887980_1_alg».proof.Proof.Gen.KernelIdeal.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers as region 0 finds them, read at the TensorCore's references. -/
abbrev Vr0 (c : Dev nD) (b : Ref sig .tc) : Buf (Elt F) ((c : Thread nD τ).loc b) := Gen.V1 m c (Proc.devRef .tc b)

/-- What region 0 leaves: its arrays at the fold of its write-backs, every other buffer as entered. -/
def outs0 : Gen.Outs (F := F) := fun _ r c =>
  Pipeline.withArrays spec0 c (Gen.V1 m c) (fun w => (dat0 (Vr0 m) c).arrAt w cfg0.N) (Proc.devRef .tc r)

/-- The buffers as region 1 finds them, read at the TensorCore's references. -/
abbrev Vr1 (c : Dev nD) (b : Ref sig .tc) : Buf (Elt F) ((c : Thread nD τ).loc b) := Gen.V5 m (outs0 m) c (Proc.devRef .tc b)

/-- What both regions leave: after region 1 its arrays at the fold of its write-backs over the valuation it is entered
    from; before that, what region 0 leaves. -/
def outs : Gen.Outs (F := F) := fun J r c =>
  if J = 6 then Pipeline.withArrays spec1 c (Gen.V5 m (outs0 m) c) (fun w => (dat1 (Vr1 m) c).arrAt w cfg1.N) (Proc.devRef .tc r)
  else outs0 m J r c

theorem outs_two (c : Dev nD) : outs m 2 main_v44 c = outs0 m 2 main_v44 c := if_neg (by decide)

/-- Region 0's output array after it: the fold of its write-backs. -/
theorem outs0_hw (c : Dev nD) : outs0 m 2 main_v44 c = (dat0 (Vr0 m) c).arrAt 5 cfg0.N :=
  Pipeline.withArrays_arr spec0 launch0.win.arr_inj c _ _ 5

theorem outs_hw (c : Dev nD) : outs m 2 main_v44 c = (dat0 (Vr0 m) c).arrAt 5 cfg0.N :=
  (outs_two m c).trans (outs0_hw m c)

/-- Region 1's output array after it: the fold of its write-backs. -/
theorem outs_out (c : Dev nD) : outs m 6 main_v96 c = (dat1 (Vr1 m) c).arrAt 6 cfg1.N :=
  (if_pos rfl).trans (Pipeline.withArrays_arr spec1 launch1.win.arr_inj c _ _ 6)

/-- The valuation region 1 is entered from reads the unknowns only at region 0's output array. -/
theorem V5_outs (c : Dev nD) : Gen.V5 m (outs m) c = Gen.V5 m (outs0 m) c :=
  congrArg (fun x => StableHlo.after hostOps1_2 (StableHlo.after hostOps1_1 (StableHlo.after hostOps1
    (Function.update (Gen.V1 m c) main_v44 x)))) (outs_two m c)

theorem V6_out (c : Dev nD) : Gen.V6 m (outs m) c (Proc.devRef .tc main_v96) = (dat1 (Vr1 m) c).arrAt 6 cfg1.N :=
  (Function.update_self _ _ _).trans (outs_out m c)

theorem V2_hw (c : Dev nD) : Gen.V2 m (outs m) c (Proc.devRef .tc main_v44) = (dat0 (Vr0 m) c).arrAt 5 cfg0.N :=
  (Function.update_self _ _ _).trans (outs_hw m c)

/-! ## At a region's exit: its arrays at what it leaves, every other buffer as entered -/

/-- After region 0 each of its arrays holds what the pipeline leaves: an input window's array is as entered and is
    not the output's; the output's is the unknown, chosen to be the fold of the write-backs. -/
theorem hF0 (c : Dev nD) : ∀ w : Fin cfg0.W, (dat0 (Vr0 m) c).arrAt w cfg0.N = Gen.V2 m (outs m) c (Proc.devRef .tc (Pipeline.arrRef spec0 w))
  | 0 => (((dat0 (Vr0 m) c).arrAt_in 0 rfl _).trans (A_eq0 (Vr0 m) c 0)).trans (Gen.V2_of m (outs m) c main_arg0 (by decide)).symm
  | 1 => (((dat0 (Vr0 m) c).arrAt_in 1 rfl _).trans (A_eq0 (Vr0 m) c 1)).trans (Gen.V2_of m (outs m) c main_arg7 (by decide)).symm
  | 2 => (((dat0 (Vr0 m) c).arrAt_in 2 rfl _).trans (A_eq0 (Vr0 m) c 2)).trans (Gen.V2_of m (outs m) c main_v43 (by decide)).symm
  | 3 => (((dat0 (Vr0 m) c).arrAt_in 3 rfl _).trans (A_eq0 (Vr0 m) c 3)).trans (Gen.V2_of m (outs m) c main_v41 (by decide)).symm
  | 4 => (((dat0 (Vr0 m) c).arrAt_in 4 rfl _).trans (A_eq0 (Vr0 m) c 4)).trans (Gen.V2_of m (outs m) c main_v42 (by decide)).symm
  | 5 => (V2_hw m c).symm
  | ⟨_ + 6, h⟩ => absurd h (Nat.not_lt.2 (Nat.le_add_left _ _))

/-- Every buffer that is no array of region 0 is after it as before it. -/
theorem hrest0 (c : Dev nD) (b : Ref sig .tc) (hb : b ∉ Finset.univ.image (Pipeline.arrRef spec0)) :
    Gen.V2 m (outs m) c (Proc.devRef .tc b) = Vr0 m c b :=
  Gen.V2_of m (outs m) c b fun h => hb (Finset.mem_image.mpr ⟨5, Finset.mem_univ _, (List.mem_singleton.mp h).symm⟩)

/-- After region 1 each of its arrays holds what the pipeline leaves. -/
theorem hF1 (c : Dev nD) : ∀ w : Fin cfg1.W, (dat1 (Vr1 m) c).arrAt w cfg1.N = Gen.V6 m (outs m) c (Proc.devRef .tc (Pipeline.arrRef spec1 w))
  | 0 => (((dat1 (Vr1 m) c).arrAt_in 0 rfl _).trans (A_eq1 (Vr1 m) c 0)).trans (((Gen.V6_of m (outs m) c main_v92 (by decide)).trans (congrFun (V5_outs m c) _)).symm)
  | 1 => (((dat1 (Vr1 m) c).arrAt_in 1 rfl _).trans (A_eq1 (Vr1 m) c 1)).trans (((Gen.V6_of m (outs m) c main_v93 (by decide)).trans (congrFun (V5_outs m c) _)).symm)
  | 2 => (((dat1 (Vr1 m) c).arrAt_in 2 rfl _).trans (A_eq1 (Vr1 m) c 2)).trans (((Gen.V6_of m (outs m) c main_arg11 (by decide)).trans (congrFun (V5_outs m c) _)).symm)
  | 3 => (((dat1 (Vr1 m) c).arrAt_in 3 rfl _).trans (A_eq1 (Vr1 m) c 3)).trans (((Gen.V6_of m (outs m) c main_v94 (by decide)).trans (congrFun (V5_outs m c) _)).symm)
  | 4 => (((dat1 (Vr1 m) c).arrAt_in 4 rfl _).trans (A_eq1 (Vr1 m) c 4)).trans (((Gen.V6_of m (outs m) c main_arg13 (by decide)).trans (congrFun (V5_outs m c) _)).symm)
  | 5 => (((dat1 (Vr1 m) c).arrAt_in 5 rfl _).trans (A_eq1 (Vr1 m) c 5)).trans (((Gen.V6_of m (outs m) c main_v95 (by decide)).trans (congrFun (V5_outs m c) _)).symm)
  | 6 => (V6_out m c).symm
  | ⟨_ + 7, h⟩ => absurd h (Nat.not_lt.2 (Nat.le_add_left _ _))

/-- Every buffer that is no array of region 1 is after it as before it. -/
theorem hrest1 (c : Dev nD) (b : Ref sig .tc) (hb : b ∉ Finset.univ.image (Pipeline.arrRef spec1)) :
    Gen.V6 m (outs m) c (Proc.devRef .tc b) = Vr1 m c b :=
  (Gen.V6_of m (outs m) c b fun h => hb (Finset.mem_image.mpr ⟨6, Finset.mem_univ _, (List.mem_singleton.mp h).symm⟩)).trans
    (congrFun (V5_outs m c) _)

/-! ## The proof data family and the thread state -/

/-- Every pipeline's proof data, each at the contents its region is entered from. -/
def pdats : (p : Fin 2) → (c : Dev nD) → Dat τ (Elt F) Unit ℕ (UR sig nD τ) ℕ (Pipeline.pin (pcfgs (F := F)) Gen.adm p) c
  | ⟨0, _⟩ => fun c => dat0 (Vr0 m) c
  | ⟨1, _⟩ => fun c => dat1 (Vr1 m) c

/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the valuation after the first host stretch,
    left at that valuation with the output array at the fold of the write-backs. Its arrays are split out of the
    unscoped buffers and put back at the exit contents; the generator register goes into the invariant and comes
    out; nothing is owed; the kernel has no semaphore of its own. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ (fun _ => ∅) (fun _ _ => 0) 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr0 m c) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr0 m c) (fun b => Gen.V2 m (outs m) c (Proc.devRef .tc b)) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation after the last host stretch,
    left at that valuation with the output array at the fold of the write-backs. Its invariant carries the
    accumulator between the points; at the two ends it is the scoped rest and the generator register. -/
def reg1 : Pipeline.RegionSeg (pcfgs (F := F)) Gen.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ (fun _ => ∅) (fun _ _ => 0) 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none, V5_outs m c]
    have hsplit := Pipeline.arrays_of_unscopedBufs (p := 1) (pcfgs (F := F)) Gen.adm (pdats m) launch1.win launch1.arr_whole c
      ((pdats m 1 c).share_full fun _ => rfl) (Vr1 m c) fun _ => rfl
    rw [Pipeline.unscopedBufs_held c (Gen.V5 m (outs0 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr1 m c) (fun b => Gen.V6 m (outs m) c (Proc.devRef .tc b)) ((pdats m 1 c).arrAt · cfg1.N) (hF1 m c) (hrest1 m c)
    rw [Pipeline.unscopedBufs_held c (Gen.V6 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipelines' staging cells and their tokens, as the library deals them. -/
abbrev u₀ : UR sig nD τ := initOf (Pipeline.cells cfgs cellOf_inj) (Pipeline.launchToks cfgs cellOf_inj)

/-- The launch element is the library's own; no core gets a ghost resource besides. -/
theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the rest state on every core: the generator register as dealt, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ∗ levAts (fun _ => ∅) (fun _ _ => 0))
    ⊢ (|={Set.univ}=> bigSep Finset.univ (fun c : Dev nD => R (F := F) c) : sProp 𝕄) := by
  refine Pipeline.initEach (fun _ => ∅) (fun _ _ => 0) fun c => ?_
  iintro ⟨⟨-, HO, -, Hp, -⟩, -⟩
  imodintro
  isplitl [Hp]; · iexists _; iexact Hp
  iexists ∅; iexact HO

/-- The rest state ends owing nothing. -/
theorem hE2 (c : Dev nD) : R (F := F) c ⊢ (iprop(∃ W, owes (c : Thread nD τ) (0 : CellTallies nD τ sig Unit) W) : sProp 𝕄) := by
  iintro ⟨-, HO⟩; iexact HO

/-- THE FRAME: from any memory with zero counters every weakly fair execution of the main function terminates and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () Variants.none (fun _ => ∅) (fun _ _ => 0) (fun _ _ => rfl) ρ (outs m) (pdats m) 0 (fun _ => iprop(emp)) u₀ (hu₀ (F := F))
    (fun _ c => R (F := F) c) (hE0 ρ) hE2 (reg0 m) (fun _ => .rfl) (fun _ => .rfl) (reg1 m) (fun _ => .rfl) (fun _ => .rfl)

set_option backward.isDefEq.respectTransparency.types false in
/-- THE RUN: from any memory with zero counters every weakly fair execution of the main function terminates and every
    final memory holds every unscoped buffer at the last valuation: the launch memory through the host stretches, with
    each region's output array at the fold of its write-backs. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V6 m (outs m) c b) := by
  refine Pipeline.θ_run_regions_kit_dev (pcfgs (F := F)) Gen.adm (pdats m) () cellOf_inj emb₁ defs₀ Variants.none (fun _ => ∅) (fun _ _ => 0) m ρ main
    (Gen.segs m (outs m) Variants.none (fun _ => ∅) (fun _ _ => 0) (fun _ c => R (F := F) c) () (pdats m) (reg0 m) (reg1 m))
    (fun c Q => by
      rewrite [main_chain c, Pipeline.Seg.run_eq_chain,
        show (Gen.segs m (outs m) Variants.none (fun _ => ∅) (fun _ _ => 0) (fun _ c => R (F := F) c) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl)
    (fun _ => iprop(emp)) u₀ (hu₀ (F := F))
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (hE2 c)⟩)
    (hinit := ?_) (QY := fun c s => ∀ b ∈ Pipeline.ucRefs τ sig, s.mem ((c : Thread nD τ).1, b) = Gen.V6 m (outs m) c b)
    (hfin := fun c s' => ?_) (hQ := fun _ h => h)
  · -- at the launch every core holds its unscoped buffers at the launch memory, its generator register, and owes nothing
    refine Pipeline.initEach (fun _ => ∅) (fun _ _ => 0) fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- at the return the buffers held at the last valuation are what the final memory holds
    unfold StableHlo.held
    iintro ⟨Hh, HSI⟩
    imodintro
    iapply (pointsTo_read_all (Pipeline.ucRefs τ sig) (fun b => ((c : Thread nD τ).1, b)) (Gen.V6 m (outs m) c) s')
    isplitl [Hh] <;> iassumption

end Cert.KernelIdeal.Hand

end
-- ==== Proof.Spec.lean ====
/-
  What the two programs compute, as functions of arrays over the extended reals.

  Nodes n < 100000 carry 64 features; column 0 is kept and columns 1..63 are embedded by a 63 x 63 matrix plus a
  bias, and the 64 resulting columns are projected to 32 by a 64 x 32 matrix whose row 0 and rows 1..63 are given
  apart (the projection of a concatenation is the sum of the projections of its parts):

      proj[n, j] = x[n, 0] * g0[0, j] + sum_k (sum_a x[n, a + 1] * eW[a, k] + eb[0, k]) * g1[k, j].

  Pooling adds the positive part of each node's row into the row of its graph, graphs g < 256 named by a word per
  node (a word that names no graph below 256 adds nowhere):

      pool[g, j] = sum_n (if word[n] = g then max (agg[n, j]) 0 else 0).

  The head is two dense layers, the first followed by the positive part:

      head[g] = sum_j max (sum_i pool[g, i] * W1[i, j] + b1[0, j]) 0 * W2[j, 0] + b2[0, 0].
-/
import Idealize.ShloMosaic.Lib.ValueIdx
import Idealize.ShloMosaic.PureOps.Ideal

noncomputable section

namespace Cert.Spec

open Idealize.ShloMosaic Idealize.ShloMosaic.ValueIdx
open scoped BigOperators

/-- The node features projected: column 0 through row `g0`, the embedded columns through `g1`. -/
def proj (x : (⟨2, ![100000, 64]⟩ : Shape).Idx → EReal) (eW : (⟨2, ![63, 63]⟩ : Shape).Idx → EReal)
    (eb : (⟨2, ![1, 63]⟩ : Shape).Idx → EReal) (g0 : (⟨2, ![1, 32]⟩ : Shape).Idx → EReal)
    (g1 : (⟨2, ![63, 32]⟩ : Shape).Idx → EReal) (n : Fin 100000) (j : Fin 32) : EReal :=
  x (ix2 n (0 : Fin 64)) * g0 (ix2 (0 : Fin 1) j)
    + ∑ k : Fin 63, ((∑ a : Fin 63, x (ix2 n (⟨a.val + 1, by omega⟩ : Fin 64)) * eW (ix2 a k)) + eb (ix2 (0 : Fin 1) k)) * g1 (ix2 k j)

/-- One graph's pooled row entry: the positive parts of the entries of the nodes whose word names the graph. -/
def pool (agg : (⟨2, ![100000, 32]⟩ : Shape).Idx → EReal) (word : (⟨2, ![100000, 1]⟩ : Shape).Idx → BitVec 32)
    (g : Fin 256) (j : Fin 32) : EReal :=
  ∑ n : Fin 100000, if (word (ix2 n (0 : Fin 1))).toInt = (g.val : ℤ) then max (agg (ix2 n j)) 0 else 0

/-- The two dense layers on a pooled row. -/
def head (p : Fin 256 → Fin 32 → EReal) (W1 : (⟨2, ![32, 32]⟩ : Shape).Idx → EReal)
    (b1 : (⟨2, ![1, 32]⟩ : Shape).Idx → EReal) (W2 : (⟨2, ![32, 1]⟩ : Shape).Idx → EReal)
    (b2 : (⟨2, ![1, 1]⟩ : Shape).Idx → EReal) (g : Fin 256) : EReal :=
  (∑ j : Fin 32, max ((∑ i : Fin 32, p g i * W1 (ix2 i j)) + b1 (ix2 (0 : Fin 1) j)) 0 * W2 (ix2 j (0 : Fin 1)))
    + b2 (ix2 (0 : Fin 1) (0 : Fin 1))

/-! ## Re-laid arrays: a vector as a one-row or one-column matrix, a matrix's first row and its other rows -/

/-- A vector of extent `n` as the matrix [1, n]. -/
def row {α : Type} {n : Nat} (v : (⟨1, ![n]⟩ : Shape).Idx → α) : (⟨2, ![1, n]⟩ : Shape).Idx → α :=
  fun i => v (ix1 (⟨(i 1).val, (i 1).isLt⟩ : Fin n))

/-- A vector of extent `n` as the matrix [n, 1]. -/
def col {α : Type} {n : Nat} (v : (⟨1, ![n]⟩ : Shape).Idx → α) : (⟨2, ![n, 1]⟩ : Shape).Idx → α :=
  fun i => v (ix1 (⟨(i 0).val, (i 0).isLt⟩ : Fin n))

/-- Row 0 of a 64 x 32 matrix, as the matrix [1, 32]. -/
def top {α : Type} (g : (⟨2, ![64, 32]⟩ : Shape).Idx → α) : (⟨2, ![1, 32]⟩ : Shape).Idx → α :=
  fun i => g (ix2 (0 : Fin 64) (⟨(i 1).val, (i 1).isLt⟩ : Fin 32))

/-- Rows 1..63 of a 64 x 32 matrix, as the matrix [63, 32]. -/
def rest {α : Type} (g : (⟨2, ![64, 32]⟩ : Shape).Idx → α) : (⟨2, ![63, 32]⟩ : Shape).Idx → α :=
  fun i => g (ix2 (⟨(i 0).val + 1, Nat.succ_lt_succ (i 0).isLt⟩ : Fin 64) (⟨(i 1).val, (i 1).isLt⟩ : Fin 32))

end Cert.Spec

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KIVal0.lean ====
/-
  The value the first kernel region leaves in its output array, over the extended reals.

  Each of the ten points reads 10000 rows of the node features and the four weight arrays whole, and writes 10000
  rows of the output. At an entry (p, q) of a point's block the body's value is

      x[p, 0] * g0[0, q] + sum_k (sum_a x[p, a + 1] * eW[a, k] + eb[0, k]) * g1[k, q]:

  the two slices pick column 0 and columns 1..63 of the block, the two products into the zero accumulator are the
  textbook sums, the roundings to the narrower format are the identity on the extended reals, and the three
  broadcasts repeat a row or a column. Row p of point t's block is row t * 10000 + p of the array, so what point t
  writes is block t of one function of the five arrays, the specification's `proj`; the ten blocks tile the
  100000 rows (row r lies in the block of point r / 10000), so the array ends holding that function everywhere.
-/
import proofs.«416187_j31533649887980_1_alg».proof.Proof.KIR0
import proofs.«416187_j31533649887980_1_alg».proof.Proof.Spec
import proofs.«416187_j31533649887980_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The zero offsets of a whole-block access, as the constant function. -/
private theorem hz0 : (![0, 0] : Fin 2 → Nat) = fun _ => 0 := funext fun a => by fin_cases a <;> rfl

/-- A column [a, 1] broadcast to [a, b] reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

set_option maxHeartbeats 1000000 in
/-- The output block at an entry: column 0 through the one row, plus the embedded columns through the 63 rows. -/
theorem projBlock_apply (x0 : Vec Ideal S10000x64 .f32) (x1 : Vec Ideal S63x63 .f32) (x2 : Vec Ideal S1x63 .f32)
    (x3 : Vec Ideal S1x32 .f32) (x4 : Vec Ideal S63x32 .f32) (p : Fin 10000) (q : Fin 32) :
    projBlock x0 x1 x2 x3 x4 (ix2 p q)
      = x0 (ix2 p (0 : Fin 64)) * x3 (ix2 (0 : Fin 1) q)
        + ∑ k : Fin 63, ((∑ a : Fin 63, x0 (ix2 p (⟨a.val + 1, by omega⟩ : Fin 64)) * x1 (ix2 a k)) + x2 (ix2 (0 : Fin 1) k)) * x4 (ix2 k q) := by
  unfold projBlock
  rw [View.canon_unit_zero hz0]
  simp only [View.ld_unit_zero (S := S10000x64) hz0, View.ld_unit_zero (S := S63x63) hz0, View.ld_unit_zero (S := S1x63) hz0,
    View.ld_unit_zero (S := S1x32) hz0, View.ld_unit_zero (S := S63x32) hz0]
  unfold k0_pay1
  simp only [matmul]
  rw [addf_apply, mulf_apply, broadcastTo_a1_ab_apply, broadcastTo_1b_ab_apply, shapeCast_self,
    slice2_axis1_apply 0 x0 slices_S10000x64_o0_0_S10000x1 p (0 : Fin 1) (0 : Fin 64) rfl]
  congr 1
  rw [PlainDot.matmul_zero_apply dot_S10000x63_S63x32_S10000x32_1_0_0_1_n_n rfl rfl rfl rfl rfl rfl rfl rfl]
  refine Finset.sum_congr rfl fun k _ => ?_
  rw [truncf_apply, truncf_apply, shapeCast_self, addf_apply, broadcastTo_1b_ab_apply, shapeCast_self,
    PlainDot.matmul_zero_apply dot_S10000x63_S63x63_S10000x63_1_0_0_1_n_n rfl rfl rfl rfl rfl rfl rfl rfl]
  congr 2
  refine Finset.sum_congr rfl fun a _ => ?_
  rw [truncf_apply, truncf_apply,
    slice2_axis1_apply 1 x0 slices_S10000x64_o0_1_S10000x63 p a (⟨a.val + 1, by omega⟩ : Fin 64) (Nat.add_comm _ _)]

/-! ## From the blocks to the array -/

/-- The projected features as one function of the five arrays. -/
abbrev projArr (A0 : S100000x64.Idx → EReal) (A1 : S63x63.Idx → EReal) (A2 : S1x63.Idx → EReal) (A3 : S1x32.Idx → EReal)
    (A4 : S63x32.Idx → EReal) : S100000x32.Idx → EReal :=
  fun i => Cert.Spec.proj A0 A1 A2 A3 A4 (i 0) (i 1)

/-- The output block of a point that reads rows `b * 10000 …` of the features and the four weight arrays whole is
    the specification on those rows. -/
theorem projBlock_eq_proj (A0 : S100000x64.Idx → EReal) (A1 : S63x63.Idx → EReal) (A2 : S1x63.Idx → EReal)
    (A3 : S1x32.Idx → EReal) (A4 : S63x32.Idx → EReal)
    (x0 : Vec Ideal S10000x64 .f32) (x1 : Vec Ideal S63x63 .f32) (x2 : Vec Ideal S1x63 .f32)
    (x3 : Vec Ideal S1x32 .f32) (x4 : Vec Ideal S63x32 .f32) (b : ℕ)
    (h0 : ∀ (p : Fin 10000) (k : Fin 64) (n : Fin 100000), n.val = b * 10000 + p.val → x0 (ix2 p k) = A0 (ix2 n k))
    (h1 : x1 = A1) (h2 : x2 = A2) (h3 : x3 = A3) (h4 : x4 = A4)
    (j : S10000x32.Idx) (i : S100000x32.Idx)
    (hi0 : (i 0).val = b * 10000 + (j 0).val) (hi1 : (i 1).val = (j 1).val) :
    projBlock x0 x1 x2 x3 x4 j = projArr A0 A1 A2 A3 A4 i := by
  subst h1 h2 h3 h4
  obtain ⟨p, q, rfl⟩ : ∃ (p : Fin 10000) (q : Fin 32), j = ix2 p q := ⟨j 0, j 1, eq_ix2 j⟩
  obtain ⟨n, r, rfl⟩ : ∃ (n : Fin 100000) (r : Fin 32), i = ix2 n r := ⟨i 0, i 1, eq_ix2 i⟩
  have hn : n.val = b * 10000 + p.val := hi0
  obtain rfl : r = q := Fin.ext hi1
  rw [projBlock_apply]
  show _ = Cert.Spec.proj A0 x1 x2 x3 x4 n r
  unfold Cert.Spec.proj
  rw [h0 p 0 n hn]
  congr 1
  refine Finset.sum_congr rfl fun k _ => ?_
  congr 2
  refine Finset.sum_congr rfl fun a _ => ?_
  rw [h0 p _ n hn]

variable (V : (c : Dev nD) → (b : Ref sig .tc) → Buf (Elt Ideal) ((c : Thread nD τ).loc b))

/-- The block index of each window at each point: the features' and the output's blocks move with the point along the
    rows; each of the four weight arrays is one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The features' block at point `t` is rows `t * 10000 …` of the features. -/
theorem xblk_apply (c : Dev nD) (t : Fin cfg0.N) (p : Fin 10000) (k : Fin 64) (n : Fin 100000)
    (hn : n.val = t.val * 10000 + p.val) :
    (iblk0 V c 0 t : Vec Ideal S10000x64 .f32) (ix2 p k) = (V c main_arg0 : S100000x64.Idx → EReal) (ix2 n k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = n.val; rw [e0, hn]; omega
  | ⟨1, _⟩ => show win0_0.index t (1 : Fin 2) * 64 + 1 * k.val = k.val; rw [e1]; omega

/-- The embedding matrix's block at every point is the matrix. -/
theorem wblk1_eq (c : Dev nD) (t : Fin cfg0.N) :
    (iblk0 V c 1 t : Vec Ideal S63x63 .f32) = (V c main_arg7 : S63x63.Idx → EReal) := by
  obtain ⟨-, -, e0, e1, -⟩ := idx_facts0 t
  funext y
  unfold iblk0
  rw [View.read_apply]
  show V c main_arg7 _ = V c main_arg7 _
  congr 1
  funext a
  apply Fin.ext
  match a with
  | ⟨0, _⟩ => show win0_1.index t (0 : Fin 2) * 63 + 1 * (y 0).val = (y 0).val; rw [e0]; omega
  | ⟨1, _⟩ => show win0_1.index t (1 : Fin 2) * 63 + 1 * (y 1).val = (y 1).val; rw [e1]; omega

/-- The embedding bias's block at every point is the bias row. -/
theorem wblk2_eq (c : Dev nD) (t : Fin cfg0.N) :
    (iblk0 V c 2 t : Vec Ideal S1x63 .f32) = (V c main_v43 : S1x63.Idx → EReal) := by
  obtain ⟨-, -, -, -, e0, e1, -⟩ := idx_facts0 t
  funext y
  unfold iblk0
  rw [View.read_apply]
  show V c main_v43 _ = V c main_v43 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 63 + 1 * (y 1).val = (y 1).val; rw [e1]; omega

/-- The projection's first row's block at every point is that row. -/
theorem wblk3_eq (c : Dev nD) (t : Fin cfg0.N) :
    (iblk0 V c 3 t : Vec Ideal S1x32 .f32) = (V c main_v41 : S1x32.Idx → EReal) := by
  obtain ⟨-, -, -, -, -, -, e0, e1, -⟩ := idx_facts0 t
  funext y
  unfold iblk0
  rw [View.read_apply]
  show V c main_v41 _ = V c main_v41 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

/-- The projection's other rows' block at every point is those rows. -/
theorem wblk4_eq (c : Dev nD) (t : Fin cfg0.N) :
    (iblk0 V c 4 t : Vec Ideal S63x32 .f32) = (V c main_v42 : S63x32.Idx → EReal) := by
  obtain ⟨-, -, -, -, -, -, -, -, e0, e1, -⟩ := idx_facts0 t
  funext y
  unfold iblk0
  rw [View.read_apply]
  show V c main_v42 _ = V c main_v42 _
  congr 1
  funext a
  apply Fin.ext
  match a with
  | ⟨0, _⟩ => show win0_4.index t (0 : Fin 2) * 63 + 1 * (y 0).val = (y 0).val; rw [e0]; omega
  | ⟨1, _⟩ => show win0_4.index t (1 : Fin 2) * 32 + 1 * (y 1).val = (y 1).val; rw [e1]; omega

/-- What point `t` writes back is block `t` of the specification of the five arrays as the region finds them. -/
theorem flushed0_5_eq (c : Dev nD) (t : Fin cfg0.N) :
    (dat0 (F := Ideal) V c).flushed 5 t
      = ((cfg0.win 5).blk t).view.read (Elt Ideal)
          (projArr (V c main_arg0) (V c main_arg7) (V c main_v43) (V c main_v41) (V c main_v42)) := by
  show (cfg0.win 5).cut (grid0.coords t) ((dat0 V c).after 5 t) = _
  rw [after0_5]
  obtain ⟨-, -, -, -, -, -, -, -, -, -, e0, e1⟩ := idx_facts0 t
  funext j
  rw [View.read_apply]
  refine projBlock_eq_proj (V c main_arg0) (V c main_arg7) (V c main_v43) (V c main_v41) (V c main_v42)
    (iblk0 V c 0 t) (iblk0 V c 1 t) (iblk0 V c 2 t) (iblk0 V c 3 t) (iblk0 V c 4 t) t.val
    (fun p k n hn => xblk_apply V c t p k n hn) (wblk1_eq V c t) (wblk2_eq V c t) (wblk3_eq V c t) (wblk4_eq V c t)
    j (((cfg0.win 5).blk t).view.emb j) ?_ ?_
  · show win0_5.index t (0 : Fin 2) * 10000 + 1 * (j 0).val = t.val * 10000 + (j 0).val; rw [e0]; omega
  · show win0_5.index t (1 : Fin 2) * 32 + 1 * (j 1).val = (j 1).val; rw [e1]; omega

/-- An index of the output array is in point `t`'s block iff each coordinate is in the block's range on its axis. -/
theorem mem_blk0_5 (t : Fin cfg0.N) (i : S100000x32.Idx) :
    i ∈ ((cfg0.win 5).blk t).view.set
      ↔ ∀ a : Fin 2, win0_5.index t a * S10000x32.size a ≤ (i a).val
          ∧ (i a).val < win0_5.index t a * S10000x32.size a + S10000x32.size a := by
  show i ∈ ((View.whole main_v44).slice (win0_5.rect t)).set ↔ _
  rw [View.set_slice_whole, Rect.mem_set_unit]
  exact Iff.rfl

/-- Every row of the output array is in the block of the point that is its quotient by the block's 10000 rows. -/
theorem cover0_5 (i : S100000x32.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 32 := (i 1).isLt
  have ht : (i 0).val / 10000 < cfg0.N := by rw [hN]; omega
  obtain ⟨-, -, -, -, -, -, -, -, -, -, e0, e1⟩ := idx_facts0 ⟨(i 0).val / 10000, ht⟩
  refine ⟨⟨(i 0).val / 10000, ht⟩, flush0_5 _, ?_⟩
  rw [mem_blk0_5]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ (1 : Fin 2) * 32 ≤ (i 1).val
      ∧ (i 1).val < win0_5.index ⟨(i 0).val / 10000, ht⟩ (1 : Fin 2) * 32 + 32
    rw [e1]; omega

/-- The output array after the region: the specification of the five arrays, entry by entry. -/
theorem proj_final (c : Dev nD) (n : Fin 100000) (j : Fin 32) :
    ((dat0 (F := Ideal) V c).arrAt 5 cfg0.N : S100000x32.Idx → EReal) (ix2 n j)
      = Cert.Spec.proj (V c main_arg0) (V c main_arg7) (V c main_v43) (V c main_v41) (V c main_v42) n j :=
  congrFun ((dat0 (F := Ideal) V c).arrAt_eq_of_cover 5
    (projArr (V c main_arg0) (V c main_arg7) (V c main_v43) (V c main_v41) (V c main_v42))
    (fun t _ => flushed0_5_eq V c t) cover0_5) (ix2 n j)

end Cert.KernelIdeal.Hand

end
-- ==== Proof.LibDotL.lean ====
/-
  The product of a transposed matrix with a matrix, read at an entry.

  For dimension numbers that contract axis 0 of BOTH operands, keep axis 1 of both, and have no batch axes, the
  left operand l is [K, M], the right operand r is [K, N] and the result is [M, N]; the operand indices at the
  result entry (p, q) and contraction position k are (k, p) and (k, q). So, at the ideal values, a `tpu.matmul`
  into the zero accumulator is the sum  ∑ k, l (k, p) * r (k, q)  over the extended reals: the entry (p, q) of
  lᵀ r. Stated for ANY record with those six lists (each equation is `rfl` at a printed record), at any extents
  and element formats.
-/
import Idealize.ShloMosaic.Lib.ValueIdx
import Idealize.ShloMosaic.PureOps.Ideal.Laws

noncomputable section

namespace Idealize.ShloMosaic.DotL

open Idealize.ShloMosaic Idealize.ShloMosaic.ValueIdx

variable {M K N : Nat} (d : DotDims ⟨2, ![K, M]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the contraction position. -/
theorem lhs_row (hlc : d.lhsContracting = [0]) (j : (⟨2, ![M, N]⟩ : Shape).Idx) (k : d.contr.Idx) :
    (d.lhsIdx j k 0).val = (k ⟨0, by rw [d.rank_contr, hlc]; exact Nat.one_pos⟩).val :=
  d.lhsIdx_val_of_single hlc j k

/-- The left operand's column is the result's row. -/
theorem lhs_col (hln : d.lhsNonContracting = [1]) (hlb : d.lhsBatch = [])
    (j : (⟨2, ![M, N]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [1]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's column p and the right operand's column q. -/
theorem matmul_zero_apply {φ₁ φ₂ : FTy}
    (hlc : d.lhsContracting = [0]) (hrc : d.rhsContracting = [0]) (hln : d.lhsNonContracting = [1])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![K, M]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 k p) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (lhs_row d hlc _ _).trans hk
    | ⟨1, _⟩ => exact lhs_col d hln hlb _ _)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

end Idealize.ShloMosaic.DotL

end
-- ==== Proof.KIVal1.lean ====
/-
  The value the second kernel region leaves in its output array, over the extended reals.

  The region visits fifty blocks of 2000 nodes. At each point it adds to a 256 by 32 accumulator the product of the
  transposed one-hot matrix of the block's words with the positive parts of the block's node rows: entry (g, j) gains
  the positive part of entry j of every node of the block whose word names graph g. Starting from the zero block,
  after the last point the accumulator is the pool over all 100000 nodes. The last point then applies the two dense
  layers to it and stores the result into the output block, which is the whole [256, 1] array and is written back
  once. So the array ends at the head of the pool.

  The steps: the three stored values read at an entry; each block the region reads as entries of its array; the
  accumulator after point n as the sum over the nodes of blocks 0 … n, by induction on n, and the sum over blocks of
  positions as one sum over all positions; the output array after the one write-back.
-/
import proofs.«416187_j31533649887980_1_alg».proof.Proof.Gen.KernelIdeal.Launch
import proofs.«416187_j31533649887980_1_alg».proof.Proof.Gen.KernelIdeal.Skeleton
import proofs.«416187_j31533649887980_1_alg».proof.Proof.Gen.KernelIdeal.Points
import proofs.«416187_j31533649887980_1_alg».proof.Proof.KIR1
import proofs.«416187_j31533649887980_1_alg».proof.Proof.Spec
import proofs.«416187_j31533649887980_1_alg».proof.Proof.LibPlainDot
import proofs.«416187_j31533649887980_1_alg».proof.Proof.LibDotL
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat Cfg Window)

/-! ## The three stored values of the second kernel, read at an entry over the extended reals -/

/-- The zero block: every entry is the extended real 0. -/
theorem pay1_apply (g : Fin 256) (j : Fin 32) : (k1_pay1 (F := Ideal)) (ix2 g j) = 0 := by
  unfold k1_pay1
  rw [shapeCast_self]
  exact Ideal.ofBits_zero_f32

/-- For a graph number below 256, a 32-bit word is that number's word exactly when its signed reading is the number. -/
theorem word_eq_iff (w : BitVec 32) (g : Fin 256) : w = BitVec.ofNat 32 g.val ↔ w.toInt = (g.val : ℤ) := by
  have hg := g.isLt
  have hw := w.isLt
  constructor
  · rintro rfl
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    split at h <;> omega

/-- The one-hot entry: the comparison bit of a word against a graph number, widened and read as a signed integer,
    is 1 when the word names the graph and 0 otherwise. -/
theorem onehot_entry (w : BitVec 32) (g : Fin 256) :
    (FloatOps.sitofp (F := Ideal) .f32 ((IntOp.cmpi .eq w (BitVec.ofNat 32 g.val)).setWidth 32) : EReal)
      = if w.toInt = (g.val : ℤ) then 1 else 0 := by
  show ((((IntOp.cmpi .eq w (BitVec.ofNat 32 g.val)).setWidth 32).toInt : ℝ) : EReal) = _
  unfold IntOp.cmpi
  by_cases h : w = BitVec.ofNat 32 g.val
  · rw [if_pos ((word_eq_iff w g).mp h)]
    have e : (w == BitVec.ofNat 32 g.val) = true := by rw [h]; exact beq_self_eq_true _
    simp only [e]
    have : ((BitVec.ofBool true).setWidth 32).toInt = 1 := by decide
    rw [this]; norm_num
  · rw [if_neg (fun h' => h ((word_eq_iff w g).mpr h'))]
    have e : (w == BitVec.ofNat 32 g.val) = false := by
      rw [beq_eq_false_iff_ne]; exact h
    simp only [e]
    have : ((BitVec.ofBool false).setWidth 32).toInt = 0 := by decide
    rw [this]; norm_num

/-- One point's update of the accumulator: what was there plus, over the block's 2000 nodes, the positive part of
    the node's entry where the node's word names the graph. -/
theorem pay2_apply (x3 : Vec Ideal S2000x32 .f32) (x7 : Vec Ideal S2000x1 .i32) (v17 : Vec Ideal S256x32 .f32)
    (g : Fin 256) (j : Fin 32) :
    k1_pay2 (F := Ideal) x3 x7 v17 (ix2 g j)
      = v17 (ix2 g j) + ∑ n : Fin 2000,
          if (x7 (ix2 n (0 : Fin 1)) : BitVec 32).toInt = (g.val : ℤ) then max (x3 (ix2 n j)) 0 else 0 := by
  unfold k1_pay2
  rw [shapeCast_self, addf_apply]
  refine congrArg (v17 (ix2 g j) + ·) ?_
  refine (DotL.matmul_zero_apply dot_S2000x256_S2000x32_S256x32_0_0_1_1_n_n rfl rfl rfl rfl rfl rfl rfl rfl none _ _ g j).trans ?_
  refine Finset.sum_congr rfl fun n _ => ?_
  rw [truncf_apply, truncf_apply, maximumf_apply, broadcast_apply, sitofp_apply, extui_apply, shapeCast_self, shapeCast_self]
  have hbit : cmpi .eq (broadcastTo S2000x256 x7 broadcasts_S2000x1_S2000x256) (iota .tc S2000x256 32 [1] iota_S2000x256_d1_w32) (ix2 n g)
      = IntOp.cmpi .eq (x7 (ix2 n (0 : Fin 1))) (BitVec.ofNat 32 g.val) := by
    show IntOp.cmpi .eq (broadcastTo S2000x256 x7 broadcasts_S2000x1_S2000x256 (ix2 n g)) (iota .tc S2000x256 32 [1] iota_S2000x256_d1_w32 (ix2 n g)) = _
    refine congrArg₂ (IntOp.cmpi .eq) ?_ ?_
    · exact broadcastTo_apply x7 broadcasts_S2000x1_S2000x256 (ix2 n g) (ix2 n (0 : Fin 1)) (fun a => by
        match a with
        | ⟨0, _⟩ => rfl
        | ⟨1, _⟩ => rfl)
    · exact iota_single_apply .tc S2000x256 32 1 iota_S2000x256_d1_w32 (ix2 n g)
  have hzero : (FloatOps.ofBits (F := Ideal) .f32 0x00000000#32 : EReal) = 0 := Ideal.ofBits_zero_f32
  rw [hbit, onehot_entry, hzero]
  split
  · exact one_mul _
  · exact zero_mul _

/-- The head at the last point, at a graph: the two dense layers on the accumulator's row. -/
theorem pay3_apply (v25 : Vec Ideal S256x32 .f32) (v27 : Vec Ideal S32x32 .f32) (v30 : Vec Ideal S1x32 .f32)
    (v37 : Vec Ideal S32x1 .f32) (v40 : Vec Ideal S1x1 .f32) (g : Fin 256) :
    k1_pay3 (F := Ideal) v25 v27 v30 v37 v40 (ix2 g (0 : Fin 1))
      = (∑ j : Fin 32, max ((∑ i : Fin 32, v25 (ix2 g i) * v27 (ix2 i j)) + v30 (ix2 (0 : Fin 1) j)) 0 * v37 (ix2 j (0 : Fin 1)))
          + v40 (ix2 (0 : Fin 1) (0 : Fin 1)) := by
  unfold k1_pay3
  rw [addf_apply]
  refine congrArg₂ (· + ·) ?_ ?_
  · refine (PlainDot.matmul_zero_apply dot_S256x32_S32x1_S256x1_1_0_0_1_n_n rfl rfl rfl rfl rfl rfl rfl rfl none _ _ g (0 : Fin 1)).trans ?_
    refine Finset.sum_congr rfl fun j _ => ?_
    rw [truncf_apply, truncf_apply, maximumf_apply, addf_apply, broadcast_apply]
    refine congrArg₂ (· * ·) (congrArg₂ max (congrArg₂ (· + ·) ?_ ?_) Ideal.ofBits_zero_f32) rfl
    · refine (PlainDot.matmul_zero_apply dot_S256x32_S32x32_S256x32_1_0_0_1_n_n rfl rfl rfl rfl rfl rfl rfl rfl none _ _ g j).trans ?_
      rfl
    · rw [shapeCast_self]
      exact broadcastTo_apply v30 broadcasts_S1x32_S256x32 (ix2 g j) (ix2 (0 : Fin 1) j) (fun a => by
        match a with
        | ⟨0, _⟩ => rfl
        | ⟨1, _⟩ => rfl)
  · rw [shapeCast_self]
    exact broadcastTo_apply v40 broadcasts_S1x1_S256x1 (ix2 g (0 : Fin 1)) (ix2 (0 : Fin 1) (0 : Fin 1)) (fun a => by
      match a with
      | ⟨0, _⟩ => rfl
      | ⟨1, _⟩ => rfl)

variable (V : (c : Dev nD) → (b : Ref sig .tc) → Buf (Elt Ideal) ((c : Thread nD τ).loc b))

/-! ## The blocks the second region reads, as entries of their arrays

A block's coordinate is its block index times the block's size plus the coordinate inside the block. The node
array and the word array are cut along the nodes, block t holding nodes 2000 t … 2000 t + 1999; the four weight
arrays are one block each. -/

/-- The node block at point t, as a 2000 by 32 matrix of extended reals. -/
abbrev xblk (c : Dev nD) (t : Fin cfg1.N) : Vec Ideal S2000x32 .f32 := iblk1 V c 0 t

/-- The word block at point t, as a 2000 by 1 matrix of 32-bit words. -/
abbrev wblk (c : Dev nD) (t : Fin cfg1.N) : Vec Ideal S2000x1 .i32 := iblk1 V c 1 t

/-- The node block at point t is rows 2000 t … 2000 t + 1999 of the node array. -/
theorem iblk1_0_apply (c : Dev nD) (t : Fin cfg1.N) (r : Fin 2000) (j : Fin 32) (hlt : 2000 * t.val + r.val < 100000) :
    xblk V c t (ix2 r j)
      = (V c main_v92 : S100000x32.Idx → EReal) (ix2 (⟨2000 * t.val + r.val, hlt⟩ : Fin 100000) j) := by
  have hi : win1_0.index t 0 = t.val ∧ win1_0.index t 1 = 0 :=
    (by decide +kernel : ∀ t : Fin grid1.N, win1_0.index t 0 = t.val ∧ win1_0.index t 1 = 0) t
  unfold xblk iblk1
  rw [View.read_apply]
  show V c main_v92 _ = V c main_v92 _
  congr 1
  funext a
  apply Fin.ext
  match a with
  | ⟨0, _⟩ => show win1_0.index t 0 * 2000 + 1 * r.val = 2000 * t.val + r.val; rw [hi.1]; omega
  | ⟨1, _⟩ => show win1_0.index t 1 * 32 + 1 * j.val = j.val; rw [hi.2]; omega

/-- The word block at point t is rows 2000 t … 2000 t + 1999 of the word array. -/
theorem iblk1_1_apply (c : Dev nD) (t : Fin cfg1.N) (r : Fin 2000) (hlt : 2000 * t.val + r.val < 100000) :
    wblk V c t (ix2 r (0 : Fin 1))
      = (V c main_v93 : S100000x1.Idx → BitVec 32) (ix2 (⟨2000 * t.val + r.val, hlt⟩ : Fin 100000) (0 : Fin 1)) := by
  have hi : win1_1.index t 0 = t.val ∧ win1_1.index t 1 = 0 :=
    (by decide +kernel : ∀ t : Fin grid1.N, win1_1.index t 0 = t.val ∧ win1_1.index t 1 = 0) t
  unfold wblk iblk1
  rw [View.read_apply]
  show V c main_v93 _ = V c main_v93 _
  congr 1
  funext a
  apply Fin.ext
  match a with
  | ⟨0, _⟩ => show win1_1.index t 0 * 2000 + 1 * r.val = 2000 * t.val + r.val; rw [hi.1]; omega
  | ⟨1, _⟩ => show win1_1.index t 1 * 1 + 1 * 0 = 0; rw [hi.2]

/-- The first layer's weights: one block, the whole array. -/
theorem iblk1_2_eq (c : Dev nD) (t : Fin cfg1.N) :
    (iblk1 V c 2 t : Vec Ideal S32x32 .f32) = (V c main_arg11 : S32x32.Idx → EReal) := by
  have hi : win1_2.index t 0 = 0 ∧ win1_2.index t 1 = 0 :=
    (by decide +kernel : ∀ t : Fin grid1.N, win1_2.index t 0 = 0 ∧ win1_2.index t 1 = 0) t
  funext y
  obtain ⟨p, q, rfl⟩ : ∃ (p : Fin 32) (q : Fin 32), y = ix2 p q := ⟨y 0, y 1, eq_ix2 y⟩
  unfold iblk1
  rw [View.read_apply]
  show V c main_arg11 _ = V c main_arg11 _
  congr 1
  funext a
  apply Fin.ext
  match a with
  | ⟨0, _⟩ => show win1_2.index t 0 * 32 + 1 * p.val = p.val; rw [hi.1]; omega
  | ⟨1, _⟩ => show win1_2.index t 1 * 32 + 1 * q.val = q.val; rw [hi.2]; omega

/-- The first layer's bias: one block, the whole array. -/
theorem iblk1_3_eq (c : Dev nD) (t : Fin cfg1.N) :
    (iblk1 V c 3 t : Vec Ideal S1x32 .f32) = (V c main_v94 : S1x32.Idx → EReal) := by
  have hi : win1_3.index t 0 = 0 ∧ win1_3.index t 1 = 0 :=
    (by decide +kernel : ∀ t : Fin grid1.N, win1_3.index t 0 = 0 ∧ win1_3.index t 1 = 0) t
  funext y
  obtain ⟨p, q, rfl⟩ : ∃ (p : Fin 1) (q : Fin 32), y = ix2 p q := ⟨y 0, y 1, eq_ix2 y⟩
  unfold iblk1
  rw [View.read_apply]
  show V c main_v94 _ = V c main_v94 _
  congr 1
  funext a
  apply Fin.ext
  match a with
  | ⟨0, _⟩ => show win1_3.index t 0 * 1 + 1 * p.val = p.val; rw [hi.1]; omega
  | ⟨1, _⟩ => show win1_3.index t 1 * 32 + 1 * q.val = q.val; rw [hi.2]; omega

/-- The second layer's weights: one block, the whole array. -/
theorem iblk1_4_eq (c : Dev nD) (t : Fin cfg1.N) :
    (iblk1 V c 4 t : Vec Ideal S32x1 .f32) = (V c main_arg13 : S32x1.Idx → EReal) := by
  have hi : win1_4.index t 0 = 0 ∧ win1_4.index t 1 = 0 :=
    (by decide +kernel : ∀ t : Fin grid1.N, win1_4.index t 0 = 0 ∧ win1_4.index t 1 = 0) t
  funext y
  obtain ⟨p, q, rfl⟩ : ∃ (p : Fin 32) (q : Fin 1), y = ix2 p q := ⟨y 0, y 1, eq_ix2 y⟩
  unfold iblk1
  rw [View.read_apply]
  show V c main_arg13 _ = V c main_arg13 _
  congr 1
  funext a
  apply Fin.ext
  match a with
  | ⟨0, _⟩ => show win1_4.index t 0 * 32 + 1 * p.val = p.val; rw [hi.1]; omega
  | ⟨1, _⟩ => show win1_4.index t 1 * 1 + 1 * q.val = q.val; rw [hi.2]; omega

/-- The second layer's bias: one block, the whole array. -/
theorem iblk1_5_eq (c : Dev nD) (t : Fin cfg1.N) :
    (iblk1 V c 5 t : Vec Ideal S1x1 .f32) = (V c main_v95 : S1x1.Idx → EReal) := by
  have hi : win1_5.index t 0 = 0 ∧ win1_5.index t 1 = 0 :=
    (by decide +kernel : ∀ t : Fin grid1.N, win1_5.index t 0 = 0 ∧ win1_5.index t 1 = 0) t
  funext y
  obtain ⟨p, q, rfl⟩ : ∃ (p : Fin 1) (q : Fin 1), y = ix2 p q := ⟨y 0, y 1, eq_ix2 y⟩
  unfold iblk1
  rw [View.read_apply]
  show V c main_v95 _ = V c main_v95 _
  congr 1
  funext a
  apply Fin.ext
  match a with
  | ⟨0, _⟩ => show win1_5.index t 0 * 1 + 1 * p.val = p.val; rw [hi.1]; omega
  | ⟨1, _⟩ => show win1_5.index t 1 * 1 + 1 * q.val = q.val; rw [hi.2]; omega

/-! ## The accumulator as a sum over the nodes seen so far -/

/-- A sum over T blocks of R consecutive positions is the sum over all T R positions. -/
theorem sum_blocks {M : Type*} [AddCommMonoid M] {T R N : Nat} (hN : T * R = N) (f : ℕ → M) :
    ∑ t : Fin T, ∑ r : Fin R, f (R * t.val + r.val) = ∑ n : Fin N, f n.val := by
  subst hN
  rw [← Equiv.sum_comp finProdFinEquiv (fun n : Fin (T * R) => f n.val), Fintype.sum_prod_type]
  refine Finset.sum_congr rfl fun t _ => Finset.sum_congr rfl fun r _ => congrArg f ?_
  show R * t.val + r.val = r.val + R * t.val
  omega

/-- Node k's contribution to graph g's pooled entry j (nothing beyond the last node). -/
def poolTerm (c : Dev nD) (g : Fin 256) (j : Fin 32) (k : ℕ) : EReal :=
  if h : k < 100000 then
    (if ((V c main_v93 : S100000x1.Idx → BitVec 32) (ix2 (⟨k, h⟩ : Fin 100000) (0 : Fin 1))).toInt = (g.val : ℤ)
      then max ((V c main_v92 : S100000x32.Idx → EReal) (ix2 (⟨k, h⟩ : Fin 100000) j)) 0 else 0)
  else 0

/-- One point's contribution is the sum of its 2000 nodes' contributions. -/
theorem block_sum (c : Dev nD) (g : Fin 256) (j : Fin 32) (t : Fin cfg1.N) :
    (∑ r : Fin 2000, if (wblk V c t (ix2 r (0 : Fin 1)) : BitVec 32).toInt = (g.val : ℤ)
        then max (xblk V c t (ix2 r j)) 0 else 0)
      = ∑ r : Fin 2000, poolTerm V c g j (2000 * t.val + r.val) := by
  have hN : cfg1.N = 50 := N_1
  refine Finset.sum_congr rfl fun r _ => ?_
  have hlt : 2000 * t.val + r.val < 100000 := by have := t.isLt; have := r.isLt; omega
  rw [iblk1_0_apply V c t r j hlt, iblk1_1_apply V c t r hlt]
  unfold poolTerm
  rw [dif_pos hlt]

/-- After point n the accumulator holds, at (g, j), the contributions of the nodes of blocks 0 … n. -/
theorem accAt_apply (c : Dev nD) (g : Fin 256) (j : Fin 32) : ∀ (n : ℕ) (h : n < cfg1.N),
    accAt V c n h (ix2 g j) = ∑ t : Fin (n + 1), ∑ r : Fin 2000, poolTerm V c g j (2000 * t.val + r.val)
  | 0, h => by
    show k1_pay2 (F := Ideal) (iblk1 V c 0 ⟨0, h⟩) (iblk1 V c 1 ⟨0, h⟩) (k1_pay1 (F := Ideal)) (ix2 g j) = _
    refine (pay2_apply (xblk V c ⟨0, h⟩) (wblk V c ⟨0, h⟩) (k1_pay1 (F := Ideal)) g j).trans ?_
    rw [pay1_apply, zero_add, block_sum V c g j ⟨0, h⟩, Fin.sum_univ_one]
    rfl
  | n + 1, h => by
    show k1_pay2 (F := Ideal) (iblk1 V c 0 ⟨n + 1, h⟩) (iblk1 V c 1 ⟨n + 1, h⟩) (accAt V c n (Nat.lt_of_succ_lt h)) (ix2 g j) = _
    refine (pay2_apply (xblk V c ⟨n + 1, h⟩) (wblk V c ⟨n + 1, h⟩) (accAt V c n (Nat.lt_of_succ_lt h)) g j).trans ?_
    rw [accAt_apply c g j n (Nat.lt_of_succ_lt h), block_sum V c g j ⟨n + 1, h⟩]
    exact (Fin.sum_univ_castSucc (fun t : Fin (n + 2) => ∑ r : Fin 2000, poolTerm V c g j (2000 * t.val + r.val))).symm

/-- After the last point the accumulator is the pool. -/
theorem accAt_last (c : Dev nD) (g : Fin 256) (j : Fin 32) :
    accAt V c 49 tLast.isLt (ix2 g j) = Cert.Spec.pool (V c main_v92) (V c main_v93) g j := by
  rw [accAt_apply V c g j 49 tLast.isLt, sum_blocks (T := 50) (R := 2000) (N := 100000) rfl (poolTerm V c g j)]
  unfold Cert.Spec.pool
  refine Finset.sum_congr rfl fun n _ => ?_
  unfold poolTerm
  rw [dif_pos n.isLt]

/-! ## The output array after the region

The output window is written back once, at the last point, and its block is the whole [256, 1] array; so after the
region the array holds what the last point stored: the head of the pool. -/

/-- The one write-back writes the head: the output block read off the head is the head. -/
theorem flushed1_6_eq (c : Dev nD) (t : Fin cfg1.N) (hf : (cfg1.win 6).flush t = true) :
    (dat1 V c).flushed 6 t = ((cfg1.win 6).blk t).view.read (Elt Ideal) (headOut V c) := by
  have hN : cfg1.N = 50 := N_1
  have h1 : t.val = 49 := by have := (flush1_6 t).mp hf; have := t.isLt; omega
  obtain rfl : t = tLast := Fin.ext h1
  show (cfg1.win 6).cut (grid1.coords tLast) ((dat1 V c).after 6 tLast) = _
  rw [after1_6]
  have hz' : (fun a => win1_6.index tLast a * main_v96.ty.shape.size a) = fun _ => 0 :=
    funext fun a => by fin_cases a <;> decide +kernel
  exact (Memref.read_access_unit_zero (Elt Ideal) main_v96 hz' (fun a => by rw [congrFun hz' a]; simp) (headOut V c)).symm

/-- So the output array ends holding the head. -/
theorem arrAt1_6 (c : Dev nD) : (dat1 V c).arrAt 6 cfg1.N = headOut V c :=
  (dat1 V c).arrAt_eq_of_cover 6 (headOut V c) (flushed1_6_eq V c) fun i =>
    ⟨tLast, (flush1_6 tLast).mpr rfl, by
      show i ∈ ((View.whole main_v96).slice (win1_6.rect tLast)).set
      rw [View.set_slice_whole, Rect.mem_set_unit]
      intro a
      have h0 : (i 0 : Nat) < 256 := (i 0).isLt
      have h1 : (i 1 : Nat) < 1 := (i 1).isLt
      match a with
      | ⟨0, _⟩ =>
        show win1_6.index tLast 0 * win1_6.size 0 ≤ (i 0 : Nat)
          ∧ (i 0 : Nat) < win1_6.index tLast 0 * win1_6.size 0 + win1_6.xsize (grid1.coords tLast) 0
        rw [show win1_6.index tLast 0 * win1_6.size 0 = 0 from by decide +kernel,
          show win1_6.xsize (grid1.coords tLast) 0 = 256 from by decide +kernel]
        omega
      | ⟨1, _⟩ =>
        show win1_6.index tLast 1 * win1_6.size 1 ≤ (i 1 : Nat)
          ∧ (i 1 : Nat) < win1_6.index tLast 1 * win1_6.size 1 + win1_6.xsize (grid1.coords tLast) 1
        rw [show win1_6.index tLast 1 * win1_6.size 1 = 0 from by decide +kernel,
          show win1_6.xsize (grid1.coords tLast) 1 = 1 from by decide +kernel]
        omega⟩

/-- The value the second region leaves in its output array: at graph g, the head of the pool of the node array by
    the word array, through the two layers' weights and biases. -/
theorem head_final (c : Dev nD) (g : Fin 256) :
    ((dat1 (F := Ideal) V c).arrAt 6 cfg1.N : S256x1.Idx → EReal) (ix2 g (0 : Fin 1))
      = Cert.Spec.head (Cert.Spec.pool (V c main_v92) (V c main_v93)) (V c main_arg11) (V c main_v94) (V c main_arg13)
          (V c main_v95) g := by
  rw [arrAt1_6 V c]
  show k1_pay3 (F := Ideal) (accAt V c 49 tLast.isLt) (iblk1 V c 2 tLast) (iblk1 V c 3 tLast) (iblk1 V c 4 tLast)
    (iblk1 V c 5 tLast) (ix2 g (0 : Fin 1)) = _
  rw [iblk1_2_eq V c tLast, iblk1_3_eq V c tLast, iblk1_4_eq V c tLast, iblk1_5_eq V c tLast]
  refine (pay3_apply (accAt V c 49 tLast.isLt) (V c main_arg11) (V c main_v94) (V c main_arg13) (V c main_v95) g).trans ?_
  unfold Cert.Spec.head
  refine congrArg₂ (· + ·) (Finset.sum_congr rfl fun j _ => ?_) rfl
  refine congrArg₂ (· * ·) (congrArg₂ max (congrArg₂ (· + ·) (Finset.sum_congr rfl fun i _ => ?_) rfl) rfl) rfl
  rw [accAt_last V c g i]

end Cert.KernelIdeal.Hand

end
-- ==== Proof.Agg.lean ====
/-
  The message-passing stage as ONE function of the projected node features.

  Both programs compute the edge weights (a softmax of three parameters scattered over three index sets), the
  degrees, the symmetric normalisation, the gathered and scaled messages, their sum per target node and the bias in
  the same way; only the projected features `hW` they start from are computed differently. The chain is therefore
  kept as one function of `hW` and of the arguments it reads, written over the reference's own stages, and is never
  opened: the two sides are compared at the value of `hW` alone.
-/
import proofs.«416187_j31533649887980_1_alg».proof.Proof.RefRead

noncomputable section

namespace Cert.RefVal

open Cert.ReferenceIdeal Cert.ReferenceIdeal.ReadP Idealize.ShloMosaic

variable {F : FTy → Type} [FloatOps F]

/-- The aggregated node features, from the projected features `hW`: the scaled gathered rows summed per target node, plus
    the bias. -/
def aggOf (hW : (⟨S100000x32, .f32⟩ : BufTy).Contents (Elt F)) (x1 : (⟨S2x3000000, .i32⟩ : BufTy).Contents (Elt F))
    (x3 x4 x5 : (⟨S1000000, .i32⟩ : BufTy).Contents (Elt F)) (x6 : (⟨S3, .f32⟩ : BufTy).Contents (Elt F))
    (x10 : (⟨S32, .f32⟩ : BufTy).Contents (Elt F)) : (⟨S100000x32, .f32⟩ : BufTy).Contents (Elt F) :=
  addf (Host.scatterAdd scatter_S100000x32_S3100000x1_S3100000x32_1_0_0_1 (val_main_v91 (F := F)) (val_main_v92 (F := F) x1)
    (mulf (val_main_v89 (F := F) x1 x3 x4 x5 x6)
      (Host.gather gather_S100000x32_S3100000x1_S3100000x32_1_0_n_n_0_1_132 hW (val_main_v87 (F := F) x1))))
    (val_main_v95 (F := F) x10)

/-- The reference's aggregated features are that function of its own projected features. -/
theorem agg_eq (x0 : (⟨S100000x64, .f32⟩ : BufTy).Contents (Elt F)) (x1 : (⟨S2x3000000, .i32⟩ : BufTy).Contents (Elt F))
    (x3 x4 x5 : (⟨S1000000, .i32⟩ : BufTy).Contents (Elt F)) (x6 : (⟨S3, .f32⟩ : BufTy).Contents (Elt F))
    (x7 : (⟨S63x63, .f32⟩ : BufTy).Contents (Elt F)) (x8 : (⟨S63, .f32⟩ : BufTy).Contents (Elt F))
    (x9 : (⟨S64x32, .f32⟩ : BufTy).Contents (Elt F)) (x10 : (⟨S32, .f32⟩ : BufTy).Contents (Elt F)) :
    val_main_v96 (F := F) x0 x1 x3 x4 x5 x6 x7 x8 x9 x10 = aggOf (val_main_v80 (F := F) x0 x7 x8 x9) x1 x3 x4 x5 x6 x10 := by
  unfold val_main_v96 val_main_v93 val_main_v90 val_main_v88 aggOf
  rfl

end Cert.RefVal

end
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.KIHost.lean ====
/-
  What the host operations of the kernel program leave in the buffers its two regions read.

  Before the first region the host only re-lays arguments: the embedding bias as one row, the projection matrix cut
  into its first row and its other rows. Between the regions it computes the message passing on the first region's
  output (edge weights, degrees, normalisation, gathered and scaled rows, their sums per target node, the bias) and
  re-lays the graph words as a column and the two dense layers' biases as rows. Every statement here reads one buffer
  after a stretch of operations as a function of the launch contents, and of the first region's output where the
  message passing starts from it.
-/
import proofs.«416187_j31533649887980_1_alg».proof.Proof.Gen.KernelIdeal.Regions
import proofs.«416187_j31533649887980_1_alg».proof.Proof.Agg
import proofs.«416187_j31533649887980_1_alg».proof.Proof.Spec
import proofs.«416187_j31533649887980_1_alg».proof.Proof.LibAfter
import Idealize.ShloMosaic.Lib.StableHlo.Run
import Idealize.ShloMosaic.Lib.Pipeline.Value
import Idealize.ShloMosaic.Lib.ValueIdx
import Idealize.ShloMosaic.Lib.ValueLayout

set_option maxRecDepth 8192

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (outs : Gen.Outs (F := F)) (c : Dev nD)

/-! ## Which buffer each operation writes -/

theorem writes0 : Cert.LibAfter.Writes (hostOps0 : List (HloOp τ sig (Elt F))) hostOps0_W := rfl
theorem writes1 : Cert.LibAfter.Writes (hostOps1 : List (HloOp τ sig (Elt F))) hostOps1_W := rfl
theorem writes1_1 : Cert.LibAfter.Writes (hostOps1_1 : List (HloOp τ sig (Elt F))) hostOps1_1_W := rfl
theorem writes1_2 : Cert.LibAfter.Writes (hostOps1_2 : List (HloOp τ sig (Elt F))) hostOps1_2_W := rfl

/-! ## Re-laid arrays at an index -/

/-- A vector cast to one row reads, at any index, the vector at the column coordinate. -/
theorem shapeCast_row {α : Type} {n : Nat} (v : (⟨1, ![n]⟩ : Shape).Idx → α) (h : (⟨1, ![n]⟩ : Shape).ShapeCasts ⟨2, ![1, n]⟩) :
    shapeCast ⟨2, ![1, n]⟩ v h = Cert.Spec.row v := by
  funext i
  refine shapeCast_apply v h i _ ?_
  have h0 : (i 0).val = 0 := Nat.lt_one_iff.mp (i 0).isLt
  rw [Shape.rowMajor_val_two, Shape.rowMajor_val_one]
  show (i 1).val = (i 0).val * n + (i 1).val
  rw [h0, Nat.zero_mul, Nat.zero_add]

/-- A vector cast to one column reads, at any index, the vector at the row coordinate. -/
theorem shapeCast_col {α : Type} {n : Nat} (v : (⟨1, ![n]⟩ : Shape).Idx → α) (h : (⟨1, ![n]⟩ : Shape).ShapeCasts ⟨2, ![n, 1]⟩) :
    shapeCast ⟨2, ![n, 1]⟩ v h = Cert.Spec.col v := by
  funext i
  refine shapeCast_apply v h i _ ?_
  have h1 : (i 1).val = 0 := Nat.lt_one_iff.mp (i 1).isLt
  rw [Shape.rowMajor_val_two, Shape.rowMajor_val_one]
  show (i 0).val = (i 0).val * 1 + (i 1).val
  rw [h1, Nat.mul_one, Nat.add_zero]

/-- The slice [0:1, 0:32] of a 64 x 32 matrix is its first row. -/
theorem slice_top {α : Type} (g : (⟨2, ![64, 32]⟩ : Shape).Idx → α) (h : (⟨2, ![64, 32]⟩ : Shape).Slices ![0, 0] ⟨2, ![1, 32]⟩) :
    extractStridedSlice ⟨2, ![1, 32]⟩ ![0, 0] g h = Cert.Spec.top g := by
  funext i
  unfold Cert.Spec.top
  refine extractStridedSlice_apply ![0, 0] g h i _ fun a => ?_
  match a with
  | ⟨0, _⟩ =>
    have h0 : (i 0).val = 0 := Nat.lt_one_iff.mp (i 0).isLt
    show 0 = 0 + (i 0).val
    rw [h0]
  | ⟨1, _⟩ =>
    show (i 1).val = 0 + (i 1).val
    rw [Nat.zero_add]

/-- The slice [1:64, 0:32] of a 64 x 32 matrix is its rows from the second on. -/
theorem slice_rest {α : Type} (g : (⟨2, ![64, 32]⟩ : Shape).Idx → α) (h : (⟨2, ![64, 32]⟩ : Shape).Slices ![1, 0] ⟨2, ![63, 32]⟩) :
    extractStridedSlice ⟨2, ![63, 32]⟩ ![1, 0] g h = Cert.Spec.rest g := by
  funext i
  unfold Cert.Spec.rest
  refine extractStridedSlice_apply ![1, 0] g h i _ fun a => ?_
  match a with
  | ⟨0, _⟩ =>
    show (i 0).val + 1 = 1 + (i 0).val
    rw [Nat.add_comm]
  | ⟨1, _⟩ =>
    show (i 1).val = 0 + (i 1).val
    rw [Nat.zero_add]

/-! ## The buffers the first region reads -/

theorem V1_x : Gen.V1 m c main_arg0 = m ((c : Thread nD τ).loc main_arg0) :=
  (Gen.V1_of m c main_arg0 (by decide)).trans rfl

theorem V1_eW : Gen.V1 m c main_arg7 = m ((c : Thread nD τ).loc main_arg7) :=
  (Gen.V1_of m c main_arg7 (by decide)).trans rfl

theorem V1_eb : Gen.V1 m c main_v43 = Cert.Spec.row (m ((c : Thread nD τ).loc main_arg8)) := by
  show StableHlo.after hostOps0 (Gen.V0 m c) (Proc.devRef .tc main_v43) = _
  rw [(writes0 (F := F)).reshape (Gen.V0 m c) 53 rfl (by decide) (by decide), (writes0 (F := F)).kept _ main_arg8 (by decide)]
  exact shapeCast_row (m ((c : Thread nD τ).loc main_arg8)) shapeCasts_S63_S1x63

theorem V1_g0 : Gen.V1 m c main_v41 = Cert.Spec.top (m ((c : Thread nD τ).loc main_arg9)) := by
  show StableHlo.after hostOps0 (Gen.V0 m c) (Proc.devRef .tc main_v41) = _
  rw [(writes0 (F := F)).unary (Gen.V0 m c) 51 rfl (by decide) (by decide), (writes0 (F := F)).kept _ main_arg9 (by decide)]
  exact slice_top (m ((c : Thread nD τ).loc main_arg9)) slices_S64x32_S1x32_0_0

theorem V1_g1 : Gen.V1 m c main_v42 = Cert.Spec.rest (m ((c : Thread nD τ).loc main_arg9)) := by
  show StableHlo.after hostOps0 (Gen.V0 m c) (Proc.devRef .tc main_v42) = _
  rw [(writes0 (F := F)).unary (Gen.V0 m c) 52 rfl (by decide) (by decide), (writes0 (F := F)).kept _ main_arg9 (by decide)]
  exact slice_rest (m ((c : Thread nD τ).loc main_arg9)) slices_S64x32_S63x32_1_0

/-! ## The buffers the second region reads, apart from the aggregated features -/

/-- An argument no host operation writes and the first region may not change is, before the last host stretch, as launched. -/
theorem V4_arg (r : Ref sig .tc) (h4 : r ∉ hostOps1_1_W) (h3 : r ∉ hostOps1_W) (h2 : r ∉ ([main_v44] : List (Ref sig .tc)))
    (h1 : r ∉ hostOps0_W) : Gen.V4 m outs c r = m ((c : Thread nD τ).loc r) :=
  (Gen.V4_of m outs c r h4).trans <| (Gen.V3_of m outs c r h3).trans <| (Gen.V2_of m outs c r h2).trans <| (Gen.V1_of m c r h1).trans rfl

theorem V5_word : Gen.V5 m outs c main_v93 = Cert.Spec.col (m ((c : Thread nD τ).loc main_arg2)) := by
  show StableHlo.after hostOps1_2 (Gen.V4 m outs c) (Proc.devRef .tc main_v93) = _
  rw [(writes1_2 (F := F)).reshape (Gen.V4 m outs c) 39 rfl (by decide) (by decide), (writes1_2 (F := F)).kept _ main_arg2 (by decide),
    show Gen.V4 m outs c (Proc.devRef .tc main_arg2) = _ from V4_arg m outs c main_arg2 (by decide) (by decide) (by decide) (by decide)]
  exact shapeCast_col (m ((c : Thread nD τ).loc main_arg2)) shapeCasts_S100000_S100000x1

theorem V5_W1 : Gen.V5 m outs c main_arg11 = m ((c : Thread nD τ).loc main_arg11) :=
  (Gen.V5_of m outs c main_arg11 (by decide)).trans (V4_arg m outs c main_arg11 (by decide) (by decide) (by decide) (by decide))

theorem V5_b1 : Gen.V5 m outs c main_v94 = Cert.Spec.row (m ((c : Thread nD τ).loc main_arg12)) := by
  show StableHlo.after hostOps1_2 (Gen.V4 m outs c) (Proc.devRef .tc main_v94) = _
  rw [(writes1_2 (F := F)).reshape (Gen.V4 m outs c) 40 rfl (by decide) (by decide), (writes1_2 (F := F)).kept _ main_arg12 (by decide),
    show Gen.V4 m outs c (Proc.devRef .tc main_arg12) = _ from V4_arg m outs c main_arg12 (by decide) (by decide) (by decide) (by decide)]
  exact shapeCast_row (m ((c : Thread nD τ).loc main_arg12)) shapeCasts_S32_S1x32

theorem V5_W2 : Gen.V5 m outs c main_arg13 = m ((c : Thread nD τ).loc main_arg13) :=
  (Gen.V5_of m outs c main_arg13 (by decide)).trans (V4_arg m outs c main_arg13 (by decide) (by decide) (by decide) (by decide))

theorem V5_b2 : Gen.V5 m outs c main_v95 = Cert.Spec.row (m ((c : Thread nD τ).loc main_arg14)) := by
  show StableHlo.after hostOps1_2 (Gen.V4 m outs c) (Proc.devRef .tc main_v95) = _
  rw [(writes1_2 (F := F)).reshape (Gen.V4 m outs c) 41 rfl (by decide) (by decide), (writes1_2 (F := F)).kept _ main_arg14 (by decide),
    show Gen.V4 m outs c (Proc.devRef .tc main_arg14) = _ from V4_arg m outs c main_arg14 (by decide) (by decide) (by decide) (by decide)]
  exact shapeCast_row (m ((c : Thread nD τ).loc main_arg14)) shapeCasts_S1_S1x1

/-! ## The aggregated features

  The kernel program's host operations between and around its two regions are the reference's own message-passing
  operations under other buffer names. Stretch by stretch, each buffer a later stretch reads is identified with the
  reference's stage that computes the same array; the last stretch then assembles the aggregation from the first
  region's output. -/

section Agg

open Cert.ReferenceIdeal.ReadP

set_option maxHeartbeats 4000000 in
/-- The edge weights: the softmax of the three parameters scattered over the three index sets. -/
theorem V1_ew : Gen.V1 m c main_v40 = val_main_v40 (F := F) (m ((c : Thread nD τ).loc main_arg3)) (m ((c : Thread nD τ).loc main_arg4))
    (m ((c : Thread nD τ).loc main_arg5)) (m ((c : Thread nD τ).loc main_arg6)) := by
  show StableHlo.after hostOps0 (Gen.V0 m c) (Proc.devRef .tc main_v40) = _
  generalize hW : Gen.V0 m c = W
  after_results_simp
  subst hW
  rfl

/-- The edge list, as the second stretch finds it. -/
theorem V2_edges : Gen.V2 m outs c (Proc.devRef .tc main_arg1) = m ((c : Thread nD τ).loc main_arg1) :=
  (Gen.V2_of m outs c main_arg1 (by decide)).trans <| (Gen.V1_of m c main_arg1 (by decide)).trans rfl

/-- The edge weights, as the second stretch finds them. -/
theorem V2_ew : Gen.V2 m outs c (Proc.devRef .tc main_v40) = val_main_v40 (F := F) (m ((c : Thread nD τ).loc main_arg3))
    (m ((c : Thread nD τ).loc main_arg4)) (m ((c : Thread nD τ).loc main_arg5)) (m ((c : Thread nD τ).loc main_arg6)) :=
  (Gen.V2_of m outs c main_v40 (by decide)).trans (V1_ew m c)

set_option maxHeartbeats 4000000 in
/-- The source nodes with the self loops appended. -/
theorem V3_src : Gen.V3 m outs c main_v48 = val_main_v51 (F := F) (m ((c : Thread nD τ).loc main_arg1)) := by
  show StableHlo.after hostOps1 (Gen.V2 m outs c) (Proc.devRef .tc main_v48) = _
  generalize hW : Gen.V2 m outs c = W
  after_results
  subst hW
  rw [V2_edges]
  rfl

set_option maxHeartbeats 4000000 in
/-- The target nodes with the self loops appended. -/
theorem V3_dst : Gen.V3 m outs c main_v51 = val_main_v54 (F := F) (m ((c : Thread nD τ).loc main_arg1)) := by
  show StableHlo.after hostOps1 (Gen.V2 m outs c) (Proc.devRef .tc main_v51) = _
  generalize hW : Gen.V2 m outs c = W
  after_results
  subst hW
  rw [V2_edges]
  rfl

set_option maxHeartbeats 4000000 in
/-- The edge weights with the self loops' unit weights appended. -/
theorem V3_w : Gen.V3 m outs c main_v53 = val_main_v56 (F := F) (m ((c : Thread nD τ).loc main_arg3)) (m ((c : Thread nD τ).loc main_arg4))
    (m ((c : Thread nD τ).loc main_arg5)) (m ((c : Thread nD τ).loc main_arg6)) := by
  show StableHlo.after hostOps1 (Gen.V2 m outs c) (Proc.devRef .tc main_v53) = _
  generalize hW : Gen.V2 m outs c = W
  after_results
  subst hW
  rw [V2_ew]
  rfl

set_option maxHeartbeats 4000000 in
/-- Which nodes have a positive degree. -/
theorem V3_pos : Gen.V3 m outs c main_v58 = val_main_v61 (F := F) (m ((c : Thread nD τ).loc main_arg1)) (m ((c : Thread nD τ).loc main_arg3))
    (m ((c : Thread nD τ).loc main_arg4)) (m ((c : Thread nD τ).loc main_arg5)) (m ((c : Thread nD τ).loc main_arg6)) := by
  show StableHlo.after hostOps1 (Gen.V2 m outs c) (Proc.devRef .tc main_v58) = _
  generalize hW : Gen.V2 m outs c = W
  after_results
  subst hW
  rw [V2_edges, V2_ew]
  rfl

set_option maxHeartbeats 4000000 in
/-- The reciprocal square roots of the degrees. -/
theorem V3_rsqrt : Gen.V3 m outs c main_v59 = val_main_v62 (F := F) (m ((c : Thread nD τ).loc main_arg1)) (m ((c : Thread nD τ).loc main_arg3))
    (m ((c : Thread nD τ).loc main_arg4)) (m ((c : Thread nD τ).loc main_arg5)) (m ((c : Thread nD τ).loc main_arg6)) := by
  show StableHlo.after hostOps1 (Gen.V2 m outs c) (Proc.devRef .tc main_v59) = _
  generalize hW : Gen.V2 m outs c = W
  after_results
  subst hW
  rw [V2_edges, V2_ew]
  rfl

/-- The zero the normalisation puts where a degree is not positive. -/
theorem V3_zero : Gen.V3 m outs c main_cst_11 = val_main_cst_11 (F := F) := by
  show StableHlo.after hostOps1 (Gen.V2 m outs c) (Proc.devRef .tc main_cst_11) = _
  generalize hW : Gen.V2 m outs c = W
  after_results
  rfl

set_option maxHeartbeats 4000000 in
/-- The normalisation: the reciprocal square root of a positive degree, zero elsewhere. -/
theorem V4_norm : Gen.V4 m outs c main_v60 = val_main_v63 (F := F) (m ((c : Thread nD τ).loc main_arg1)) (m ((c : Thread nD τ).loc main_arg3))
    (m ((c : Thread nD τ).loc main_arg4)) (m ((c : Thread nD τ).loc main_arg5)) (m ((c : Thread nD τ).loc main_arg6)) := by
  show StableHlo.after hostOps1_1 (Gen.V3 m outs c) (Proc.devRef .tc main_v60) = _
  generalize hW : Gen.V3 m outs c = W
  after_results
  simp only [TRef.toBuf, TRef.ofBuf, TRef.of, cast_eq, id_eq]
  subst hW
  rw [show Gen.V3 m outs c (Proc.devRef .tc main_v58) = _ from V3_pos m outs c,
    show Gen.V3 m outs c (Proc.devRef .tc main_v59) = _ from V3_rsqrt m outs c,
    show Gen.V3 m outs c (Proc.devRef .tc main_cst_11) = _ from V3_zero m outs c]
  rfl

/-- The source nodes, as the last stretch finds them. -/
theorem V4_src : Gen.V4 m outs c (Proc.devRef .tc main_v48) = val_main_v51 (F := F) (m ((c : Thread nD τ).loc main_arg1)) :=
  (Gen.V4_of m outs c main_v48 (by decide)).trans (V3_src m outs c)

/-- The target nodes, as the last stretch finds them. -/
theorem V4_dst : Gen.V4 m outs c (Proc.devRef .tc main_v51) = val_main_v54 (F := F) (m ((c : Thread nD τ).loc main_arg1)) :=
  (Gen.V4_of m outs c main_v51 (by decide)).trans (V3_dst m outs c)

/-- The weights, as the last stretch finds them. -/
theorem V4_w : Gen.V4 m outs c (Proc.devRef .tc main_v53) = val_main_v56 (F := F) (m ((c : Thread nD τ).loc main_arg3))
    (m ((c : Thread nD τ).loc main_arg4)) (m ((c : Thread nD τ).loc main_arg5)) (m ((c : Thread nD τ).loc main_arg6)) :=
  (Gen.V4_of m outs c main_v53 (by decide)).trans (V3_w m outs c)

/-- The projected features, as the last stretch finds them: what the first region left. -/
theorem V4_proj : Gen.V4 m outs c (Proc.devRef .tc main_v44) = outs 2 main_v44 c :=
  (Gen.V4_of m outs c main_v44 (by decide)).trans <| (Gen.V3_of m outs c main_v44 (by decide)).trans (Function.update_self _ _ _)

set_option maxHeartbeats 4000000 in
/-- The aggregated node features the second region reads are the reference's message passing applied to what the
    first region left. -/
theorem V5_agg : Gen.V5 m outs c main_v92 = Cert.RefVal.aggOf (F := F) (outs 2 main_v44 c) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg10)) := by
  show StableHlo.after hostOps1_2 (Gen.V4 m outs c) (Proc.devRef .tc main_v92) = _
  generalize hW : Gen.V4 m outs c = W
  after_results_simp
  subst hW
  rw [V4_src, V4_dst, V4_w, V4_proj,
    show Gen.V4 m outs c (Proc.devRef .tc main_v60) = _ from V4_norm m outs c,
    show Gen.V4 m outs c (Proc.devRef .tc main_arg10) = _ from V4_arg m outs c main_arg10 (by decide) (by decide) (by decide) (by decide)]
  unfold Cert.RefVal.aggOf
  rfl

end Agg

end Cert.KernelIdeal.Hand

end
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.RefVal.lean ====
/-
  The reference's value read against the specification.

  Projected features. The reference joins column 0 of the node features to the 63 embedded columns and multiplies
  the 64 joined columns by a 64 x 32 matrix. A sum over 64 columns is its first term plus the sum over the other 63,

      (h @ W)[n, j] = h[n, 0] * W[0, j] + sum_{k < 63} h[n, k + 1] * W[k + 1, j],

  where h[n, 0] = x[n, 0] and h[n, k + 1] = sum_a x[n, a + 1] * E[a, k] + b[k]. That is the specification's
  projection with the matrix's first row and its other rows given apart. The extended reals are a commutative
  additive monoid, so splitting the sum needs no finiteness.

  Head. The pooled features start from nothing and receive, in the row a node's word names, the positive part of
  that node's aggregated row; graph g's row is therefore the sum over the nodes whose word reads g. The two dense
  layers are then read entry by entry: a product of matrices at an entry is the sum over the shared index, a bias
  broadcast down the rows is the bias at the column, and the positive part is the maximum with zero. The aggregated
  features enter only through their entries and are never opened.
-/
import proofs.«416187_j31533649887980_1_alg».proof.Proof.Agg
import proofs.«416187_j31533649887980_1_alg».proof.Proof.Spec
import proofs.«416187_j31533649887980_1_alg».proof.Proof.LibScatterRows
import Idealize.ShloMosaic.Lib.ValueIdx
import Idealize.ShloMosaic.Lib.Pipeline.Value
import Idealize.ShloMosaic.PureOps.Ideal.Laws

noncomputable section

namespace Cert.RefVal

open Cert.ReferenceIdeal Cert.ReferenceIdeal.ReadP Idealize.ShloMosaic Idealize.ShloMosaic.ValueIdx
open scoped BigOperators

/-! ## The projected features -/

/-- Column 0 of the joined features is column 0 of the node features. -/
theorem cat_zero (x0 : (⟨S100000x64, .f32⟩ : BufTy).Contents (Elt Ideal)) (x7 : (⟨S63x63, .f32⟩ : BufTy).Contents (Elt Ideal))
    (x8 : (⟨S63, .f32⟩ : BufTy).Contents (Elt Ideal)) (n : Fin 100000) :
    val_main_v47 (F := Ideal) x0 x7 x8 (ix2 n (0 : Fin 64)) = x0 (ix2 n (0 : Fin 64)) := by
  unfold val_main_v47
  refine (concatenate_pair_apply_left (t := S100000x64) (s₁ := S100000x1) (s₂ := S100000x63) 1 _ _ _
    (ix2 n (0 : Fin 64)) rfl (ix2 n (0 : Fin 1))
    (fun b => by match b with | ⟨0, _⟩ => rfl | ⟨1, _⟩ => rfl)).trans ?_
  rw [val_main_v41_apply]
  exact congrArg x0 (funext fun a => Fin.ext (by match a with | ⟨0, _⟩ => rfl | ⟨1, _⟩ => rfl))

/-- Column k + 1 of the joined features is column k of the embedding. -/
theorem cat_succ (x0 : (⟨S100000x64, .f32⟩ : BufTy).Contents (Elt Ideal)) (x7 : (⟨S63x63, .f32⟩ : BufTy).Contents (Elt Ideal))
    (x8 : (⟨S63, .f32⟩ : BufTy).Contents (Elt Ideal)) (n : Fin 100000) (k : Fin 63) :
    val_main_v47 (F := Ideal) x0 x7 x8 (ix2 n (k.succ : Fin 64)) = val_main_v46 (F := Ideal) x0 x7 x8 (ix2 n k) := by
  unfold val_main_v47
  exact concatenate_pair_apply_right (t := S100000x64) (s₁ := S100000x1) (s₂ := S100000x63) 1 _ _ _
    (ix2 n (k.succ : Fin 64)) rfl rfl (ix2 n k)
    (fun b hb => by
      match b with
      | ⟨0, _⟩ => rfl
      | ⟨1, _⟩ => exact absurd rfl hb)
    (by show k.val + 1 = (k.succ : Fin 64).val; rfl)

/-- The reference's projected features are the specification's: the sum over the 64 joined columns is the kept
    column's term plus the sum over the 63 embedded columns. -/
theorem ref_proj (x0 : (⟨S100000x64, .f32⟩ : BufTy).Contents (Elt Ideal)) (x7 : (⟨S63x63, .f32⟩ : BufTy).Contents (Elt Ideal))
    (x8 : (⟨S63, .f32⟩ : BufTy).Contents (Elt Ideal)) (x9 : (⟨S64x32, .f32⟩ : BufTy).Contents (Elt Ideal))
    (n : Fin 100000) (j : Fin 32) :
    val_main_v80 (F := Ideal) x0 x7 x8 x9 (ix2 n j)
      = Cert.Spec.proj x0 x7 (Cert.Spec.row x8) (Cert.Spec.top x9) (Cert.Spec.rest x9) n j := by
  rw [val_main_v80_apply, Fin.sum_univ_succ]
  unfold Cert.Spec.proj Cert.Spec.top Cert.Spec.rest Cert.Spec.row
  have eL0 : lidx_main_v80 (ix2 n j) (0 : Fin 64) = ix2 n (0 : Fin 64) :=
    funext fun a => Fin.ext (by match a with | ⟨0, _⟩ => rfl | ⟨1, _⟩ => rfl)
  have eLs : ∀ k : Fin 63, lidx_main_v80 (ix2 n j) (k.succ : Fin 64) = ix2 n (k.succ : Fin 64) := fun k =>
    funext fun a => Fin.ext (by match a with | ⟨0, _⟩ => rfl | ⟨1, _⟩ => rfl)
  congr 1
  · rw [eL0, cat_zero]
    congr 1
    exact congrArg x9 (funext fun a => Fin.ext (by match a with | ⟨0, _⟩ => rfl | ⟨1, _⟩ => rfl))
  · refine Finset.sum_congr rfl fun k _ => ?_
    rw [eLs k, cat_succ, val_main_v46_apply, val_main_v43_apply, val_main_v45_apply, val_main_v44_apply, Ideal.addf_def]
    congr 1
    · congr 1
      · refine Finset.sum_congr rfl fun a _ => ?_
        rw [val_main_v42_apply]
        congr 1
        · exact congrArg x0 (funext fun b => Fin.ext (by
            match b with
            | ⟨0, _⟩ => rfl
            | ⟨1, _⟩ => show 1 + a.val = a.val + 1; omega))
        · exact congrArg x7 (funext fun b => Fin.ext (by match b with | ⟨0, _⟩ => rfl | ⟨1, _⟩ => rfl))
      · exact congrArg x8 (funext fun b => Fin.ext (by match b with | ⟨0, _⟩ => rfl))
    · exact congrArg x9 (funext fun b => Fin.ext (by match b with | ⟨0, _⟩ => rfl | ⟨1, _⟩ => rfl))

/-! ## The head -/

/-- Equal summands give equal sums. -/
private theorem add_eq_add' {a b c d : EReal} (h₁ : a = c) (h₂ : b = d) : a + b = c + d := by rw [h₁, h₂]

/-- Equal factors give equal products. -/
private theorem mul_eq_mul' {a b c d : EReal} (h₁ : a = c) (h₂ : b = d) : a * b = c * d := by rw [h₁, h₂]

/-- The pooled features at an entry: every graph's row starts at zero, and node n adds the positive part of its
    aggregated row into the row its word names. -/
theorem ref_pool (x0 : (⟨S100000x64, .f32⟩ : BufTy).Contents (Elt Ideal)) (x1 : (⟨S2x3000000, .i32⟩ : BufTy).Contents (Elt Ideal))
    (x2 : (⟨S100000, .i32⟩ : BufTy).Contents (Elt Ideal)) (x3 x4 x5 : (⟨S1000000, .i32⟩ : BufTy).Contents (Elt Ideal))
    (x6 : (⟨S3, .f32⟩ : BufTy).Contents (Elt Ideal)) (x7 : (⟨S63x63, .f32⟩ : BufTy).Contents (Elt Ideal))
    (x8 : (⟨S63, .f32⟩ : BufTy).Contents (Elt Ideal)) (x9 : (⟨S64x32, .f32⟩ : BufTy).Contents (Elt Ideal))
    (x10 : (⟨S32, .f32⟩ : BufTy).Contents (Elt Ideal)) (g : Fin 256) (i : Fin 32) :
    val_main_v100 (F := Ideal) x0 x1 x2 x3 x4 x5 x6 x7 x8 x9 x10 (ix2 g i)
      = Cert.Spec.pool (val_main_v96 (F := Ideal) x0 x1 x3 x4 x5 x6 x7 x8 x9 x10) (Cert.Spec.col x2) g i := by
  unfold val_main_v100 Host.scatterAdd
  rw [Ideal.hostScatterAdd_def, ScatterRows.scatterRows2_apply _ rfl rfl rfl rfl]
  rw [val_main_v98_apply, val_main_cst_19_apply, Ideal.ofBits_def, Ideal.ofBits_zero_f32, zero_add]
  unfold Cert.Spec.pool Cert.Spec.col
  refine Finset.sum_congr rfl fun n _ => ?_
  rw [val_main_v99_apply, val_main_v97_apply, val_main_call1_v0_apply, val_main_call1_cst_apply, Ideal.maximumf_def,
    Ideal.ofBits_def, Ideal.ofBits_zero_f32]
  have e : idx_main_v99 (ix2 n (0 : Fin 1)) = ix1 n :=
    funext fun a => Fin.ext (by match a with | ⟨0, _⟩ => rfl)
  rw [e]

/-- The reference's result at graph g is the specification's head on the pooled features: the second layer's sum
    over the hidden index, of the positive part of the first layer's sum plus its bias, plus the last bias. -/
theorem ref_head (x0 : (⟨S100000x64, .f32⟩ : BufTy).Contents (Elt Ideal)) (x1 : (⟨S2x3000000, .i32⟩ : BufTy).Contents (Elt Ideal))
    (x2 : (⟨S100000, .i32⟩ : BufTy).Contents (Elt Ideal)) (x3 x4 x5 : (⟨S1000000, .i32⟩ : BufTy).Contents (Elt Ideal))
    (x6 : (⟨S3, .f32⟩ : BufTy).Contents (Elt Ideal)) (x7 : (⟨S63x63, .f32⟩ : BufTy).Contents (Elt Ideal))
    (x8 : (⟨S63, .f32⟩ : BufTy).Contents (Elt Ideal)) (x9 : (⟨S64x32, .f32⟩ : BufTy).Contents (Elt Ideal))
    (x10 : (⟨S32, .f32⟩ : BufTy).Contents (Elt Ideal))
    (x11 : (⟨S32x32, .f32⟩ : BufTy).Contents (Elt Ideal)) (x12 : (⟨S32, .f32⟩ : BufTy).Contents (Elt Ideal))
    (x13 : (⟨S32x1, .f32⟩ : BufTy).Contents (Elt Ideal)) (x14 : (⟨S1, .f32⟩ : BufTy).Contents (Elt Ideal)) (g : Fin 256) :
    val_main_v109 (F := Ideal) x0 x1 x2 x3 x4 x5 x6 x7 x8 x9 x10 x11 x12 x13 x14 (ix2 g (0 : Fin 1))
      = Cert.Spec.head (Cert.Spec.pool (val_main_v96 (F := Ideal) x0 x1 x3 x4 x5 x6 x7 x8 x9 x10) (Cert.Spec.col x2))
          x11 (Cert.Spec.row x12) x13 (Cert.Spec.row x14) g := by
  have hpool := ref_pool x0 x1 x2 x3 x4 x5 x6 x7 x8 x9 x10 g
  generalize Cert.Spec.pool (val_main_v96 (F := Ideal) x0 x1 x3 x4 x5 x6 x7 x8 x9 x10) (Cert.Spec.col x2) = p at hpool ⊢
  unfold Cert.Spec.head Cert.Spec.row
  rw [val_main_v109_apply, val_main_v106_apply, val_main_v108_apply, val_main_v107_apply, Ideal.addf_def]
  refine add_eq_add' (Finset.sum_congr rfl fun j _ => ?_)
    (congrArg x14 (funext fun b => Fin.ext (by match b with | ⟨0, _⟩ => rfl)))
  have eL : lidx_main_v106 (ix2 g (0 : Fin 1)) j = ix2 g j :=
    funext fun a => Fin.ext (by match a with | ⟨0, _⟩ => rfl | ⟨1, _⟩ => rfl)
  rw [val_main_v105_apply, val_main_v104_apply, val_main_v101_apply, val_main_v103_apply, val_main_v102_apply,
    val_main_call2_v0_apply, val_main_call2_cst_apply, Ideal.maximumf_def, Ideal.addf_def, Ideal.ofBits_def,
    Ideal.ofBits_zero_f32, eL]
  refine mul_eq_mul' (congrArg (fun t => max t 0) (add_eq_add' (Finset.sum_congr rfl fun i _ => ?_) ?_)) ?_
  · have eL1 : lidx_main_v101 (ix2 g j) i = ix2 g i :=
      funext fun a => Fin.ext (by match a with | ⟨0, _⟩ => rfl | ⟨1, _⟩ => rfl)
    rw [eL1, hpool i]
    exact congrArg (fun t => p g i * x11 t) (funext fun a => Fin.ext (by match a with | ⟨0, _⟩ => rfl | ⟨1, _⟩ => rfl))
  · exact congrArg x12 (funext fun b => Fin.ext (by match b with | ⟨0, _⟩ => rfl))
  · exact congrArg x13 (funext fun a => Fin.ext (by match a with | ⟨0, _⟩ => rfl | ⟨1, _⟩ => rfl))

end Cert.RefVal

end
-- ==== Proof.Bridge.lean ====
/-
  The kernel program's result is the reference's result.

  Region 0 leaves in its output array the projection of the node features, which is what the reference's two matrix
  products over the concatenated features compute; the host operations between the regions are the reference's own
  message-passing stage applied to that array; region 1 leaves the head of the pooled positive parts, which is what the
  reference's segment sum and two dense layers compute. Each of the three facts is read at an entry, so the two
  results agree entry by entry.
-/
import proofs.«416187_j31533649887980_1_alg».proof.Proof.KIRun
import proofs.«416187_j31533649887980_1_alg».proof.Proof.KIVal0
import proofs.«416187_j31533649887980_1_alg».proof.Proof.KIVal1
import proofs.«416187_j31533649887980_1_alg».proof.Proof.KIHost
import proofs.«416187_j31533649887980_1_alg».proof.Proof.RefVal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Every unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The kernel program's run with its result array named and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v96) = Gen.V6 m (outs m) c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c =>
    ⟨h c _ (mem_uc main_v96 (by decide)),
      (h c _ (mem_uc main_arg0 (by decide))).trans (Gen.V6_main_arg0 m (outs m) c),
      (h c _ (mem_uc main_arg1 (by decide))).trans (Gen.V6_main_arg1 m (outs m) c),
      (h c _ (mem_uc main_arg2 (by decide))).trans (Gen.V6_main_arg2 m (outs m) c),
      (h c _ (mem_uc main_arg3 (by decide))).trans (Gen.V6_main_arg3 m (outs m) c),
      (h c _ (mem_uc main_arg4 (by decide))).trans (Gen.V6_main_arg4 m (outs m) c),
      (h c _ (mem_uc main_arg5 (by decide))).trans (Gen.V6_main_arg5 m (outs m) c),
      (h c _ (mem_uc main_arg6 (by decide))).trans (Gen.V6_main_arg6 m (outs m) c),
      (h c _ (mem_uc main_arg7 (by decide))).trans (Gen.V6_main_arg7 m (outs m) c),
      (h c _ (mem_uc main_arg8 (by decide))).trans (Gen.V6_main_arg8 m (outs m) c),
      (h c _ (mem_uc main_arg9 (by decide))).trans (Gen.V6_main_arg9 m (outs m) c),
      (h c _ (mem_uc main_arg10 (by decide))).trans (Gen.V6_main_arg10 m (outs m) c),
      (h c _ (mem_uc main_arg11 (by decide))).trans (Gen.V6_main_arg11 m (outs m) c),
      (h c _ (mem_uc main_arg12 (by decide))).trans (Gen.V6_main_arg12 m (outs m) c),
      (h c _ (mem_uc main_arg13 (by decide))).trans (Gen.V6_main_arg13 m (outs m) c),
      (h c _ (mem_uc main_arg14 (by decide))).trans (Gen.V6_main_arg14 m (outs m) c)⟩) (run_all m ρ)

variable (c : Dev nD)

/-- Region 0's output array is the reference's projected features of the same arguments. -/
theorem hw_eq :
    outs0 m 2 main_v44 c = Cert.ReferenceIdeal.ReadP.val_main_v80 (F := Ideal) (m ((c : Thread nD τ).loc main_arg0)) (m ((c : Thread nD τ).loc main_arg7)) (m ((c : Thread nD τ).loc main_arg8)) (m ((c : Thread nD τ).loc main_arg9)) := by
  rw [outs0_hw]
  funext i
  obtain ⟨n, j, rfl⟩ : ∃ (n : Fin 100000) (j : Fin 32), i = ix2 n j := ⟨i 0, i 1, eq_ix2 i⟩
  rw [proj_final (Vr0 m) c n j, Cert.RefVal.ref_proj]
  rw [show Vr0 m c main_arg0 = m ((c : Thread nD τ).loc main_arg0) from V1_x m c, show Vr0 m c main_arg7 = m ((c : Thread nD τ).loc main_arg7) from V1_eW m c,
    show Vr0 m c main_v43 = Cert.Spec.row (m ((c : Thread nD τ).loc main_arg8)) from V1_eb m c, show Vr0 m c main_v41 = Cert.Spec.top (m ((c : Thread nD τ).loc main_arg9)) from V1_g0 m c,
    show Vr0 m c main_v42 = Cert.Spec.rest (m ((c : Thread nD τ).loc main_arg9)) from V1_g1 m c]

/-- The kernel program's result array, entry by entry, is the reference's last stage of the same arguments. -/
theorem result_eq :
    Gen.V6 m (outs m) c (Proc.devRef .tc main_v96)
      = Cert.ReferenceIdeal.ReadP.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
          (m ((c : Thread nD τ).loc main_arg13)) (m ((c : Thread nD τ).loc main_arg14)) := by
  rw [V6_out]
  funext i
  obtain ⟨g, z, rfl⟩ : ∃ (g : Fin 256) (z : Fin 1), i = ix2 g z := ⟨i 0, i 1, eq_ix2 i⟩
  obtain rfl : z = 0 := Subsingleton.elim _ _
  rw [head_final (Vr1 m) c g, Cert.RefVal.ref_head, Cert.RefVal.agg_eq, ← hw_eq m c]
  rw [show Vr1 m c main_v92 = Cert.RefVal.aggOf (outs0 m 2 main_v44 c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg10))
        from V5_agg m (outs0 m) c,
    show Vr1 m c main_v93 = Cert.Spec.col (m ((c : Thread nD τ).loc main_arg2)) from V5_word m (outs0 m) c,
    show Vr1 m c main_arg11 = m ((c : Thread nD τ).loc main_arg11) from V5_W1 m (outs0 m) c,
    show Vr1 m c main_v94 = Cert.Spec.row (m ((c : Thread nD τ).loc main_arg12)) from V5_b1 m (outs0 m) c,
    show Vr1 m c main_arg13 = m ((c : Thread nD τ).loc main_arg13) from V5_W2 m (outs0 m) c,
    show Vr1 m c main_v95 = Cert.Spec.row (m ((c : Thread nD τ).loc main_arg14)) from V5_b2 m (outs0 m) c]

end Cert.KernelIdeal.Hand

end
-- ==== Proof.RefStageRun.lean ====
/-
  The reference program's run, with its result stated over the stages.

  The program is a line of 138 operations, each writing one buffer that no other operation writes. So what the whole
  line leaves in the buffer of operation k is that operation's function of what the whole line leaves in the buffers it
  reads; an argument's buffer, which no operation writes, keeps its launch contents. Read in program order this says,
  operation by operation, that the line leaves in each buffer the stage of that buffer: the operation's function applied
  to the stages of its operands, a function of the arguments alone. The last of these equations, at the launch
  contents, restates the run: the result buffer ends at the last stage of the arguments, the arguments unchanged.
-/
import proofs.«416187_j31533649887980_1_alg».proof.Proof.RefRun
import proofs.«416187_j31533649887980_1_alg».proof.Proof.RefRead
import proofs.«416187_j31533649887980_1_alg».proof.Proof.LibAfter

set_option maxRecDepth 8192

noncomputable section

namespace Cert.RefStage

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo
open Cert.LibAfter

variable {F : FTy → Type} [FloatOps F]

/-- A constant of a called function: the buffer it writes holds the constant after the whole line. -/
theorem tnullary {τ : Topo} {sig : RefSig} {Val : EltTy → Type} {ops : List (HloOp τ sig Val)} {ys : List (Ref sig .tc)}
    (hW : Writes ops ys) (V : Valuation τ sig Val) (k : Nat) {y : Ref sig .tc} {oy uy} {v : y.ty.Contents Val}
    (hop : ops[k]? = some (TRef.nullary (⟨y, rfl, oy, uy⟩ : TRef sig y.ty) v)) (hy' : y ∉ ys.drop (k + 1)) :
    after ops V (Proc.devRef .tc y) = v := by
  have h := hW.nullary V k hop hy'
  simpa only [TRef.toBuf, cast_eq] using h

/-- The references the 138 operations write, in program order. -/
abbrev ys : List (Ref sig .tc) :=
  [main_cst, main_v0, main_cst_0, main_v1, main_v2, main_v3, main_v4, main_v5, main_cst_1, main_v6, main_v7, main_v8, main_v9, main_cst_2, main_v10, main_v11, main_v12, main_c, main_v13, main_v14, main_c_3, main_v15, main_v16, main_v17, main_v18, main_v19, main_v20, main_v21, main_v22, main_c_4, main_v23, main_v24, main_c_5, main_v25, main_v26, main_v27, main_v28, main_v29, main_v30, main_v31, main_v32, main_c_6, main_v33, main_v34, main_c_7, main_v35, main_v36, main_v37, main_v38, main_v39, main_v40, main_v41, main_v42, main_v43, main_v44, main_v45, main_v46, main_v47, main_v48, main_v49, main_v50, main_v51, main_v52, main_v53, main_v54, main_cst_8, main_v55, main_v56, main_cst_9, main_v57, main_v58, main_v59, main_cst_10, main_v60, main_v61, main_v62, main_cst_11, main_call0_v0, main_call0_v1, main_v63, main_c_12, main_v64, main_v65, main_c_13, main_v66, main_v67, main_v68, main_v69, main_v70, main_v71, main_c_14, main_v72, main_v73, main_c_15, main_v74, main_v75, main_v76, main_v77, main_v78, main_v79, main_v80, main_v81, main_c_16, main_v82, main_v83, main_c_17, main_v84, main_v85, main_v86, main_v87, main_v88, main_v89, main_v90, main_cst_18, main_v91, main_v92, main_v93, main_v94, main_v95, main_v96, main_call1_cst, main_call1_v0, main_v97, main_cst_19, main_v98, main_v99, main_v100, main_v101, main_v102, main_v103, main_v104, main_call2_cst, main_call2_v0, main_v105, main_v106, main_v107, main_v108, main_v109]

/-- Operation by operation, the line writes exactly those references. -/
theorem writes : Writes (ops (F := F)) ys := rfl

variable (V : Valuation τ sig (Elt F))

/-! ## What the line leaves in each buffer: the buffer's stage of the arguments' contents -/

theorem at_main_cst : after ops V (Proc.devRef .tc main_cst) = val_main_cst (F := F) := by
  rw [writes.nullary V 0 rfl (by decide)]
  rfl
theorem at_main_v0 : after ops V (Proc.devRef .tc main_v0) = val_main_v0 (F := F) (V (Proc.devRef .tc main_arg6)) := by
  rw [writes.binary V 1 rfl (by decide) (by decide) (by decide), writes.kept V main_arg6 (by decide), at_main_cst V]
  rfl
theorem at_main_cst_0 : after ops V (Proc.devRef .tc main_cst_0) = val_main_cst_0 (F := F) := by
  rw [writes.nullary V 2 rfl (by decide)]
  rfl
theorem at_main_v1 : after ops V (Proc.devRef .tc main_v1) = val_main_v1 (F := F) (V (Proc.devRef .tc main_arg6)) := by
  rw [writes.binary V 3 rfl (by decide) (by decide) (by decide), at_main_cst_0 V, at_main_v0 V]
  rfl
theorem at_main_v2 : after ops V (Proc.devRef .tc main_v2) = val_main_v2 (F := F) (V (Proc.devRef .tc main_arg6)) := by
  rw [writes.unary V 4 rfl (by decide) (by decide), at_main_v1 V]
  rfl
theorem at_main_v3 : after ops V (Proc.devRef .tc main_v3) = val_main_v3 (F := F) (V (Proc.devRef .tc main_arg6)) := by
  rw [writes.unary V 5 rfl (by decide) (by decide), at_main_v2 V]
  rfl
theorem at_main_v4 : after ops V (Proc.devRef .tc main_v4) = val_main_v4 (F := F) (V (Proc.devRef .tc main_arg6)) := by
  rw [writes.binary V 6 rfl (by decide) (by decide) (by decide), writes.kept V main_arg6 (by decide), at_main_v3 V]
  rfl
theorem at_main_v5 : after ops V (Proc.devRef .tc main_v5) = val_main_v5 (F := F) (V (Proc.devRef .tc main_arg6)) := by
  rw [writes.unary V 7 rfl (by decide) (by decide), at_main_v4 V]
  rfl
theorem at_main_cst_1 : after ops V (Proc.devRef .tc main_cst_1) = val_main_cst_1 (F := F) := by
  rw [writes.nullary V 8 rfl (by decide)]
  rfl
theorem at_main_v6 : after ops V (Proc.devRef .tc main_v6) = val_main_v6 (F := F) (V (Proc.devRef .tc main_arg6)) := by
  rw [writes.binary V 9 rfl (by decide) (by decide) (by decide), at_main_v5 V, at_main_cst_1 V]
  rfl
theorem at_main_v7 : after ops V (Proc.devRef .tc main_v7) = val_main_v7 (F := F) (V (Proc.devRef .tc main_arg6)) := by
  rw [writes.unary V 10 rfl (by decide) (by decide), at_main_v6 V]
  rfl
theorem at_main_v8 : after ops V (Proc.devRef .tc main_v8) = val_main_v8 (F := F) (V (Proc.devRef .tc main_arg6)) := by
  rw [writes.unary V 11 rfl (by decide) (by decide), at_main_v7 V]
  rfl
theorem at_main_v9 : after ops V (Proc.devRef .tc main_v9) = val_main_v9 (F := F) (V (Proc.devRef .tc main_arg6)) := by
  rw [writes.binary V 12 rfl (by decide) (by decide) (by decide), at_main_v5 V, at_main_v8 V]
  rfl
theorem at_main_cst_2 : after ops V (Proc.devRef .tc main_cst_2) = val_main_cst_2 (F := F) := by
  rw [writes.nullary V 13 rfl (by decide)]
  rfl
theorem at_main_v10 : after ops V (Proc.devRef .tc main_v10) = val_main_v10 (F := F) := by
  rw [writes.unary V 14 rfl (by decide) (by decide), at_main_cst_2 V]
  rfl
theorem at_main_v11 : after ops V (Proc.devRef .tc main_v11) = val_main_v11 (F := F) (V (Proc.devRef .tc main_arg6)) := by
  rw [writes.unary V 15 rfl (by decide) (by decide), at_main_v9 V]
  rfl
theorem at_main_v12 : after ops V (Proc.devRef .tc main_v12) = val_main_v12 (F := F) (V (Proc.devRef .tc main_arg6)) := by
  rw [writes.reshape V 16 rfl (by decide) (by decide), at_main_v11 V]
  rfl
theorem at_main_c : after ops V (Proc.devRef .tc main_c) = val_main_c (F := F) := by
  rw [writes.nullary V 17 rfl (by decide)]
  rfl
theorem at_main_v13 : after ops V (Proc.devRef .tc main_v13) = val_main_v13 (F := F) := by
  rw [writes.unary V 18 rfl (by decide) (by decide), at_main_c V]
  rfl
theorem at_main_v14 : after ops V (Proc.devRef .tc main_v14) = val_main_v14 (F := F) (V (Proc.devRef .tc main_arg3)) := by
  rw [writes.binary V 19 rfl (by decide) (by decide) (by decide), writes.kept V main_arg3 (by decide), at_main_v13 V]
  rfl
theorem at_main_c_3 : after ops V (Proc.devRef .tc main_c_3) = val_main_c_3 (F := F) := by
  rw [writes.nullary V 20 rfl (by decide)]
  rfl
theorem at_main_v15 : after ops V (Proc.devRef .tc main_v15) = val_main_v15 (F := F) := by
  rw [writes.unary V 21 rfl (by decide) (by decide), at_main_c_3 V]
  rfl
theorem at_main_v16 : after ops V (Proc.devRef .tc main_v16) = val_main_v16 (F := F) (V (Proc.devRef .tc main_arg3)) := by
  rw [writes.binary V 22 rfl (by decide) (by decide) (by decide), writes.kept V main_arg3 (by decide), at_main_v15 V]
  rfl
theorem at_main_v17 : after ops V (Proc.devRef .tc main_v17) = val_main_v17 (F := F) (V (Proc.devRef .tc main_arg3)) := by
  rw [writes.ternary V 23 rfl (by decide) (by decide) (by decide) (by decide), at_main_v14 V, at_main_v16 V, writes.kept V main_arg3 (by decide)]
  rfl
theorem at_main_v18 : after ops V (Proc.devRef .tc main_v18) = val_main_v18 (F := F) (V (Proc.devRef .tc main_arg3)) := by
  rw [writes.unary V 24 rfl (by decide) (by decide), at_main_v17 V]
  rfl
theorem at_main_v19 : after ops V (Proc.devRef .tc main_v19) = val_main_v19 (F := F) (V (Proc.devRef .tc main_arg6)) := by
  rw [writes.unary V 25 rfl (by decide) (by decide), at_main_v12 V]
  rfl
theorem at_main_v20 : after ops V (Proc.devRef .tc main_v20) = val_main_v20 (F := F) (V (Proc.devRef .tc main_arg3)) (V (Proc.devRef .tc main_arg6)) := by
  rw [writes.ternary V 26 rfl (by decide) (by decide) (by decide) (by decide), at_main_v10 V, at_main_v18 V, at_main_v19 V]
  rfl
theorem at_main_v21 : after ops V (Proc.devRef .tc main_v21) = val_main_v21 (F := F) (V (Proc.devRef .tc main_arg6)) := by
  rw [writes.unary V 27 rfl (by decide) (by decide), at_main_v9 V]
  rfl
theorem at_main_v22 : after ops V (Proc.devRef .tc main_v22) = val_main_v22 (F := F) (V (Proc.devRef .tc main_arg6)) := by
  rw [writes.reshape V 28 rfl (by decide) (by decide), at_main_v21 V]
  rfl
theorem at_main_c_4 : after ops V (Proc.devRef .tc main_c_4) = val_main_c_4 (F := F) := by
  rw [writes.nullary V 29 rfl (by decide)]
  rfl
theorem at_main_v23 : after ops V (Proc.devRef .tc main_v23) = val_main_v23 (F := F) := by
  rw [writes.unary V 30 rfl (by decide) (by decide), at_main_c_4 V]
  rfl
theorem at_main_v24 : after ops V (Proc.devRef .tc main_v24) = val_main_v24 (F := F) (V (Proc.devRef .tc main_arg4)) := by
  rw [writes.binary V 31 rfl (by decide) (by decide) (by decide), writes.kept V main_arg4 (by decide), at_main_v23 V]
  rfl
theorem at_main_c_5 : after ops V (Proc.devRef .tc main_c_5) = val_main_c_5 (F := F) := by
  rw [writes.nullary V 32 rfl (by decide)]
  rfl
theorem at_main_v25 : after ops V (Proc.devRef .tc main_v25) = val_main_v25 (F := F) := by
  rw [writes.unary V 33 rfl (by decide) (by decide), at_main_c_5 V]
  rfl
theorem at_main_v26 : after ops V (Proc.devRef .tc main_v26) = val_main_v26 (F := F) (V (Proc.devRef .tc main_arg4)) := by
  rw [writes.binary V 34 rfl (by decide) (by decide) (by decide), writes.kept V main_arg4 (by decide), at_main_v25 V]
  rfl
theorem at_main_v27 : after ops V (Proc.devRef .tc main_v27) = val_main_v27 (F := F) (V (Proc.devRef .tc main_arg4)) := by
  rw [writes.ternary V 35 rfl (by decide) (by decide) (by decide) (by decide), at_main_v24 V, at_main_v26 V, writes.kept V main_arg4 (by decide)]
  rfl
theorem at_main_v28 : after ops V (Proc.devRef .tc main_v28) = val_main_v28 (F := F) (V (Proc.devRef .tc main_arg4)) := by
  rw [writes.unary V 36 rfl (by decide) (by decide), at_main_v27 V]
  rfl
theorem at_main_v29 : after ops V (Proc.devRef .tc main_v29) = val_main_v29 (F := F) (V (Proc.devRef .tc main_arg6)) := by
  rw [writes.unary V 37 rfl (by decide) (by decide), at_main_v22 V]
  rfl
theorem at_main_v30 : after ops V (Proc.devRef .tc main_v30) = val_main_v30 (F := F) (V (Proc.devRef .tc main_arg3)) (V (Proc.devRef .tc main_arg4)) (V (Proc.devRef .tc main_arg6)) := by
  rw [writes.ternary V 38 rfl (by decide) (by decide) (by decide) (by decide), at_main_v20 V, at_main_v28 V, at_main_v29 V]
  rfl
theorem at_main_v31 : after ops V (Proc.devRef .tc main_v31) = val_main_v31 (F := F) (V (Proc.devRef .tc main_arg6)) := by
  rw [writes.unary V 39 rfl (by decide) (by decide), at_main_v9 V]
  rfl
theorem at_main_v32 : after ops V (Proc.devRef .tc main_v32) = val_main_v32 (F := F) (V (Proc.devRef .tc main_arg6)) := by
  rw [writes.reshape V 40 rfl (by decide) (by decide), at_main_v31 V]
  rfl
theorem at_main_c_6 : after ops V (Proc.devRef .tc main_c_6) = val_main_c_6 (F := F) := by
  rw [writes.nullary V 41 rfl (by decide)]
  rfl
theorem at_main_v33 : after ops V (Proc.devRef .tc main_v33) = val_main_v33 (F := F) := by
  rw [writes.unary V 42 rfl (by decide) (by decide), at_main_c_6 V]
  rfl
theorem at_main_v34 : after ops V (Proc.devRef .tc main_v34) = val_main_v34 (F := F) (V (Proc.devRef .tc main_arg5)) := by
  rw [writes.binary V 43 rfl (by decide) (by decide) (by decide), writes.kept V main_arg5 (by decide), at_main_v33 V]
  rfl
theorem at_main_c_7 : after ops V (Proc.devRef .tc main_c_7) = val_main_c_7 (F := F) := by
  rw [writes.nullary V 44 rfl (by decide)]
  rfl
theorem at_main_v35 : after ops V (Proc.devRef .tc main_v35) = val_main_v35 (F := F) := by
  rw [writes.unary V 45 rfl (by decide) (by decide), at_main_c_7 V]
  rfl
theorem at_main_v36 : after ops V (Proc.devRef .tc main_v36) = val_main_v36 (F := F) (V (Proc.devRef .tc main_arg5)) := by
  rw [writes.binary V 46 rfl (by decide) (by decide) (by decide), writes.kept V main_arg5 (by decide), at_main_v35 V]
  rfl
theorem at_main_v37 : after ops V (Proc.devRef .tc main_v37) = val_main_v37 (F := F) (V (Proc.devRef .tc main_arg5)) := by
  rw [writes.ternary V 47 rfl (by decide) (by decide) (by decide) (by decide), at_main_v34 V, at_main_v36 V, writes.kept V main_arg5 (by decide)]
  rfl
theorem at_main_v38 : after ops V (Proc.devRef .tc main_v38) = val_main_v38 (F := F) (V (Proc.devRef .tc main_arg5)) := by
  rw [writes.unary V 48 rfl (by decide) (by decide), at_main_v37 V]
  rfl
theorem at_main_v39 : after ops V (Proc.devRef .tc main_v39) = val_main_v39 (F := F) (V (Proc.devRef .tc main_arg6)) := by
  rw [writes.unary V 49 rfl (by decide) (by decide), at_main_v32 V]
  rfl
theorem at_main_v40 : after ops V (Proc.devRef .tc main_v40) = val_main_v40 (F := F) (V (Proc.devRef .tc main_arg3)) (V (Proc.devRef .tc main_arg4)) (V (Proc.devRef .tc main_arg5)) (V (Proc.devRef .tc main_arg6)) := by
  rw [writes.ternary V 50 rfl (by decide) (by decide) (by decide) (by decide), at_main_v30 V, at_main_v38 V, at_main_v39 V]
  rfl
theorem at_main_v41 : after ops V (Proc.devRef .tc main_v41) = val_main_v41 (F := F) (V (Proc.devRef .tc main_arg0)) := by
  rw [writes.unary V 51 rfl (by decide) (by decide), writes.kept V main_arg0 (by decide)]
  rfl
theorem at_main_v42 : after ops V (Proc.devRef .tc main_v42) = val_main_v42 (F := F) (V (Proc.devRef .tc main_arg0)) := by
  rw [writes.unary V 52 rfl (by decide) (by decide), writes.kept V main_arg0 (by decide)]
  rfl
theorem at_main_v43 : after ops V (Proc.devRef .tc main_v43) = val_main_v43 (F := F) (V (Proc.devRef .tc main_arg0)) (V (Proc.devRef .tc main_arg7)) := by
  rw [writes.binary V 53 rfl (by decide) (by decide) (by decide), at_main_v42 V, writes.kept V main_arg7 (by decide)]
  rfl
theorem at_main_v44 : after ops V (Proc.devRef .tc main_v44) = val_main_v44 (F := F) (V (Proc.devRef .tc main_arg8)) := by
  rw [writes.unary V 54 rfl (by decide) (by decide), writes.kept V main_arg8 (by decide)]
  rfl
theorem at_main_v45 : after ops V (Proc.devRef .tc main_v45) = val_main_v45 (F := F) (V (Proc.devRef .tc main_arg8)) := by
  rw [writes.unary V 55 rfl (by decide) (by decide), at_main_v44 V]
  rfl
theorem at_main_v46 : after ops V (Proc.devRef .tc main_v46) = val_main_v46 (F := F) (V (Proc.devRef .tc main_arg0)) (V (Proc.devRef .tc main_arg7)) (V (Proc.devRef .tc main_arg8)) := by
  rw [writes.binary V 56 rfl (by decide) (by decide) (by decide), at_main_v43 V, at_main_v45 V]
  rfl
theorem at_main_v47 : after ops V (Proc.devRef .tc main_v47) = val_main_v47 (F := F) (V (Proc.devRef .tc main_arg0)) (V (Proc.devRef .tc main_arg7)) (V (Proc.devRef .tc main_arg8)) := by
  rw [writes.binary V 57 rfl (by decide) (by decide) (by decide), at_main_v41 V, at_main_v46 V]
  rfl
theorem at_main_v48 : after ops V (Proc.devRef .tc main_v48) = val_main_v48 (F := F) := by
  rw [writes.nullary V 58 rfl (by decide)]
  rfl
theorem at_main_v49 : after ops V (Proc.devRef .tc main_v49) = val_main_v49 (F := F) (V (Proc.devRef .tc main_arg1)) := by
  rw [writes.unary V 59 rfl (by decide) (by decide), writes.kept V main_arg1 (by decide)]
  rfl
theorem at_main_v50 : after ops V (Proc.devRef .tc main_v50) = val_main_v50 (F := F) (V (Proc.devRef .tc main_arg1)) := by
  rw [writes.reshape V 60 rfl (by decide) (by decide), at_main_v49 V]
  rfl
theorem at_main_v51 : after ops V (Proc.devRef .tc main_v51) = val_main_v51 (F := F) (V (Proc.devRef .tc main_arg1)) := by
  rw [writes.binary V 61 rfl (by decide) (by decide) (by decide), at_main_v50 V, at_main_v48 V]
  rfl
theorem at_main_v52 : after ops V (Proc.devRef .tc main_v52) = val_main_v52 (F := F) (V (Proc.devRef .tc main_arg1)) := by
  rw [writes.unary V 62 rfl (by decide) (by decide), writes.kept V main_arg1 (by decide)]
  rfl
theorem at_main_v53 : after ops V (Proc.devRef .tc main_v53) = val_main_v53 (F := F) (V (Proc.devRef .tc main_arg1)) := by
  rw [writes.reshape V 63 rfl (by decide) (by decide), at_main_v52 V]
  rfl
theorem at_main_v54 : after ops V (Proc.devRef .tc main_v54) = val_main_v54 (F := F) (V (Proc.devRef .tc main_arg1)) := by
  rw [writes.binary V 64 rfl (by decide) (by decide) (by decide), at_main_v53 V, at_main_v48 V]
  rfl
theorem at_main_cst_8 : after ops V (Proc.devRef .tc main_cst_8) = val_main_cst_8 (F := F) := by
  rw [writes.nullary V 65 rfl (by decide)]
  rfl
theorem at_main_v55 : after ops V (Proc.devRef .tc main_v55) = val_main_v55 (F := F) := by
  rw [writes.unary V 66 rfl (by decide) (by decide), at_main_cst_8 V]
  rfl
theorem at_main_v56 : after ops V (Proc.devRef .tc main_v56) = val_main_v56 (F := F) (V (Proc.devRef .tc main_arg3)) (V (Proc.devRef .tc main_arg4)) (V (Proc.devRef .tc main_arg5)) (V (Proc.devRef .tc main_arg6)) := by
  rw [writes.binary V 67 rfl (by decide) (by decide) (by decide), at_main_v40 V, at_main_v55 V]
  rfl
theorem at_main_cst_9 : after ops V (Proc.devRef .tc main_cst_9) = val_main_cst_9 (F := F) := by
  rw [writes.nullary V 68 rfl (by decide)]
  rfl
theorem at_main_v57 : after ops V (Proc.devRef .tc main_v57) = val_main_v57 (F := F) := by
  rw [writes.unary V 69 rfl (by decide) (by decide), at_main_cst_9 V]
  rfl
theorem at_main_v58 : after ops V (Proc.devRef .tc main_v58) = val_main_v58 (F := F) (V (Proc.devRef .tc main_arg1)) := by
  rw [writes.unary V 70 rfl (by decide) (by decide), at_main_v54 V]
  rfl
theorem at_main_v59 : after ops V (Proc.devRef .tc main_v59) = val_main_v59 (F := F) (V (Proc.devRef .tc main_arg1)) (V (Proc.devRef .tc main_arg3)) (V (Proc.devRef .tc main_arg4)) (V (Proc.devRef .tc main_arg5)) (V (Proc.devRef .tc main_arg6)) := by
  rw [writes.ternary V 71 rfl (by decide) (by decide) (by decide) (by decide), at_main_v57 V, at_main_v58 V, at_main_v56 V]
  rfl
theorem at_main_cst_10 : after ops V (Proc.devRef .tc main_cst_10) = val_main_cst_10 (F := F) := by
  rw [writes.nullary V 72 rfl (by decide)]
  rfl
theorem at_main_v60 : after ops V (Proc.devRef .tc main_v60) = val_main_v60 (F := F) := by
  rw [writes.unary V 73 rfl (by decide) (by decide), at_main_cst_10 V]
  rfl
theorem at_main_v61 : after ops V (Proc.devRef .tc main_v61) = val_main_v61 (F := F) (V (Proc.devRef .tc main_arg1)) (V (Proc.devRef .tc main_arg3)) (V (Proc.devRef .tc main_arg4)) (V (Proc.devRef .tc main_arg5)) (V (Proc.devRef .tc main_arg6)) := by
  rw [writes.binary V 74 rfl (by decide) (by decide) (by decide), at_main_v59 V, at_main_v60 V]
  rfl
theorem at_main_v62 : after ops V (Proc.devRef .tc main_v62) = val_main_v62 (F := F) (V (Proc.devRef .tc main_arg1)) (V (Proc.devRef .tc main_arg3)) (V (Proc.devRef .tc main_arg4)) (V (Proc.devRef .tc main_arg5)) (V (Proc.devRef .tc main_arg6)) := by
  rw [writes.unary V 75 rfl (by decide) (by decide), at_main_v59 V]
  rfl
theorem at_main_cst_11 : after ops V (Proc.devRef .tc main_cst_11) = val_main_cst_11 (F := F) := by
  rw [writes.nullary V 76 rfl (by decide)]
  rfl
theorem at_main_call0_v0 : after ops V (Proc.devRef .tc main_call0_v0) = val_main_call0_v0 (F := F) := by
  rw [writes.tunary V 77 rfl (by decide) (by decide), at_main_cst_11 V]
  rfl
theorem at_main_call0_v1 : after ops V (Proc.devRef .tc main_call0_v1) = val_main_call0_v1 (F := F) := by
  rw [writes.tunary V 78 rfl (by decide) (by decide), at_main_call0_v0 V]
  rfl
theorem at_main_v63 : after ops V (Proc.devRef .tc main_v63) = val_main_v63 (F := F) (V (Proc.devRef .tc main_arg1)) (V (Proc.devRef .tc main_arg3)) (V (Proc.devRef .tc main_arg4)) (V (Proc.devRef .tc main_arg5)) (V (Proc.devRef .tc main_arg6)) := by
  rw [writes.tternary V 79 rfl (by decide) (by decide) (by decide) (by decide), at_main_v61 V, at_main_v62 V, at_main_call0_v1 V]
  rfl
theorem at_main_c_12 : after ops V (Proc.devRef .tc main_c_12) = val_main_c_12 (F := F) := by
  rw [writes.nullary V 80 rfl (by decide)]
  rfl
theorem at_main_v64 : after ops V (Proc.devRef .tc main_v64) = val_main_v64 (F := F) := by
  rw [writes.unary V 81 rfl (by decide) (by decide), at_main_c_12 V]
  rfl
theorem at_main_v65 : after ops V (Proc.devRef .tc main_v65) = val_main_v65 (F := F) (V (Proc.devRef .tc main_arg1)) := by
  rw [writes.binary V 82 rfl (by decide) (by decide) (by decide), at_main_v51 V, at_main_v64 V]
  rfl
theorem at_main_c_13 : after ops V (Proc.devRef .tc main_c_13) = val_main_c_13 (F := F) := by
  rw [writes.nullary V 83 rfl (by decide)]
  rfl
theorem at_main_v66 : after ops V (Proc.devRef .tc main_v66) = val_main_v66 (F := F) := by
  rw [writes.unary V 84 rfl (by decide) (by decide), at_main_c_13 V]
  rfl
theorem at_main_v67 : after ops V (Proc.devRef .tc main_v67) = val_main_v67 (F := F) (V (Proc.devRef .tc main_arg1)) := by
  rw [writes.binary V 85 rfl (by decide) (by decide) (by decide), at_main_v51 V, at_main_v66 V]
  rfl
theorem at_main_v68 : after ops V (Proc.devRef .tc main_v68) = val_main_v68 (F := F) (V (Proc.devRef .tc main_arg1)) := by
  rw [writes.ternary V 86 rfl (by decide) (by decide) (by decide) (by decide), at_main_v65 V, at_main_v67 V, at_main_v51 V]
  rfl
theorem at_main_v69 : after ops V (Proc.devRef .tc main_v69) = val_main_v69 (F := F) (V (Proc.devRef .tc main_arg1)) := by
  rw [writes.unary V 87 rfl (by decide) (by decide), at_main_v68 V]
  rfl
theorem at_main_v70 : after ops V (Proc.devRef .tc main_v70) = val_main_v70 (F := F) (V (Proc.devRef .tc main_arg1)) (V (Proc.devRef .tc main_arg3)) (V (Proc.devRef .tc main_arg4)) (V (Proc.devRef .tc main_arg5)) (V (Proc.devRef .tc main_arg6)) := by
  rw [writes.binary V 88 rfl (by decide) (by decide) (by decide), at_main_v63 V, at_main_v69 V]
  rfl
theorem at_main_v71 : after ops V (Proc.devRef .tc main_v71) = val_main_v71 (F := F) (V (Proc.devRef .tc main_arg1)) (V (Proc.devRef .tc main_arg3)) (V (Proc.devRef .tc main_arg4)) (V (Proc.devRef .tc main_arg5)) (V (Proc.devRef .tc main_arg6)) := by
  rw [writes.binary V 89 rfl (by decide) (by decide) (by decide), at_main_v70 V, at_main_v56 V]
  rfl
theorem at_main_c_14 : after ops V (Proc.devRef .tc main_c_14) = val_main_c_14 (F := F) := by
  rw [writes.nullary V 90 rfl (by decide)]
  rfl
theorem at_main_v72 : after ops V (Proc.devRef .tc main_v72) = val_main_v72 (F := F) := by
  rw [writes.unary V 91 rfl (by decide) (by decide), at_main_c_14 V]
  rfl
theorem at_main_v73 : after ops V (Proc.devRef .tc main_v73) = val_main_v73 (F := F) (V (Proc.devRef .tc main_arg1)) := by
  rw [writes.binary V 92 rfl (by decide) (by decide) (by decide), at_main_v54 V, at_main_v72 V]
  rfl
theorem at_main_c_15 : after ops V (Proc.devRef .tc main_c_15) = val_main_c_15 (F := F) := by
  rw [writes.nullary V 93 rfl (by decide)]
  rfl
theorem at_main_v74 : after ops V (Proc.devRef .tc main_v74) = val_main_v74 (F := F) := by
  rw [writes.unary V 94 rfl (by decide) (by decide), at_main_c_15 V]
  rfl
theorem at_main_v75 : after ops V (Proc.devRef .tc main_v75) = val_main_v75 (F := F) (V (Proc.devRef .tc main_arg1)) := by
  rw [writes.binary V 95 rfl (by decide) (by decide) (by decide), at_main_v54 V, at_main_v74 V]
  rfl
theorem at_main_v76 : after ops V (Proc.devRef .tc main_v76) = val_main_v76 (F := F) (V (Proc.devRef .tc main_arg1)) := by
  rw [writes.ternary V 96 rfl (by decide) (by decide) (by decide) (by decide), at_main_v73 V, at_main_v75 V, at_main_v54 V]
  rfl
theorem at_main_v77 : after ops V (Proc.devRef .tc main_v77) = val_main_v77 (F := F) (V (Proc.devRef .tc main_arg1)) := by
  rw [writes.unary V 97 rfl (by decide) (by decide), at_main_v76 V]
  rfl
theorem at_main_v78 : after ops V (Proc.devRef .tc main_v78) = val_main_v78 (F := F) (V (Proc.devRef .tc main_arg1)) (V (Proc.devRef .tc main_arg3)) (V (Proc.devRef .tc main_arg4)) (V (Proc.devRef .tc main_arg5)) (V (Proc.devRef .tc main_arg6)) := by
  rw [writes.binary V 98 rfl (by decide) (by decide) (by decide), at_main_v63 V, at_main_v77 V]
  rfl
theorem at_main_v79 : after ops V (Proc.devRef .tc main_v79) = val_main_v79 (F := F) (V (Proc.devRef .tc main_arg1)) (V (Proc.devRef .tc main_arg3)) (V (Proc.devRef .tc main_arg4)) (V (Proc.devRef .tc main_arg5)) (V (Proc.devRef .tc main_arg6)) := by
  rw [writes.binary V 99 rfl (by decide) (by decide) (by decide), at_main_v71 V, at_main_v78 V]
  rfl
theorem at_main_v80 : after ops V (Proc.devRef .tc main_v80) = val_main_v80 (F := F) (V (Proc.devRef .tc main_arg0)) (V (Proc.devRef .tc main_arg7)) (V (Proc.devRef .tc main_arg8)) (V (Proc.devRef .tc main_arg9)) := by
  rw [writes.binary V 100 rfl (by decide) (by decide) (by decide), at_main_v47 V, writes.kept V main_arg9 (by decide)]
  rfl
theorem at_main_v81 : after ops V (Proc.devRef .tc main_v81) = val_main_v81 (F := F) (V (Proc.devRef .tc main_arg1)) (V (Proc.devRef .tc main_arg3)) (V (Proc.devRef .tc main_arg4)) (V (Proc.devRef .tc main_arg5)) (V (Proc.devRef .tc main_arg6)) := by
  rw [writes.unary V 101 rfl (by decide) (by decide), at_main_v79 V]
  rfl
theorem at_main_c_16 : after ops V (Proc.devRef .tc main_c_16) = val_main_c_16 (F := F) := by
  rw [writes.nullary V 102 rfl (by decide)]
  rfl
theorem at_main_v82 : after ops V (Proc.devRef .tc main_v82) = val_main_v82 (F := F) := by
  rw [writes.unary V 103 rfl (by decide) (by decide), at_main_c_16 V]
  rfl
theorem at_main_v83 : after ops V (Proc.devRef .tc main_v83) = val_main_v83 (F := F) (V (Proc.devRef .tc main_arg1)) := by
  rw [writes.binary V 104 rfl (by decide) (by decide) (by decide), at_main_v51 V, at_main_v82 V]
  rfl
theorem at_main_c_17 : after ops V (Proc.devRef .tc main_c_17) = val_main_c_17 (F := F) := by
  rw [writes.nullary V 105 rfl (by decide)]
  rfl
theorem at_main_v84 : after ops V (Proc.devRef .tc main_v84) = val_main_v84 (F := F) := by
  rw [writes.unary V 106 rfl (by decide) (by decide), at_main_c_17 V]
  rfl
theorem at_main_v85 : after ops V (Proc.devRef .tc main_v85) = val_main_v85 (F := F) (V (Proc.devRef .tc main_arg1)) := by
  rw [writes.binary V 107 rfl (by decide) (by decide) (by decide), at_main_v51 V, at_main_v84 V]
  rfl
theorem at_main_v86 : after ops V (Proc.devRef .tc main_v86) = val_main_v86 (F := F) (V (Proc.devRef .tc main_arg1)) := by
  rw [writes.ternary V 108 rfl (by decide) (by decide) (by decide) (by decide), at_main_v83 V, at_main_v85 V, at_main_v51 V]
  rfl
theorem at_main_v87 : after ops V (Proc.devRef .tc main_v87) = val_main_v87 (F := F) (V (Proc.devRef .tc main_arg1)) := by
  rw [writes.unary V 109 rfl (by decide) (by decide), at_main_v86 V]
  rfl
theorem at_main_v88 : after ops V (Proc.devRef .tc main_v88) = val_main_v88 (F := F) (V (Proc.devRef .tc main_arg0)) (V (Proc.devRef .tc main_arg1)) (V (Proc.devRef .tc main_arg7)) (V (Proc.devRef .tc main_arg8)) (V (Proc.devRef .tc main_arg9)) := by
  rw [writes.binary V 110 rfl (by decide) (by decide) (by decide), at_main_v80 V, at_main_v87 V]
  rfl
theorem at_main_v89 : after ops V (Proc.devRef .tc main_v89) = val_main_v89 (F := F) (V (Proc.devRef .tc main_arg1)) (V (Proc.devRef .tc main_arg3)) (V (Proc.devRef .tc main_arg4)) (V (Proc.devRef .tc main_arg5)) (V (Proc.devRef .tc main_arg6)) := by
  rw [writes.unary V 111 rfl (by decide) (by decide), at_main_v81 V]
  rfl
theorem at_main_v90 : after ops V (Proc.devRef .tc main_v90) = val_main_v90 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [writes.binary V 112 rfl (by decide) (by decide) (by decide), at_main_v89 V, at_main_v88 V]
  rfl
theorem at_main_cst_18 : after ops V (Proc.devRef .tc main_cst_18) = val_main_cst_18 (F := F) := by
  rw [writes.nullary V 113 rfl (by decide)]
  rfl
theorem at_main_v91 : after ops V (Proc.devRef .tc main_v91) = val_main_v91 (F := F) := by
  rw [writes.unary V 114 rfl (by decide) (by decide), at_main_cst_18 V]
  rfl
theorem at_main_v92 : after ops V (Proc.devRef .tc main_v92) = val_main_v92 (F := F) (V (Proc.devRef .tc main_arg1)) := by
  rw [writes.unary V 115 rfl (by decide) (by decide), at_main_v54 V]
  rfl
theorem at_main_v93 : after ops V (Proc.devRef .tc main_v93) = val_main_v93 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [writes.ternary V 116 rfl (by decide) (by decide) (by decide) (by decide), at_main_v91 V, at_main_v92 V, at_main_v90 V]
  rfl
theorem at_main_v94 : after ops V (Proc.devRef .tc main_v94) = val_main_v94 (F := F) (V (Proc.devRef .tc main_arg10)) := by
  rw [writes.unary V 117 rfl (by decide) (by decide), writes.kept V main_arg10 (by decide)]
  rfl
theorem at_main_v95 : after ops V (Proc.devRef .tc main_v95) = val_main_v95 (F := F) (V (Proc.devRef .tc main_arg10)) := by
  rw [writes.unary V 118 rfl (by decide) (by decide), at_main_v94 V]
  rfl
theorem at_main_v96 : after ops V (Proc.devRef .tc main_v96) = val_main_v96 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [writes.binary V 119 rfl (by decide) (by decide) (by decide), at_main_v93 V, at_main_v95 V]
  rfl
theorem at_main_call1_cst : after ops V (Proc.devRef .tc main_call1_cst) = val_main_call1_cst (F := F) := by
  rw [tnullary writes V 120 rfl (by decide)]
  rfl
theorem at_main_call1_v0 : after ops V (Proc.devRef .tc main_call1_v0) = val_main_call1_v0 (F := F) := by
  rw [writes.tunary V 121 rfl (by decide) (by decide), at_main_call1_cst V]
  rfl
theorem at_main_v97 : after ops V (Proc.devRef .tc main_v97) = val_main_v97 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [writes.tbinary V 122 rfl (by decide) (by decide) (by decide), at_main_v96 V, at_main_call1_v0 V]
  rfl
theorem at_main_cst_19 : after ops V (Proc.devRef .tc main_cst_19) = val_main_cst_19 (F := F) := by
  rw [writes.nullary V 123 rfl (by decide)]
  rfl
theorem at_main_v98 : after ops V (Proc.devRef .tc main_v98) = val_main_v98 (F := F) := by
  rw [writes.unary V 124 rfl (by decide) (by decide), at_main_cst_19 V]
  rfl
theorem at_main_v99 : after ops V (Proc.devRef .tc main_v99) = val_main_v99 (F := F) (V (Proc.devRef .tc main_arg2)) := by
  rw [writes.unary V 125 rfl (by decide) (by decide), writes.kept V main_arg2 (by decide)]
  rfl
theorem at_main_v100 : after ops V (Proc.devRef .tc main_v100) = val_main_v100 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [writes.ternary V 126 rfl (by decide) (by decide) (by decide) (by decide), at_main_v98 V, at_main_v99 V, at_main_v97 V]
  rfl
theorem at_main_v101 : after ops V (Proc.devRef .tc main_v101) = val_main_v101 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [writes.binary V 127 rfl (by decide) (by decide) (by decide), at_main_v100 V, writes.kept V main_arg11 (by decide)]
  rfl
theorem at_main_v102 : after ops V (Proc.devRef .tc main_v102) = val_main_v102 (F := F) (V (Proc.devRef .tc main_arg12)) := by
  rw [writes.unary V 128 rfl (by decide) (by decide), writes.kept V main_arg12 (by decide)]
  rfl
theorem at_main_v103 : after ops V (Proc.devRef .tc main_v103) = val_main_v103 (F := F) (V (Proc.devRef .tc main_arg12)) := by
  rw [writes.unary V 129 rfl (by decide) (by decide), at_main_v102 V]
  rfl
theorem at_main_v104 : after ops V (Proc.devRef .tc main_v104) = val_main_v104 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [writes.binary V 130 rfl (by decide) (by decide) (by decide), at_main_v101 V, at_main_v103 V]
  rfl
theorem at_main_call2_cst : after ops V (Proc.devRef .tc main_call2_cst) = val_main_call2_cst (F := F) := by
  rw [tnullary writes V 131 rfl (by decide)]
  rfl
theorem at_main_call2_v0 : after ops V (Proc.devRef .tc main_call2_v0) = val_main_call2_v0 (F := F) := by
  rw [writes.tunary V 132 rfl (by decide) (by decide), at_main_call2_cst V]
  rfl
theorem at_main_v105 : after ops V (Proc.devRef .tc main_v105) = val_main_v105 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [writes.tbinary V 133 rfl (by decide) (by decide) (by decide), at_main_v104 V, at_main_call2_v0 V]
  rfl
theorem at_main_v106 : after ops V (Proc.devRef .tc main_v106) = val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [writes.binary V 134 rfl (by decide) (by decide) (by decide), at_main_v105 V, writes.kept V main_arg13 (by decide)]
  rfl
theorem at_main_v107 : after ops V (Proc.devRef .tc main_v107) = val_main_v107 (F := F) (V (Proc.devRef .tc main_arg14)) := by
  rw [writes.unary V 135 rfl (by decide) (by decide), writes.kept V main_arg14 (by decide)]
  rfl
theorem at_main_v108 : after ops V (Proc.devRef .tc main_v108) = val_main_v108 (F := F) (V (Proc.devRef .tc main_arg14)) := by
  rw [writes.unary V 136 rfl (by decide) (by decide), at_main_v107 V]
  rfl
theorem at_main_v109 : after ops V (Proc.devRef .tc main_v109) = val_main_v109 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [writes.binary V 137 rfl (by decide) (by decide) (by decide), at_main_v106 V, at_main_v108 V]
  rfl

set_option maxHeartbeats 4000000 in
/-- On every device, for any float values, from any memory with zero counters: every weakly fair execution of the
    program terminates with the result buffer at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v109).trans (at_main_v109 (launchContents m c)),
      (h c main_arg0).trans (writes.kept (launchContents m c) main_arg0 (by decide)),
      (h c main_arg1).trans (writes.kept (launchContents m c) main_arg1 (by decide)),
      (h c main_arg2).trans (writes.kept (launchContents m c) main_arg2 (by decide)),
      (h c main_arg3).trans (writes.kept (launchContents m c) main_arg3 (by decide)),
      (h c main_arg4).trans (writes.kept (launchContents m c) main_arg4 (by decide)),
      (h c main_arg5).trans (writes.kept (launchContents m c) main_arg5 (by decide)),
      (h c main_arg6).trans (writes.kept (launchContents m c) main_arg6 (by decide)),
      (h c main_arg7).trans (writes.kept (launchContents m c) main_arg7 (by decide)),
      (h c main_arg8).trans (writes.kept (launchContents m c) main_arg8 (by decide)),
      (h c main_arg9).trans (writes.kept (launchContents m c) main_arg9 (by decide)),
      (h c main_arg10).trans (writes.kept (launchContents m c) main_arg10 (by decide)),
      (h c main_arg11).trans (writes.kept (launchContents m c) main_arg11 (by decide)),
      (h c main_arg12).trans (writes.kept (launchContents m c) main_arg12 (by decide)),
      (h c main_arg13).trans (writes.kept (launchContents m c) main_arg13 (by decide)),
      (h c main_arg14).trans (writes.kept (launchContents m c) main_arg14 (by decide))⟩)
    (run_seq scopedRefs_eq scopedSems_eq defs main (fun _ => ops) main_eq (fun _ => ops_sub) m ρ)

end Cert.RefStage

end
-- ==== Proof.lean ====
/-
  The certificate of the graph-convolution kernel against its reference.

  The kernel program runs two pipelined regions among host operations; each region's frame is proved from its body's
  run at every grid point (the first region keeps nothing between points; the second carries its accumulator), so the
  program terminates without a fault and leaves its arguments unchanged, at the word level and over the extended
  reals alike. The reference is host operations only. Over the extended reals the kernel program's result is the
  reference's: the projected node features agree (a matrix product over a concatenation is the sum of the products
  over its parts), the message-passing stage is the same function of them in both programs, and pooling by a one-hot
  matrix product accumulated block by block is the segment sum. The ideal pass rewrote nothing, so the idealized
  kernel program is the kernel program's own text.
-/
import proofs.«416187_j31533649887980_1_alg».proof.Defs
import proofs.«416187_j31533649887980_1_alg».proof.Proof.Gen.Kernel
import proofs.«416187_j31533649887980_1_alg».proof.Proof.Gen.KernelIdeal
import proofs.«416187_j31533649887980_1_alg».proof.Proof.Gen.ReferenceIdeal
import proofs.«416187_j31533649887980_1_alg».proof.Proof.Gen.Pre_finite_inputs
import proofs.«416187_j31533649887980_1_alg».proof.Proof.KRun
import proofs.«416187_j31533649887980_1_alg».proof.Proof.Bridge
import proofs.«416187_j31533649887980_1_alg».proof.Proof.RefStageRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k [Cert.Kernel.Facts] [Cert.Pre_finite_inputs.Facts] : Cert.frame_Kernel :=
  fun m ρ _ => Cert.Kernel.Hand.frame (F := Bits) m ρ

/-- So does the idealized kernel program. -/
theorem frame_ki [Cert.KernelIdeal.Facts] [Cert.Pre_finite_inputs.Facts] : Cert.frame_KernelIdeal :=
  fun m ρ _ => Cert.KernelIdeal.Hand.frame (F := Ideal) m ρ

/-- The reference runs and leaves its arguments unchanged: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.RefStage.run (F := Ideal) m ρ)

/-- From memories agreeing on the arguments both programs end with the same result: the reference's last stage of the
    arguments, which the kernel program's result array equals entry by entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.V6 m (Cert.KernelIdeal.Hand.outs m) c (Proc.devRef .tc Cert.KernelIdeal.main_v96),
    Cert.KernelIdeal.Hand.kernel_run m ρ, ?_⟩
  refine (θ_run Cert.ReferenceIdeal.defs _ _).mono (fun _ h c => ⟨(h c).1.trans ?_, (h c).2⟩) (Cert.RefStage.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
